-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x5x128 : Shape := ⟨3, ![262144, 5, 128]⟩
abbrev S4x64x2 : Shape := ⟨3, ![4, 64, 2]⟩
abbrev S_ : Shape := ⟨0, ![]⟩

class Facts : Prop where
  bcast_S_S262144x5x128 : S_.BroadcastsInDim S262144x5x128 (![] : Fin 0 → Fin S262144x5x128.rank)
  reducesTo_S262144x5x128_S_d0_1_2 : S262144x5x128.ReducesTo [0, 1, 2] S_
  h_S_ : 0 < S_.numel
  bcast_S_S4x64x2 : S_.BroadcastsInDim S4x64x2 (![] : Fin 0 → Fin S4x64x2.rank)
  reducesTo_S4x64x2_S_d0_1_2 : S4x64x2.ReducesTo [0, 1, 2] S_

variable [Facts]

def fn {F : FTy → Type} [FloatOps F] (main_arg0 : FVec F S262144x5x128 .f32) (main_arg1 : FVec F S4x64x2 .f32) : IVec S_ 1 :=
  let main_v0 : FVec F S262144x5x128 .f32 := Host.absf main_arg0
  let main_cst : FVec F S_ .f32 := constant S_ .f32 0x7F800000#32
  let main_v1 : FVec F S262144x5x128 .f32 := broadcastInDim S262144x5x128 ![] bcast_S_S262144x5x128 main_cst
  let main_v2 : IVec S262144x5x128 1 := cmpf .olt main_v0 main_v1
  let main_c : IVec S_ 1 := constantI S_ 1 1#1
  let main_v3 : IVec S_ 1 := (fun x v => Host.reduce IntOp.andi x v reducesTo_S262144x5x128_S_d0_1_2 h_S_) main_v2 main_c
  let main_v4 : FVec F S4x64x2 .f32 := Host.absf main_arg1
  let main_cst_0 : FVec F S_ .f32 := constant S_ .f32 0x7F800000#32
  let main_v5 : FVec F S4x64x2 .f32 := broadcastInDim S4x64x2 ![] bcast_S_S4x64x2 main_cst_0
  let main_v6 : IVec S4x64x2 1 := cmpf .olt main_v4 main_v5
  let main_c_1 : IVec S_ 1 := constantI S_ 1 1#1
  let main_v7 : IVec S_ 1 := (fun x v => Host.reduce IntOp.andi x v reducesTo_S4x64x2_S_d0_1_2 h_S_) main_v6 main_c_1
  let main_v8 : IVec S_ 1 := andi main_v3 main_v7
  main_v8
-- ==== Kernel.lean ====
abbrev S262144x5x128 : Shape := ⟨3, ![262144, 5, 128]⟩
abbrev S4x64x2 : Shape := ⟨3, ![4, 64, 2]⟩
abbrev S2 : Shape := ⟨1, ![2]⟩
abbrev S_ : Shape := ⟨0, ![]⟩
abbrev S4x64 : Shape := ⟨2, ![4, 64]⟩
abbrev S4x64x1 : Shape := ⟨3, ![4, 64, 1]⟩
abbrev S1x1x2 : Shape := ⟨3, ![1, 1, 2]⟩
abbrev S4x1x64x2 : Shape := ⟨4, ![4, 1, 64, 2]⟩
abbrev S4x2x64x2 : Shape := ⟨4, ![4, 2, 64, 2]⟩
abbrev S8x64x2 : Shape := ⟨3, ![8, 64, 2]⟩
abbrev S64 : Shape := ⟨1, ![64]⟩
abbrev S64x1 : Shape := ⟨2, ![64, 1]⟩
abbrev S64x2 : Shape := ⟨2, ![64, 2]⟩
abbrev S1x64x2 : Shape := ⟨3, ![1, 64, 2]⟩
abbrev S5x64x2 : Shape := ⟨3, ![5, 64, 2]⟩
abbrev S5x64x1 : Shape := ⟨3, ![5, 64, 1]⟩
abbrev S5x64 : Shape := ⟨2, ![5, 64]⟩
abbrev S5x128 : Shape := ⟨2, ![5, 128]⟩
abbrev S262144x128 : Shape := ⟨2, ![262144, 128]⟩
abbrev S512x5x128 : Shape := ⟨3, ![512, 5, 128]⟩
abbrev S512x128 : Shape := ⟨2, ![512, 128]⟩
abbrev S512x1x128 : Shape := ⟨3, ![512, 1, 128]⟩
abbrev S1x128 : Shape := ⟨2, ![1, 128]⟩
abbrev S128 : Shape := ⟨1, ![128]⟩

abbrev nBuf : Space → Nat
  | .hbm => 153
  | .vmem => 6
  | .smem => 0
  | _ => 0

abbrev hbmTy0_0 (i : Nat) : BufTy := match i % 128 with
  | 0 => ⟨S262144x5x128, .f32⟩
  | 1 => ⟨S4x64x2, .f32⟩
  | 2 => ⟨S2, .f32⟩
  | 3 => ⟨S4x64x2, .f32⟩
  | 4 => ⟨S_, .f32⟩
  | 5 => ⟨S4x64, .f32⟩
  | 6 => ⟨S4x64x1, .f32⟩
  | 7 => ⟨S4x64x1, .f32⟩
  | 8 => ⟨S_, .f32⟩
  | 9 => ⟨S4x64x1, .f32⟩
  | 10 => ⟨S4x64x1, .f32⟩
  | 11 => ⟨S4x64x2, .f32⟩
  | 12 => ⟨S4x64x2, .f32⟩
  | 13 => ⟨S1x1x2, .f32⟩
  | 14 => ⟨S4x64x2, .f32⟩
  | 15 => ⟨S4x64x2, .f32⟩
  | 16 => ⟨S4x1x64x2, .f32⟩
  | 17 => ⟨S4x1x64x2, .f32⟩
  | 18 => ⟨S4x2x64x2, .f32⟩
  | 19 => ⟨S8x64x2, .f32⟩
  | 20 => ⟨S_, .f32⟩
  | 21 => ⟨S64, .f32⟩
  | 22 => ⟨S_, .f32⟩
  | 23 => ⟨S64, .f32⟩
  | 24 => ⟨S64x1, .f32⟩
  | 25 => ⟨S64x1, .f32⟩
  | 26 => ⟨S64x2, .f32⟩
  | 27 => ⟨S1x64x2, .f32⟩
  | 28 => ⟨S64x2, .f32⟩
  | 29 => ⟨S64x1, .f32⟩
  | 30 => ⟨S64, .f32⟩
  | 31 => ⟨S64x1, .f32⟩
  | 32 => ⟨S64, .f32⟩
  | 33 => ⟨S64, .f32⟩
  | 34 => ⟨S64x1, .f32⟩
  | 35 => ⟨S64, .f32⟩
  | 36 => ⟨S64x1, .f32⟩
  | 37 => ⟨S64, .f32⟩
  | 38 => ⟨S64, .f32⟩
  | 39 => ⟨S64, .f32⟩
  | 40 => ⟨S64x1, .f32⟩
  | 41 => ⟨S64, .f32⟩
  | 42 => ⟨S64x1, .f32⟩
  | 43 => ⟨S64, .f32⟩
  | 44 => ⟨S64, .f32⟩
  | 45 => ⟨S64x1, .f32⟩
  | 46 => ⟨S64, .f32⟩
  | 47 => ⟨S64x1, .f32⟩
  | 48 => ⟨S64, .f32⟩
  | 49 => ⟨S64, .f32⟩
  | 50 => ⟨S64, .f32⟩
  | 51 => ⟨S64x1, .f32⟩
  | 52 => ⟨S64x1, .f32⟩
  | 53 => ⟨S64x2, .f32⟩
  | 54 => ⟨S1x64x2, .f32⟩
  | 55 => ⟨S64x2, .f32⟩
  | 56 => ⟨S64x1, .f32⟩
  | 57 => ⟨S64, .f32⟩
  | 58 => ⟨S64x1, .f32⟩
  | 59 => ⟨S64, .f32⟩
  | 60 => ⟨S64, .f32⟩
  | 61 => ⟨S64x1, .f32⟩
  | 62 => ⟨S64, .f32⟩
  | 63 => ⟨S64x1, .f32⟩
  | 64 => ⟨S64, .f32⟩
  | 65 => ⟨S64, .f32⟩
  | 66 => ⟨S64, .f32⟩
  | 67 => ⟨S64x1, .f32⟩
  | 68 => ⟨S64, .f32⟩
  | 69 => ⟨S64x1, .f32⟩
  | 70 => ⟨S64, .f32⟩
  | 71 => ⟨S64, .f32⟩
  | 72 => ⟨S64x1, .f32⟩
  | 73 => ⟨S64, .f32⟩
  | 74 => ⟨S64x1, .f32⟩
  | 75 => ⟨S64, .f32⟩
  | 76 => ⟨S64, .f32⟩
  | 77 => ⟨S64, .f32⟩
  | 78 => ⟨S64x1, .f32⟩
  | 79 => ⟨S64x1, .f32⟩
  | 80 => ⟨S64x2, .f32⟩
  | 81 => ⟨S1x64x2, .f32⟩
  | 82 => ⟨S64x2, .f32⟩
  | 83 => ⟨S64x1, .f32⟩
  | 84 => ⟨S64, .f32⟩
  | 85 => ⟨S64x1, .f32⟩
  | 86 => ⟨S64, .f32⟩
  | 87 => ⟨S64, .f32⟩
  | 88 => ⟨S64x1, .f32⟩
  | 89 => ⟨S64, .f32⟩
  | 90 => ⟨S64x1, .f32⟩
  | 91 => ⟨S64, .f32⟩
  | 92 => ⟨S64, .f32⟩
  | 93 => ⟨S64, .f32⟩
  | 94 => ⟨S64x1, .f32⟩
  | 95 => ⟨S64, .f32⟩
  | 96 => ⟨S64x1, .f32⟩
  | 97 => ⟨S64, .f32⟩
  | 98 => ⟨S64, .f32⟩
  | 99 => ⟨S64x1, .f32⟩
  | 100 => ⟨S64, .f32⟩
  | 101 => ⟨S64x1, .f32⟩
  | 102 => ⟨S64, .f32⟩
  | 103 => ⟨S64, .f32⟩
  | 104 => ⟨S64, .f32⟩
  | 105 => ⟨S64x1, .f32⟩
  | 106 => ⟨S64x1, .f32⟩
  | 107 => ⟨S64x2, .f32⟩
  | 108 => ⟨S1x64x2, .f32⟩
  | 109 => ⟨S64x2, .f32⟩
  | 110 => ⟨S64x1, .f32⟩
  | 111 => ⟨S64, .f32⟩
  | 112 => ⟨S64x1, .f32⟩
  | 113 => ⟨S64, .f32⟩
  | 114 => ⟨S64, .f32⟩
  | 115 => ⟨S64x1, .f32⟩
  | 116 => ⟨S64, .f32⟩
  | 117 => ⟨S64x1, .f32⟩
  | 118 => ⟨S64, .f32⟩
  | 119 => ⟨S64, .f32⟩
  | 120 => ⟨S64, .f32⟩
  | 121 => ⟨S64x1, .f32⟩
  | 122 => ⟨S64, .f32⟩
  | 123 => ⟨S64x1, .f32⟩
  | 124 => ⟨S64, .f32⟩
  | 125 => ⟨S64, .f32⟩
  | 126 => ⟨S64x1, .f32⟩
  | 127 => ⟨S64, .f32⟩
  | _ => ⟨S262144x5x128, .f32⟩

abbrev hbmTy0_1 (i : Nat) : BufTy := match i % 128 with
  | 0 => ⟨S64x1, .f32⟩
  | 1 => ⟨S64, .f32⟩
  | 2 => ⟨S64, .f32⟩
  | 3 => ⟨S64, .f32⟩
  | 4 => ⟨S64x1, .f32⟩
  | 5 => ⟨S64x1, .f32⟩
  | 6 => ⟨S64x2, .f32⟩
  | 7 => ⟨S1x64x2, .f32⟩
  | 8 => ⟨S1x64x2, .f32⟩
  | 9 => ⟨S1x64x2, .f32⟩
  | 10 => ⟨S1x64x2, .f32⟩
  | 11 => ⟨S1x64x2, .f32⟩
  | 12 => ⟨S5x64x2, .f32⟩
  | 13 => ⟨S5x64x1, .f32⟩
  | 14 => ⟨S5x64, .f32⟩
  | 15 => ⟨S5x64x1, .f32⟩
  | 16 => ⟨S5x64, .f32⟩
  | 17 => ⟨S5x64x2, .f32⟩
  | 18 => ⟨S5x128, .f32⟩
  | 19 => ⟨S5x64, .f32⟩
  | 20 => ⟨S5x64x1, .f32⟩
  | 21 => ⟨S5x64x1, .f32⟩
  | 22 => ⟨S5x64x2, .f32⟩
  | 23 => ⟨S5x128, .f32⟩
  | 24 => ⟨S262144x128, .f32⟩
  | _ => ⟨S262144x5x128, .f32⟩

abbrev hbmTy (i : Nat) : BufTy := match i / 128 with
  | 0 => hbmTy0_0 i
  | 1 => hbmTy0_1 i
  | _ => ⟨S262144x5x128, .f32⟩

abbrev bufTy : (tb : Table) → Fin (tcTables nBuf tb) → BufTy
  | .hbm, ⟨i, _⟩ => hbmTy i
  | .local _ .vmem, ⟨0, _⟩ => ⟨S5x128, .f32⟩
  | .local _ .vmem, ⟨1, _⟩ => ⟨S5x128, .f32⟩
  | .local _ .vmem, ⟨2, _⟩ => ⟨S512x5x128, .f32⟩
  | .local _ .vmem, ⟨3, _⟩ => ⟨S512x5x128, .f32⟩
  | .local _ .vmem, ⟨4, _⟩ => ⟨S512x128, .f32⟩
  | .local _ .vmem, ⟨5, _⟩ => ⟨S512x128, .f32⟩
  | _, _ => ⟨S262144x5x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S4x64x2_S4x64_d2 : S4x64x2.ReducesTo [2] S4x64
  h_S_ : 0 < S_.numel
  bcast_S4x64_S4x64x1_0_1 : S4x64.BroadcastsInDim S4x64x1 (![0, 1] : Fin 2 → Fin S4x64x1.rank)
  bcast_S_S4x64x1 : S_.BroadcastsInDim S4x64x1 (![] : Fin 0 → Fin S4x64x1.rank)
  bcast_S4x64x1_S4x64x2_0_1_2 : S4x64x1.BroadcastsInDim S4x64x2 (![0, 1, 2] : Fin 3 → Fin S4x64x2.rank)
  bcast_S2_S1x1x2_2 : S2.BroadcastsInDim S1x1x2 (![2] : Fin 1 → Fin S1x1x2.rank)
  bcast_S1x1x2_S4x64x2_0_1_2 : S1x1x2.BroadcastsInDim S4x64x2 (![0, 1, 2] : Fin 3 → Fin S4x64x2.rank)
  bcast_S4x64x2_S4x1x64x2_0_2_3 : S4x64x2.BroadcastsInDim S4x1x64x2 (![0, 2, 3] : Fin 3 → Fin S4x1x64x2.rank)
  concatenates_S4x1x64x2_S4x1x64x2_S4x2x64x2_d1 : Shape.Concatenates [S4x1x64x2, S4x1x64x2] S4x2x64x2 1
  shapeCasts_S4x2x64x2_S8x64x2 : S4x2x64x2.ShapeCasts S8x64x2
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  slices_S8x64x2_S1x64x2_7_0_0 : S8x64x2.Slices ![7, 0, 0] S1x64x2
  shapeCasts_S1x64x2_S64x2 : S1x64x2.ShapeCasts S64x2
  slices_S64x2_S64x1_0_0 : S64x2.Slices ![0, 0] S64x1
  shapeCasts_S64x1_S64 : S64x1.ShapeCasts S64
  slices_S64x2_S64x1_0_1 : S64x2.Slices ![0, 1] S64x1
  slices_S8x64x2_S1x64x2_5_0_0 : S8x64x2.Slices ![5, 0, 0] S1x64x2
  slices_S8x64x2_S1x64x2_2_0_0 : S8x64x2.Slices ![2, 0, 0] S1x64x2
  slices_S8x64x2_S1x64x2_0_0_0 : S8x64x2.Slices ![0, 0, 0] S1x64x2
  bcast_S64x2_S1x64x2_1_2 : S64x2.BroadcastsInDim S1x64x2 (![1, 2] : Fin 2 → Fin S1x64x2.rank)
  concatenates_S1x64x2_S1x64x2_S1x64x2_S1x64x2_S1x64x2_S5x64x2_d0 : Shape.Concatenates [S1x64x2, S1x64x2, S1x64x2, S1x64x2, S1x64x2] S5x64x2 0
  slices_S5x64x2_S5x64x1_0_0_0 : S5x64x2.Slices ![0, 0, 0] S5x64x1
  shapeCasts_S5x64x1_S5x64 : S5x64x1.ShapeCasts S5x64
  slices_S5x64x2_S5x64x1_0_0_1 : S5x64x2.Slices ![0, 0, 1] S5x64x1
  bcast_S5x64_S5x64x2_0_1 : S5x64.BroadcastsInDim S5x64x2 (![0, 1] : Fin 2 → Fin S5x64x2.rank)
  shapeCasts_S5x64x2_S5x128 : S5x64x2.ShapeCasts S5x128
  bcast_S5x64_S5x64x1_0_1 : S5x64.BroadcastsInDim S5x64x1 (![0, 1] : Fin 2 → Fin S5x64x1.rank)
  concatenates_S5x64x1_S5x64x1_S5x64x2_d2 : Shape.Concatenates [S5x64x1, S5x64x1] S5x64x2 2
  iota_S512x128_d1_w32 : S512x128.Iotas .tc 32 [1]
  inb_S512x5x128_S512x1x128_0_0_0 : ∀ a, (![0, 0, 0] : Fin 3 → Nat) a + S512x1x128.size a ≤ S512x5x128.size a
  h_S512x1x128 : 0 < S512x1x128.numel
  shapeCasts_S512x1x128_S512x128 : S512x1x128.ShapeCasts S512x128
  rotates_S512x128_d1 : S512x128.Rotates 1 none
  inb_S5x128_S1x128_0_0 : ∀ a, (![0, 0] : Fin 2 → Nat) a + S1x128.size a ≤ S5x128.size a
  h_S1x128 : 0 < S1x128.numel
  shapeCasts_S1x128_S128 : S1x128.ShapeCasts S128
  shapeCasts_S128_S1x128 : S128.ShapeCasts S1x128
  broadcasts_S1x128_S512x128 : S1x128.Broadcasts S512x128
  inb_S512x5x128_S512x1x128_0_1_0 : ∀ a, (![0, 1, 0] : Fin 3 → Nat) a + S512x1x128.size a ≤ S512x5x128.size a
  inb_S5x128_S1x128_1_0 : ∀ a, (![1, 0] : Fin 2 → Nat) a + S1x128.size a ≤ S5x128.size a
  inb_S512x5x128_S512x1x128_0_2_0 : ∀ a, (![0, 2, 0] : Fin 3 → Nat) a + S512x1x128.size a ≤ S512x5x128.size a
  inb_S5x128_S1x128_2_0 : ∀ a, (![2, 0] : Fin 2 → Nat) a + S1x128.size a ≤ S5x128.size a
  inb_S512x5x128_S512x1x128_0_3_0 : ∀ a, (![0, 3, 0] : Fin 3 → Nat) a + S512x1x128.size a ≤ S512x5x128.size a
  inb_S5x128_S1x128_3_0 : ∀ a, (![3, 0] : Fin 2 → Nat) a + S1x128.size a ≤ S5x128.size a
  inb_S512x5x128_S512x1x128_0_4_0 : ∀ a, (![0, 4, 0] : Fin 3 → Nat) a + S512x1x128.size a ≤ S512x5x128.size a
  inb_S5x128_S1x128_4_0 : ∀ a, (![4, 0] : Fin 2 → Nat) a + S1x128.size a ≤ S5x128.size a
  inb_S512x128_S512x128_0_0 : ∀ a, (![0, 0] : Fin 2 → Nat) a + S512x128.size a ≤ S512x128.size a
  h_S512x128 : 0 < S512x128.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5x128.size a ≤ S5x128.size a
  hwx0_0 : ∀ i : grid0.Coords, EltTy.bits .f32 = 32 ∨ (Rect.block (s := S5x128) S5x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x5x128.size a ≤ S262144x5x128.size a
  hwx0_2 : ∀ i : grid0.Coords, EltTy.bits .f32 = 32 ∨ (Rect.block (s := S262144x5x128) S512x5x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S262144x128.size a
  hwx0_3 : ∀ i : grid0.Coords, EltTy.bits .f32 = 32 ∨ (Rect.block (s := S262144x128) S512x128.size (cc0_transform_3 i) (hinb0_3 i)).WholeWords (EltTy.packing .f32)

variable [Facts₀]

abbrev win0_0 : Pipeline.Window sig grid0 :=
  Pipeline.Window.ofSpec (Memref.whole main_v136) S5x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v141) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x5x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v142) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x5x128 : Shape := ⟨3, ![262144, 5, 128]⟩
abbrev S4x64x2 : Shape := ⟨3, ![4, 64, 2]⟩
abbrev S2 : Shape := ⟨1, ![2]⟩
abbrev S262144x5x64x2 : Shape := ⟨4, ![262144, 5, 64, 2]⟩
abbrev S_ : Shape := ⟨0, ![]⟩
abbrev S4x64 : Shape := ⟨2, ![4, 64]⟩
abbrev S4x64x1 : Shape := ⟨3, ![4, 64, 1]⟩
abbrev S1x1x2 : Shape := ⟨3, ![1, 1, 2]⟩
abbrev S4x1x64x2 : Shape := ⟨4, ![4, 1, 64, 2]⟩
abbrev S4x2x64x2 : Shape := ⟨4, ![4, 2, 64, 2]⟩
abbrev S8x64x2 : Shape := ⟨3, ![8, 64, 2]⟩
abbrev S64 : Shape := ⟨1, ![64]⟩
abbrev S64x1 : Shape := ⟨2, ![64, 1]⟩
abbrev S64x2 : Shape := ⟨2, ![64, 2]⟩
abbrev S1x64x2 : Shape := ⟨3, ![1, 64, 2]⟩
abbrev S5x64x2 : Shape := ⟨3, ![5, 64, 2]⟩
abbrev S262144x5x64x1 : Shape := ⟨4, ![262144, 5, 64, 1]⟩
abbrev S262144x5x64 : Shape := ⟨3, ![262144, 5, 64]⟩
abbrev S5x64x1 : Shape := ⟨3, ![5, 64, 1]⟩
abbrev S5x64 : Shape := ⟨2, ![5, 64]⟩
abbrev S1x5x64 : Shape := ⟨3, ![1, 5, 64]⟩
abbrev S262144x128 : Shape := ⟨2, ![262144, 128]⟩

abbrev nBuf : Space → Nat
  | .hbm => 181
  | .vmem => 0
  | .smem => 0
  | _ => 0

abbrev hbmTy0_0 (i : Nat) : BufTy := match i % 128 with
  | 0 => ⟨S262144x5x128, .f32⟩
  | 1 => ⟨S4x64x2, .f32⟩
  | 2 => ⟨S2, .f32⟩
  | 3 => ⟨S262144x5x64x2, .f32⟩
  | 4 => ⟨S4x64x2, .f32⟩
  | 5 => ⟨S_, .f32⟩
  | 6 => ⟨S4x64, .f32⟩
  | 7 => ⟨S4x64x1, .f32⟩
  | 8 => ⟨S4x64x1, .f32⟩
  | 9 => ⟨S_, .f32⟩
  | 10 => ⟨S4x64x1, .f32⟩
  | 11 => ⟨S4x64x1, .f32⟩
  | 12 => ⟨S4x64x2, .f32⟩
  | 13 => ⟨S4x64x2, .f32⟩
  | 14 => ⟨S1x1x2, .f32⟩
  | 15 => ⟨S4x64x2, .f32⟩
  | 16 => ⟨S4x64x2, .f32⟩
  | 17 => ⟨S4x1x64x2, .f32⟩
  | 18 => ⟨S4x1x64x2, .f32⟩
  | 19 => ⟨S4x2x64x2, .f32⟩
  | 20 => ⟨S8x64x2, .f32⟩
  | 21 => ⟨S_, .f32⟩
  | 22 => ⟨S64, .f32⟩
  | 23 => ⟨S_, .f32⟩
  | 24 => ⟨S64, .f32⟩
  | 25 => ⟨S64x1, .f32⟩
  | 26 => ⟨S64x1, .f32⟩
  | 27 => ⟨S64x2, .f32⟩
  | 28 => ⟨S1x64x2, .f32⟩
  | 29 => ⟨S64x2, .f32⟩
  | 30 => ⟨S64x1, .f32⟩
  | 31 => ⟨S64, .f32⟩
  | 32 => ⟨S64x1, .f32⟩
  | 33 => ⟨S64, .f32⟩
  | 34 => ⟨S64, .f32⟩
  | 35 => ⟨S64x1, .f32⟩
  | 36 => ⟨S64, .f32⟩
  | 37 => ⟨S64x1, .f32⟩
  | 38 => ⟨S64, .f32⟩
  | 39 => ⟨S64, .f32⟩
  | 40 => ⟨S64, .f32⟩
  | 41 => ⟨S64x1, .f32⟩
  | 42 => ⟨S64, .f32⟩
  | 43 => ⟨S64x1, .f32⟩
  | 44 => ⟨S64, .f32⟩
  | 45 => ⟨S64, .f32⟩
  | 46 => ⟨S64x1, .f32⟩
  | 47 => ⟨S64, .f32⟩
  | 48 => ⟨S64x1, .f32⟩
  | 49 => ⟨S64, .f32⟩
  | 50 => ⟨S64, .f32⟩
  | 51 => ⟨S64, .f32⟩
  | 52 => ⟨S64x1, .f32⟩
  | 53 => ⟨S64x1, .f32⟩
  | 54 => ⟨S64x2, .f32⟩
  | 55 => ⟨S1x64x2, .f32⟩
  | 56 => ⟨S64x2, .f32⟩
  | 57 => ⟨S64x1, .f32⟩
  | 58 => ⟨S64, .f32⟩
  | 59 => ⟨S64x1, .f32⟩
  | 60 => ⟨S64, .f32⟩
  | 61 => ⟨S64, .f32⟩
  | 62 => ⟨S64x1, .f32⟩
  | 63 => ⟨S64, .f32⟩
  | 64 => ⟨S64x1, .f32⟩
  | 65 => ⟨S64, .f32⟩
  | 66 => ⟨S64, .f32⟩
  | 67 => ⟨S64, .f32⟩
  | 68 => ⟨S64x1, .f32⟩
  | 69 => ⟨S64, .f32⟩
  | 70 => ⟨S64x1, .f32⟩
  | 71 => ⟨S64, .f32⟩
  | 72 => ⟨S64, .f32⟩
  | 73 => ⟨S64x1, .f32⟩
  | 74 => ⟨S64, .f32⟩
  | 75 => ⟨S64x1, .f32⟩
  | 76 => ⟨S64, .f32⟩
  | 77 => ⟨S64, .f32⟩
  | 78 => ⟨S64, .f32⟩
  | 79 => ⟨S64x1, .f32⟩
  | 80 => ⟨S64x1, .f32⟩
  | 81 => ⟨S64x2, .f32⟩
  | 82 => ⟨S1x64x2, .f32⟩
  | 83 => ⟨S64x2, .f32⟩
  | 84 => ⟨S64x1, .f32⟩
  | 85 => ⟨S64, .f32⟩
  | 86 => ⟨S64x1, .f32⟩
  | 87 => ⟨S64, .f32⟩
  | 88 => ⟨S64, .f32⟩
  | 89 => ⟨S64x1, .f32⟩
  | 90 => ⟨S64, .f32⟩
  | 91 => ⟨S64x1, .f32⟩
  | 92 => ⟨S64, .f32⟩
  | 93 => ⟨S64, .f32⟩
  | 94 => ⟨S64, .f32⟩
  | 95 => ⟨S64x1, .f32⟩
  | 96 => ⟨S64, .f32⟩
  | 97 => ⟨S64x1, .f32⟩
  | 98 => ⟨S64, .f32⟩
  | 99 => ⟨S64, .f32⟩
  | 100 => ⟨S64x1, .f32⟩
  | 101 => ⟨S64, .f32⟩
  | 102 => ⟨S64x1, .f32⟩
  | 103 => ⟨S64, .f32⟩
  | 104 => ⟨S64, .f32⟩
  | 105 => ⟨S64, .f32⟩
  | 106 => ⟨S64x1, .f32⟩
  | 107 => ⟨S64x1, .f32⟩
  | 108 => ⟨S64x2, .f32⟩
  | 109 => ⟨S1x64x2, .f32⟩
  | 110 => ⟨S64x2, .f32⟩
  | 111 => ⟨S64x1, .f32⟩
  | 112 => ⟨S64, .f32⟩
  | 113 => ⟨S64x1, .f32⟩
  | 114 => ⟨S64, .f32⟩
  | 115 => ⟨S64, .f32⟩
  | 116 => ⟨S64x1, .f32⟩
  | 117 => ⟨S64, .f32⟩
  | 118 => ⟨S64x1, .f32⟩
  | 119 => ⟨S64, .f32⟩
  | 120 => ⟨S64, .f32⟩
  | 121 => ⟨S64, .f32⟩
  | 122 => ⟨S64x1, .f32⟩
  | 123 => ⟨S64, .f32⟩
  | 124 => ⟨S64x1, .f32⟩
  | 125 => ⟨S64, .f32⟩
  | 126 => ⟨S64, .f32⟩
  | 127 => ⟨S64x1, .f32⟩
  | _ => ⟨S262144x5x128, .f32⟩

abbrev hbmTy0_1 (i : Nat) : BufTy := match i % 128 with
  | 0 => ⟨S64, .f32⟩
  | 1 => ⟨S64x1, .f32⟩
  | 2 => ⟨S64, .f32⟩
  | 3 => ⟨S64, .f32⟩
  | 4 => ⟨S64, .f32⟩
  | 5 => ⟨S64x1, .f32⟩
  | 6 => ⟨S64x1, .f32⟩
  | 7 => ⟨S64x2, .f32⟩
  | 8 => ⟨S1x64x2, .f32⟩
  | 9 => ⟨S1x64x2, .f32⟩
  | 10 => ⟨S1x64x2, .f32⟩
  | 11 => ⟨S1x64x2, .f32⟩
  | 12 => ⟨S1x64x2, .f32⟩
  | 13 => ⟨S5x64x2, .f32⟩
  | 14 => ⟨S262144x5x64x1, .f32⟩
  | 15 => ⟨S262144x5x64, .f32⟩
  | 16 => ⟨S5x64x1, .f32⟩
  | 17 => ⟨S5x64, .f32⟩
  | 18 => ⟨S1x5x64, .f32⟩
  | 19 => ⟨S262144x5x64, .f32⟩
  | 20 => ⟨S262144x5x64, .f32⟩
  | 21 => ⟨S262144x5x64x1, .f32⟩
  | 22 => ⟨S262144x5x64, .f32⟩
  | 23 => ⟨S5x64x1, .f32⟩
  | 24 => ⟨S5x64, .f32⟩
  | 25 => ⟨S1x5x64, .f32⟩
  | 26 => ⟨S262144x5x64, .f32⟩
  | 27 => ⟨S262144x5x64, .f32⟩
  | 28 => ⟨S262144x5x64, .f32⟩
  | 29 => ⟨S262144x5x64x1, .f32⟩
  | 30 => ⟨S262144x5x64, .f32⟩
  | 31 => ⟨S5x64x1, .f32⟩
  | 32 => ⟨S5x64, .f32⟩
  | 33 => ⟨S1x5x64, .f32⟩
  | 34 => ⟨S262144x5x64, .f32⟩
  | 35 => ⟨S262144x5x64, .f32⟩
  | 36 => ⟨S262144x5x64x1, .f32⟩
  | 37 => ⟨S262144x5x64, .f32⟩
  | 38 => ⟨S5x64x1, .f32⟩
  | 39 => ⟨S5x64, .f32⟩
  | 40 => ⟨S1x5x64, .f32⟩
  | 41 => ⟨S262144x5x64, .f32⟩
  | 42 => ⟨S262144x5x64, .f32⟩
  | 43 => ⟨S262144x5x64, .f32⟩
  | 44 => ⟨S262144x5x64x1, .f32⟩
  | 45 => ⟨S262144x5x64x1, .f32⟩
  | 46 => ⟨S262144x5x64x2, .f32⟩
  | 47 => ⟨S262144x5x128, .f32⟩
  | 48 => ⟨S_, .f32⟩
  | 49 => ⟨S262144x128, .f32⟩
  | 50 => ⟨S_, .f32⟩
  | 51 => ⟨S262144x128, .f32⟩
  | 52 => ⟨S262144x128, .f32⟩
  | _ => ⟨S262144x5x128, .f32⟩

abbrev hbmTy (i : Nat) : BufTy := match i / 128 with
  | 0 => hbmTy0_0 i
  | 1 => hbmTy0_1 i
  | _ => ⟨S262144x5x128, .f32⟩

abbrev bufTy : (tb : Table) → Fin (tcTables nBuf tb) → BufTy
  | .hbm, ⟨i, _⟩ => hbmTy i
  | _, _ => ⟨S262144x5x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_cst_3 : Ref sig .tc := ⟨.hbm, 176, rfl⟩
abbrev main_v166 : Ref sig .tc := ⟨.hbm, 177, rfl⟩
abbrev main_cst_4 : Ref sig .tc := ⟨.hbm, 178, rfl⟩
abbrev main_v167 : Ref sig .tc := ⟨.hbm, 179, rfl⟩
abbrev main_v168 : Ref sig .tc := ⟨.hbm, 180, rfl⟩

abbrev nD : Nat := 1
abbrev τ : Topo := Topo.v7x

variable {F : FTy → Type} [FloatOps F]

class Facts₀ : Prop where
  shapeCasts_S262144x5x128_S262144x5x64x2 : S262144x5x128.ShapeCasts S262144x5x64x2
  reducesTo_S4x64x2_S4x64_d2 : S4x64x2.ReducesTo [2] S4x64
  h_S_ : 0 < S_.numel
  bcast_S4x64_S4x64x1_0_1 : S4x64.BroadcastsInDim S4x64x1 (![0, 1] : Fin 2 → Fin S4x64x1.rank)
  bcast_S_S4x64x1 : S_.BroadcastsInDim S4x64x1 (![] : Fin 0 → Fin S4x64x1.rank)
  bcast_S4x64x1_S4x64x2_0_1_2 : S4x64x1.BroadcastsInDim S4x64x2 (![0, 1, 2] : Fin 3 → Fin S4x64x2.rank)
  bcast_S2_S1x1x2_2 : S2.BroadcastsInDim S1x1x2 (![2] : Fin 1 → Fin S1x1x2.rank)
  bcast_S1x1x2_S4x64x2_0_1_2 : S1x1x2.BroadcastsInDim S4x64x2 (![0, 1, 2] : Fin 3 → Fin S4x64x2.rank)
  bcast_S4x64x2_S4x1x64x2_0_2_3 : S4x64x2.BroadcastsInDim S4x1x64x2 (![0, 2, 3] : Fin 3 → Fin S4x1x64x2.rank)
  concatenates_S4x1x64x2_S4x1x64x2_S4x2x64x2_d1 : Shape.Concatenates [S4x1x64x2, S4x1x64x2] S4x2x64x2 1
  shapeCasts_S4x2x64x2_S8x64x2 : S4x2x64x2.ShapeCasts S8x64x2
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  slices_S8x64x2_S1x64x2_7_0_0 : S8x64x2.Slices ![7, 0, 0] S1x64x2
  shapeCasts_S1x64x2_S64x2 : S1x64x2.ShapeCasts S64x2
  slices_S64x2_S64x1_0_0 : S64x2.Slices ![0, 0] S64x1
  shapeCasts_S64x1_S64 : S64x1.ShapeCasts S64
  slices_S64x2_S64x1_0_1 : S64x2.Slices ![0, 1] S64x1
  slices_S8x64x2_S1x64x2_5_0_0 : S8x64x2.Slices ![5, 0, 0] S1x64x2
  slices_S8x64x2_S1x64x2_2_0_0 : S8x64x2.Slices ![2, 0, 0] S1x64x2
  slices_S8x64x2_S1x64x2_0_0_0 : S8x64x2.Slices ![0, 0, 0] S1x64x2
  bcast_S64x2_S1x64x2_1_2 : S64x2.BroadcastsInDim S1x64x2 (![1, 2] : Fin 2 → Fin S1x64x2.rank)
  concatenates_S1x64x2_S1x64x2_S1x64x2_S1x64x2_S1x64x2_S5x64x2_d0 : Shape.Concatenates [S1x64x2, S1x64x2, S1x64x2, S1x64x2, S1x64x2] S5x64x2 0
  slices_S262144x5x64x2_S262144x5x64x1_0_0_0_0 : S262144x5x64x2.Slices ![0, 0, 0, 0] S262144x5x64x1
  shapeCasts_S262144x5x64x1_S262144x5x64 : S262144x5x64x1.ShapeCasts S262144x5x64
  slices_S5x64x2_S5x64x1_0_0_0 : S5x64x2.Slices ![0, 0, 0] S5x64x1
  shapeCasts_S5x64x1_S5x64 : S5x64x1.ShapeCasts S5x64
  bcast_S5x64_S1x5x64_1_2 : S5x64.BroadcastsInDim S1x5x64 (![1, 2] : Fin 2 → Fin S1x5x64.rank)
  bcast_S1x5x64_S262144x5x64_0_1_2 : S1x5x64.BroadcastsInDim S262144x5x64 (![0, 1, 2] : Fin 3 → Fin S262144x5x64.rank)
  slices_S262144x5x64x2_S262144x5x64x1_0_0_0_1 : S262144x5x64x2.Slices ![0, 0, 0, 1] S262144x5x64x1
  slices_S5x64x2_S5x64x1_0_0_1 : S5x64x2.Slices ![0, 0, 1] S5x64x1
  bcast_S262144x5x64_S262144x5x64x1_0_1_2 : S262144x5x64.BroadcastsInDim S262144x5x64x1 (![0, 1, 2] : Fin 3 → Fin S262144x5x64x1.rank)
  concatenates_S262144x5x64x1_S262144x5x64x1_S262144x5x64x2_d3 : Shape.Concatenates [S262144x5x64x1, S262144x5x64x1] S262144x5x64x2 3
  shapeCasts_S262144x5x64x2_S262144x5x128 : S262144x5x64x2.ShapeCasts S262144x5x128
  reducesTo_S262144x5x128_S262144x128_d1 : S262144x5x128.ReducesTo [1] S262144x128
  bcast_S_S262144x128 : S_.BroadcastsInDim S262144x128 (![] : Fin 0 → Fin S262144x128.rank)

variable [Facts₀]

class Facts : Prop extends Facts₀ where

variable [Facts]
-- ==== Proof.Spec.lean ====
/-
  The mathematics of this certificate, with no program in sight.

  The input `e : [N, 5, 128]` is read as 64 complex numbers per (row, step): lanes `2k` and `2k+1` are the real and the
  imaginary part of pair `k`.  `rot : [5, 64, 2]` holds, per step `l` and pair `k`, a complex number `(rot l k 0, rot l k 1)`.
  The result at (row `n`, lane `q`) is one fifth of the sum over the five steps of the complex product
  `e[n,l,pair q] · rot[l,pair q]`, real part on the even lane and imaginary part on the odd lane.

  Two arrangements of that sum are stated here, and proved equal on the extended reals:
  * `tableAt`: every lane multiplies its own entry by a "cosine" table entry and its MATE's entry (the other lane of the pair) by a
    signed "sine" table entry, accumulating left to right from zero, then multiplies by 1/5;
  * `pairAt`: the textbook complex product per step (difference on even lanes, sum on odd lanes), summed over the steps from
    zero, then divided by 5.
  Only commutativity and associativity of `+`, `x * (-y) = -(x * y)`, `a - b = a + -b` and `x / 5 = x * (1/5)` are used, all of
  which hold on the extended reals without any finiteness assumption.
-/
import Idealize.ShloMosaic.PureOps.Ideal
import Idealize.ShloMosaic.Lib.ValueIdx

noncomputable section

namespace Cert.RotMean

open Idealize.ShloMosaic Idealize.ShloMosaic.ValueIdx

/-- The edge data `[262144, 5, 128]`. -/
abbrev SEdge : Shape := ⟨3, ![262144, 5, 128]⟩
/-- A lane-dense coefficient table `[5, 128]`. -/
abbrev STab : Shape := ⟨2, ![5, 128]⟩
/-- The cumulative rotations `[5, 64, 2]`. -/
abbrev SRot : Shape := ⟨3, ![5, 64, 2]⟩
/-- The result `[262144, 128]`. -/
abbrev SOut : Shape := ⟨2, ![262144, 128]⟩

/-- The complex pair a lane belongs to. -/
def pairOf (q : Fin 128) : Fin 64 := ⟨q.val / 2, by have := q.isLt; omega⟩

/-- The other lane of a lane's pair: `2k ↦ 2k+1`, `2k+1 ↦ 2k`. -/
def mate (q : Fin 128) : Fin 128 :=
  if h : q.val % 2 = 0 then ⟨q.val + 1, by have := q.isLt; omega⟩ else ⟨q.val - 1, by have := q.isLt; omega⟩

/-- The lane-dense cosine table of `rot`: both lanes of pair `k` hold `rot l k 0`. -/
def cosAt (rot : SRot.Idx → EReal) (l : Fin 5) (q : Fin 128) : EReal := rot (ix3 l (pairOf q) 0)

/-- The lane-dense signed sine table of `rot`: the even lane of pair `k` holds `-(rot l k 1)`, the odd lane `rot l k 1`. -/
def sinAt (rot : SRot.Idx → EReal) (l : Fin 5) (q : Fin 128) : EReal :=
  if q.val % 2 = 0 then -(rot (ix3 l (pairOf q) 1)) else rot (ix3 l (pairOf q) 1)

/-- One step of the table form: the accumulator, plus the lane's own entry times the cosine table, plus its mate's entry times
    the sine table. -/
def tableStep (e : SEdge.Idx → EReal) (c s : STab.Idx → EReal) (n : Fin 262144) (q : Fin 128) (l : Fin 5) (acc : EReal) : EReal :=
  acc + e (ix3 n l q) * c (ix2 l q) + e (ix3 n l (mate q)) * s (ix2 l q)

/-- The table form at (row `n`, lane `q`): five steps from zero, then times 1/5. -/
def tableAt (e : SEdge.Idx → EReal) (c s : STab.Idx → EReal) (n : Fin 262144) (q : Fin 128) : EReal :=
  tableStep e c s n q 4 (tableStep e c s n q 3 (tableStep e c s n q 2 (tableStep e c s n q 1 (tableStep e c s n q 0 0))))
    * ((1 / 5 : ℝ) : EReal)

/-- The table form as an array. -/
def tableOut (e : SEdge.Idx → EReal) (c s : STab.Idx → EReal) : SOut.Idx → EReal :=
  fun i => tableAt e c s ⟨(i 0).val, idx2_lt0 i⟩ ⟨(i 1).val, idx2_lt1 i⟩

theorem tableOut_apply (e : SEdge.Idx → EReal) (c s : STab.Idx → EReal) (n : Fin 262144) (q : Fin 128) :
    tableOut e c s (ix2 n q) = tableAt e c s n q := rfl

/-- One step's complex product at a lane: the real part `a·c − b·d` on an even lane, the imaginary part `a·d + b·c` on an odd one
    (`a`, `b` the pair's two entries, `c`, `d` the rotation's). -/
def rotatedAt (e : SEdge.Idx → EReal) (rot : SRot.Idx → EReal) (n : Fin 262144) (l : Fin 5) (q : Fin 128) : EReal :=
  if q.val % 2 = 0 then e (ix3 n l q) * rot (ix3 l (pairOf q) 0) - e (ix3 n l (mate q)) * rot (ix3 l (pairOf q) 1)
  else e (ix3 n l (mate q)) * rot (ix3 l (pairOf q) 1) + e (ix3 n l q) * rot (ix3 l (pairOf q) 0)

/-- The pair form at (row `n`, lane `q`): zero plus the sum over the five steps, divided by 5. -/
def pairAt (e : SEdge.Idx → EReal) (rot : SRot.Idx → EReal) (n : Fin 262144) (q : Fin 128) : EReal :=
  Ideal.div (0 + ∑ l : Fin 5, rotatedAt e rot n l q) ((5 : ℝ) : EReal)

/-- The pair form as an array. -/
def pairOut (e : SEdge.Idx → EReal) (rot : SRot.Idx → EReal) : SOut.Idx → EReal :=
  fun i => pairAt e rot ⟨(i 0).val, idx2_lt0 i⟩ ⟨(i 1).val, idx2_lt1 i⟩

theorem pairOut_apply (e : SEdge.Idx → EReal) (rot : SRot.Idx → EReal) (n : Fin 262144) (q : Fin 128) :
    pairOut e rot (ix2 n q) = pairAt e rot n q := rfl

/-- The two arrangements agree, entry by entry, when the tables are the cosine and signed sine tables of `rot`. -/
theorem tableAt_eq_pairAt (e : SEdge.Idx → EReal) (rot : SRot.Idx → EReal) (c s : STab.Idx → EReal)
    (hc : ∀ (l : Fin 5) (q : Fin 128), c (ix2 l q) = cosAt rot l q)
    (hs : ∀ (l : Fin 5) (q : Fin 128), s (ix2 l q) = sinAt rot l q)
    (n : Fin 262144) (q : Fin 128) : tableAt e c s n q = pairAt e rot n q := by
  unfold tableAt pairAt tableStep rotatedAt
  rw [Ideal.div_coe (by norm_num : (5 : ℝ) ≠ 0), Fin.sum_univ_five]
  simp only [hc, hs, cosAt, sinAt]
  refine congrArg (· * ((1 / 5 : ℝ) : EReal)) ?_
  by_cases hq : q.val % 2 = 0
  · simp only [hq, if_true, mul_neg, sub_eq_add_neg, zero_add, add_assoc]
  · simp only [hq, if_false, zero_add, add_assoc]
    ac_rfl

/-- The same, as arrays. -/
theorem tableOut_eq_pairOut (e : SEdge.Idx → EReal) (rot : SRot.Idx → EReal) (c s : STab.Idx → EReal)
    (hc : ∀ (l : Fin 5) (q : Fin 128), c (ix2 l q) = cosAt rot l q)
    (hs : ∀ (l : Fin 5) (q : Fin 128), s (ix2 l q) = sinAt rot l q) : tableOut e c s = pairOut e rot :=
  funext fun _ => tableAt_eq_pairAt e rot c s hc hs _ _

end Cert.RotMean

end
-- ==== Proof.KBase.lean ====
/-
  What the one pallas_call of this program finds and leaves, as definitions (no proof here).

  `V m c b` is core `c`'s buffer `b` when the region is entered: the fold of the 150 host operations before the region over the
  launch memory.  Window `w`'s block at grid point `t` (`iblk`) is read off its array as the region finds it.  The body loads
  row `l` of the two [5,128] coefficient tables and slab `l` of the [512,5,128] block of the edge data, for `l = 0 … 4`, and stores
  the whole [512,128] output block once: `outBlock` is that store's value as a function of the three input blocks, and `dats`
  the proof data of the pipeline (inputs left in place, the output at `outBlock` of the point's input blocks).
-/
import proofs.«423924_j10677288698548_4_alg».proof.Proof.Gen.KernelIdeal.Launch
import proofs.«423924_j10677288698548_4_alg».proof.Proof.Gen.KernelIdeal.Skeleton
import proofs.«423924_j10677288698548_4_alg».proof.Proof.Gen.KernelIdeal.Points
import Idealize.ShloMosaic.Lib.Pipeline.FrameBody
import Idealize.ShloMosaic.Lib.Ring

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-- The host operations before the region, in order: the constant, the norm's five, then the 144 of the rest. -/
abbrev hostAll : List (HloOp τ sig (Elt F)) := List.flatten [hostOps0, hostOps0_1, hostOps0_2]

/-- Core `c`'s TensorCore buffers when the region is entered. -/
abbrev V (c : Dev nD) (b : Ref sig .tc) : Buf (Elt F) ((c : Thread nD τ).loc b) :=
  StableHlo.after (List.flatten [hostOps0, hostOps0_1, hostOps0_2]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- Row `l` of a [5,128] table. -/
abbrev rowT0 : Rect S5x128 := Rect.unit (s := S5x128) ![0, 0] S1x128.size inb_S5x128_S1x128_0_0
abbrev rowT1 : Rect S5x128 := Rect.unit (s := S5x128) ![1, 0] S1x128.size inb_S5x128_S1x128_1_0
abbrev rowT2 : Rect S5x128 := Rect.unit (s := S5x128) ![2, 0] S1x128.size inb_S5x128_S1x128_2_0
abbrev rowT3 : Rect S5x128 := Rect.unit (s := S5x128) ![3, 0] S1x128.size inb_S5x128_S1x128_3_0
abbrev rowT4 : Rect S5x128 := Rect.unit (s := S5x128) ![4, 0] S1x128.size inb_S5x128_S1x128_4_0
/-- Slab `l` of the [512,5,128] block. -/
abbrev slabE0 : Rect S512x5x128 := Rect.unit (s := S512x5x128) ![0, 0, 0] S512x1x128.size inb_S512x5x128_S512x1x128_0_0_0
abbrev slabE1 : Rect S512x5x128 := Rect.unit (s := S512x5x128) ![0, 1, 0] S512x1x128.size inb_S512x5x128_S512x1x128_0_1_0
abbrev slabE2 : Rect S512x5x128 := Rect.unit (s := S512x5x128) ![0, 2, 0] S512x1x128.size inb_S512x5x128_S512x1x128_0_2_0
abbrev slabE3 : Rect S512x5x128 := Rect.unit (s := S512x5x128) ![0, 3, 0] S512x1x128.size inb_S512x5x128_S512x1x128_0_3_0
abbrev slabE4 : Rect S512x5x128 := Rect.unit (s := S512x5x128) ![0, 4, 0] S512x1x128.size inb_S512x5x128_S512x1x128_0_4_0
/-- The whole [512,128] output block. -/
abbrev wholeO : Rect S512x128 := Rect.unit (s := S512x128) ![0, 0] S512x128.size inb_S512x128_S512x128_0_0

/-- The value the body stores, from the three input blocks: the payload of the one store over the payloads of the loads. -/
def storeVal (x0 x1 : Vec F S5x128 .f32) (x2 : Vec F S512x5x128 .f32) : Vec F S512x128 .f32 :=
  k0_pay1 k0_pay2
    (k0_pay7 k0_pay2 (k0_pay4 (View.ld x2 slabE1))
      (k0_pay5 (View.ld x2 slabE0) (View.ld x0 rowT0) (View.ld x1 rowT0) (View.ld x2 slabE1) (View.ld x0 rowT1))
      (k0_pay6 (View.ld x1 rowT1))
      (View.ld x2 slabE2) (View.ld x0 rowT2) (View.ld x1 rowT2) (View.ld x2 slabE3) (View.ld x0 rowT3) (View.ld x1 rowT3))
    (k0_pay8 (View.ld x2 slabE4)) 127#32 (View.ld x0 rowT4) (View.ld x1 rowT4)

/-- The output window's staging buffer after the body, from the input windows' blocks: its one store as a piece. -/
def outBlock (x0 x1 : Vec F S5x128 .f32) (x2 : Vec F S512x5x128 .f32) : Vec F S512x128 .f32 :=
  View.canon [⟨wholeO, storeVal x0 x1 x2⟩]

/-! ## The pipeline's proof data -/

/-- The proof data of the one pipeline on core `c`: the arrays as the region finds them; after the body at point `t` each
    input's buffer at its block and the output's at `outBlock` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

end Cert.KernelIdeal.Fr

end
-- ==== Proof.KFrame.lean ====
/-
  The frame of the kernel program: the host operations before the one region leave the two argument arrays as launched,
  the region's pipeline runs (each input window's staging buffer holds its block at every point, the body loads rows and
  slabs of them and stores the whole output block once), and so every execution terminates with the argument arrays unchanged.
-/
import proofs.«423924_j10677288698548_4_alg».proof.Proof.KBase
import Idealize.ShloMosaic.Lib.Pipeline.FrameBody
import Idealize.ShloMosaic.Lib.Ring
import Idealize.ShloMosaic.Lib.Tactic

-- membership in a rectangle of the block's extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations up to the region -/

/-- No host operation allocates: each line's operations have an empty fresh set. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program up to its region: the three lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The argument arrays as the region finds them -/

/-- No host operation before the region writes the edge data: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes the rotation vector: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The input windows' staging buffers -/

/-- The row-major coefficient table `c`'s staging buffer holds its block at every point, fetched there or not, for any proof
    data whose array is the region-entry contents and whose body leaves the block in place: unfetched, the block index has
    not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
/-- The same for the signed table `s`. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
/-- The same for the edge data, fetched at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The frame claim's post from the frame run's -/

/-- For any proof data whose arrays are the region-entry contents, a run to the pipeline's frame post gives the frame
    claim's post: the edge data is an input window's array, never written back; the rotation vector is staged by no
    window, so it is among the other unscoped buffers, left as the region found them; each then as launched. -/
theorem frame_of (dats' : (p : Fin 1) → (c : Dev nD) → Dat τ (Elt F) Unit ℕ (UR sig nD τ) ℕ (cfgs p) c)
    (hA : ∀ c w, (dats' 0 c).A w = V m c (Pipeline.arrRef spec0 w))
    (h : θ_run defs (onTc (τ := τ) (main (F := F))) (s₀ m ρ) (Pipeline.FramePost cfgs dats' 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (((dats' 0 c).arrAt_in 2 rfl _).trans ((hA c 2).trans (V_main_arg0 m c))),
      ((h c).2 main_arg1 (Pipeline.mem_restRefs_of main_arg1 (by decide) (by decide))).trans (V_main_arg1 m c)⟩) h

/-! ## What the body stores covers the output block -/

/-- The one store is of the whole block, so it covers it. -/
theorem cover0_3 (p0 : Vec F S512x128 .f32) (y : S512x128.Idx) :
    ∃ pc ∈ ([⟨wholeO, p0⟩] : List (View.Piece (Elt F) S512x128 .f32)), y ∈ pc.1.set :=
  View.cover_of_tiled [⟨wholeO, p0⟩] S512x128.size (by rfl) y

/-! ## The body's triple -/

set_option maxHeartbeats 4000000 in
theorem sound_kernel (c : Dev nD) (E : Set ℕ) (i : grid0.Coords)
    (arg1 : Memref sig .tc .vmem S5x128 .f32) (harg1 : arg1.IsWhole) (arg2 : Memref sig .tc .vmem S5x128 .f32) (harg2 : arg2.IsWhole)
    (arg3 : Memref sig .tc .vmem S512x5x128 .f32) (harg3 : arg3.IsWhole) (arg4 : Memref sig .tc .vmem S512x128 .f32) (harg4 : arg4.IsWhole)
    (x0 : Vec F S5x128 .f32) (x1 : Vec F S5x128 .f32) (x2 : Vec F S512x5x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__rotate_mean_kernel i arg1 harg1 arg2 harg2 arg3 harg3 arg4 harg4) K := by
  simp only [cc0__rotate_mean_kernel_eq_skeleton]; unfold cc0__rotate_mean_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the invariant, the core's duties, and the four windows' current staging
    buffers, each at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- From any memory with zero counters, every weakly fair execution of the program on the TensorCores terminates, and every
    final state has every array of the pipeline at what the proof data gives and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every execution terminates and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.KBaseBits.lean ====
/-
  What the one pallas_call of this program finds and leaves, as definitions (no proof here).

  `V m c b` is core `c`'s buffer `b` when the region is entered: the fold of the 150 host operations before the region over the
  launch memory.  Window `w`'s block at grid point `t` (`iblk`) is read off its array as the region finds it.  The body loads
  row `l` of the two [5,128] coefficient tables and slab `l` of the [512,5,128] block of the edge data, for `l = 0 … 4`, and stores
  the whole [512,128] output block once: `outBlock` is that store's value as a function of the three input blocks, and `dats`
  the proof data of the pipeline (inputs left in place, the output at `outBlock` of the point's input blocks).
-/
import proofs.«423924_j10677288698548_4_alg».proof.Proof.Gen.Kernel.Launch
import proofs.«423924_j10677288698548_4_alg».proof.Proof.Gen.Kernel.Skeleton
import proofs.«423924_j10677288698548_4_alg».proof.Proof.Gen.Kernel.Points
import Idealize.ShloMosaic.Lib.Pipeline.FrameBody
import Idealize.ShloMosaic.Lib.Ring

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The host operations before the region, in order: the constant, the norm's five, then the 144 of the rest. -/
abbrev hostAll : List (HloOp τ sig (Elt F)) := List.flatten [hostOps0, hostOps0_1, hostOps0_2]

/-- Core `c`'s TensorCore buffers when the region is entered. -/
abbrev V (c : Dev nD) (b : Ref sig .tc) : Buf (Elt F) ((c : Thread nD τ).loc b) :=
  StableHlo.after (List.flatten [hostOps0, hostOps0_1, hostOps0_2]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- Row `l` of a [5,128] table. -/
abbrev rowT0 : Rect S5x128 := Rect.unit (s := S5x128) ![0, 0] S1x128.size inb_S5x128_S1x128_0_0
abbrev rowT1 : Rect S5x128 := Rect.unit (s := S5x128) ![1, 0] S1x128.size inb_S5x128_S1x128_1_0
abbrev rowT2 : Rect S5x128 := Rect.unit (s := S5x128) ![2, 0] S1x128.size inb_S5x128_S1x128_2_0
abbrev rowT3 : Rect S5x128 := Rect.unit (s := S5x128) ![3, 0] S1x128.size inb_S5x128_S1x128_3_0
abbrev rowT4 : Rect S5x128 := Rect.unit (s := S5x128) ![4, 0] S1x128.size inb_S5x128_S1x128_4_0
/-- Slab `l` of the [512,5,128] block. -/
abbrev slabE0 : Rect S512x5x128 := Rect.unit (s := S512x5x128) ![0, 0, 0] S512x1x128.size inb_S512x5x128_S512x1x128_0_0_0
abbrev slabE1 : Rect S512x5x128 := Rect.unit (s := S512x5x128) ![0, 1, 0] S512x1x128.size inb_S512x5x128_S512x1x128_0_1_0
abbrev slabE2 : Rect S512x5x128 := Rect.unit (s := S512x5x128) ![0, 2, 0] S512x1x128.size inb_S512x5x128_S512x1x128_0_2_0
abbrev slabE3 : Rect S512x5x128 := Rect.unit (s := S512x5x128) ![0, 3, 0] S512x1x128.size inb_S512x5x128_S512x1x128_0_3_0
abbrev slabE4 : Rect S512x5x128 := Rect.unit (s := S512x5x128) ![0, 4, 0] S512x1x128.size inb_S512x5x128_S512x1x128_0_4_0
/-- The whole [512,128] output block. -/
abbrev wholeO : Rect S512x128 := Rect.unit (s := S512x128) ![0, 0] S512x128.size inb_S512x128_S512x128_0_0

/-- The value the body stores, from the three input blocks: the payload of the one store over the payloads of the loads. -/
def storeVal (x0 x1 : Vec F S5x128 .f32) (x2 : Vec F S512x5x128 .f32) : Vec F S512x128 .f32 :=
  k0_pay1 k0_pay2
    (k0_pay7 k0_pay2 (k0_pay4 (View.ld x2 slabE1))
      (k0_pay5 (View.ld x2 slabE0) (View.ld x0 rowT0) (View.ld x1 rowT0) (View.ld x2 slabE1) (View.ld x0 rowT1))
      (k0_pay6 (View.ld x1 rowT1))
      (View.ld x2 slabE2) (View.ld x0 rowT2) (View.ld x1 rowT2) (View.ld x2 slabE3) (View.ld x0 rowT3) (View.ld x1 rowT3))
    (k0_pay8 (View.ld x2 slabE4)) 127#32 (View.ld x0 rowT4) (View.ld x1 rowT4)

/-- The output window's staging buffer after the body, from the input windows' blocks: its one store as a piece. -/
def outBlock (x0 x1 : Vec F S5x128 .f32) (x2 : Vec F S512x5x128 .f32) : Vec F S512x128 .f32 :=
  View.canon [⟨wholeO, storeVal x0 x1 x2⟩]

/-! ## The pipeline's proof data -/

/-- The proof data of the one pipeline on core `c`: the arrays as the region finds them; after the body at point `t` each
    input's buffer at its block and the output's at `outBlock` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

end Cert.Kernel.Fr

end
-- ==== Proof.KFrameBits.lean ====
/-
  The frame of the kernel program: the host operations before the one region leave the two argument arrays as launched,
  the region's pipeline runs (each input window's staging buffer holds its block at every point, the body loads rows and
  slabs of them and stores the whole output block once), and so every execution terminates with the argument arrays unchanged.
-/
import proofs.«423924_j10677288698548_4_alg».proof.Proof.KBaseBits
import Idealize.ShloMosaic.Lib.Pipeline.FrameBody
import Idealize.ShloMosaic.Lib.Ring
import Idealize.ShloMosaic.Lib.Tactic

-- membership in a rectangle of the block's extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations up to the region -/

/-- No host operation allocates: each line's operations have an empty fresh set. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program up to its region: the three lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The argument arrays as the region finds them -/

/-- No host operation before the region writes the edge data: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the region writes the rotation vector: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The input windows' staging buffers -/

/-- The row-major coefficient table `c`'s staging buffer holds its block at every point, fetched there or not, for any proof
    data whose array is the region-entry contents and whose body leaves the block in place: unfetched, the block index has
    not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
/-- The same for the signed table `s`. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
/-- The same for the edge data, fetched at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The frame claim's post from the frame run's -/

/-- For any proof data whose arrays are the region-entry contents, a run to the pipeline's frame post gives the frame
    claim's post: the edge data is an input window's array, never written back; the rotation vector is staged by no
    window, so it is among the other unscoped buffers, left as the region found them; each then as launched. -/
theorem frame_of (dats' : (p : Fin 1) → (c : Dev nD) → Dat τ (Elt F) Unit ℕ (UR sig nD τ) ℕ (cfgs p) c)
    (hA : ∀ c w, (dats' 0 c).A w = V m c (Pipeline.arrRef spec0 w))
    (h : θ_run defs (onTc (τ := τ) (main (F := F))) (s₀ m ρ) (Pipeline.FramePost cfgs dats' 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (((dats' 0 c).arrAt_in 2 rfl _).trans ((hA c 2).trans (V_main_arg0 m c))),
      ((h c).2 main_arg1 (Pipeline.mem_restRefs_of main_arg1 (by decide) (by decide))).trans (V_main_arg1 m c)⟩) h

/-! ## What the body stores covers the output block -/

/-- The one store is of the whole block, so it covers it. -/
theorem cover0_3 (p0 : Vec F S512x128 .f32) (y : S512x128.Idx) :
    ∃ pc ∈ ([⟨wholeO, p0⟩] : List (View.Piece (Elt F) S512x128 .f32)), y ∈ pc.1.set :=
  View.cover_of_tiled [⟨wholeO, p0⟩] S512x128.size (by rfl) y

/-! ## The body's triple -/

set_option maxHeartbeats 4000000 in
theorem sound_kernel (c : Dev nD) (E : Set ℕ) (i : grid0.Coords)
    (arg1 : Memref sig .tc .vmem S5x128 .f32) (harg1 : arg1.IsWhole) (arg2 : Memref sig .tc .vmem S5x128 .f32) (harg2 : arg2.IsWhole)
    (arg3 : Memref sig .tc .vmem S512x5x128 .f32) (harg3 : arg3.IsWhole) (arg4 : Memref sig .tc .vmem S512x128 .f32) (harg4 : arg4.IsWhole)
    (x0 : Vec F S5x128 .f32) (x1 : Vec F S5x128 .f32) (x2 : Vec F S512x5x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__rotate_mean_kernel i arg1 harg1 arg2 harg2 arg3 harg3 arg4 harg4) K := by
  simp only [cc0__rotate_mean_kernel_eq_skeleton]; unfold cc0__rotate_mean_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the invariant, the core's duties, and the four windows' current staging
    buffers, each at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- From any memory with zero counters, every weakly fair execution of the program on the TensorCores terminates, and every
    final state has every array of the pipeline at what the proof data gives and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every execution terminates and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.KPayload.lean ====
/-
  The value the kernel's one store holds, read at an index of the [512,128] block.

  The body multiplies each of the five [512,128] slabs of its edge block by the matching row of the first coefficient table,
  and the slab with the two lanes of every pair exchanged by the matching row of the second table, accumulating left to right
  from zero, and multiplies the sum by one fifth.  The exchange is a choice, by the lane's parity, between the slab rotated
  by 127 lanes and the slab rotated by 1 lane: on an even lane the first reads lane q + 1, on an odd lane the second reads
  lane q − 1, in both cases the lane's mate.  So at (row p, lane q) the stored value is the table form of Spec.lean over the
  block (`blockTableAt`).
-/
import proofs.«423924_j10677288698548_4_alg».proof.Proof.KBase
import proofs.«423924_j10677288698548_4_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import Idealize.ShloMosaic.PureOps.IdealRules

noncomputable section

namespace Cert.KernelIdeal.Val

open Cert.KernelIdeal Cert.KernelIdeal.Gen
open Idealize.ShloMosaic Idealize.ShloMosaic.ValueIdx
open Cert.RotMean (mate)

/-- The parity mask at a lane: set on the even lanes. -/
theorem mask_apply (p : Fin 512) (q : Fin 128) :
    k0_pay2 (ix2 p q) = if q.val % 2 = 0 then 1#1 else 0#1 := by
  unfold k0_pay2
  show IntOp.cmpi .eq (IntOp.andi (iota .tc S512x128 32 [1] iota_S512x128_d1_w32 (ix2 p q)) 1#32) 0#32 = _
  rw [iota_single_apply]
  show BitVec.ofBool ((BitVec.ofNat 32 q.val &&& 1#32) == 0#32) = _
  have hq := q.isLt
  have h : (BitVec.ofNat 32 q.val &&& 1#32).toNat = q.val % 2 := by
    rw [BitVec.toNat_and, BitVec.toNat_ofNat]
    show q.val % 2 ^ 32 &&& 1 = _
    rw [Nat.mod_eq_of_lt (by omega), Nat.and_one_is_mod]
  by_cases hp : q.val % 2 = 0
  · rw [if_pos hp]
    have e : (BitVec.ofNat 32 q.val &&& 1#32) = 0#32 := BitVec.eq_of_toNat_eq (by rw [h, hp]; rfl)
    rw [e]; rfl
  · rw [if_neg hp]
    have e : (BitVec.ofNat 32 q.val &&& 1#32) ≠ 0#32 := fun e => hp (by rw [← h, e]; rfl)
    have e' : ((BitVec.ofNat 32 q.val &&& 1#32) == 0#32) = false := beq_eq_false_iff_ne.mpr e
    rw [e']; rfl

/-- The lane swap: the vector rotated by 127 on the even lanes and by 1 on the odd ones reads, at a lane, the
    vector at the lane's mate. -/
theorem swap_apply {α : Type} (v : S512x128.Idx → α) (p : Fin 512) (q : Fin 128) :
    select k0_pay2 (dynamicRotate 1 127#32 none v rotates_S512x128_d1) (dynamicRotate 1 1#32 none v rotates_S512x128_d1) (ix2 p q)
      = v (ix2 p (mate q)) := by
  rw [select_apply, mask_apply]
  have hq := q.isLt
  by_cases hp : q.val % 2 = 0
  · rw [if_pos hp, select_one]
    refine dynamicRotate_apply (1 : Fin 2) 127#32 v _ _ _ (fun b => ?_)
    match b with
    | ⟨0, _⟩ => rfl
    | ⟨1, _⟩ =>
      show (mate q).val = (q.val + 128 - 127) % 128
      unfold mate; rw [dif_pos hp]
      show q.val + 1 = _
      omega
  · rw [if_neg hp, select_zero]
    refine dynamicRotate_apply (1 : Fin 2) 1#32 v _ _ _ (fun b => ?_)
    match b with
    | ⟨0, _⟩ => rfl
    | ⟨1, _⟩ =>
      show (mate q).val = (q.val + 128 - 1) % 128
      unfold mate; rw [dif_neg hp]
      show q.val - 1 = _
      omega

/-- Slab `l` of the edge block, its unit axis dropped, at (row, lane). -/
theorem slab_apply (x2 : Vec Ideal S512x5x128 .f32) (off : Fin 3 → ℕ)
    (inb : ∀ a, off a + S512x1x128.size a ≤ S512x5x128.size a) (l : Fin 5)
    (h0 : off 0 = 0) (h1 : off 1 = l.val) (h2 : off 2 = 0) (p : Fin 512) (q : Fin 128) :
    shapeCast S512x128 (View.ld x2 (Rect.unit (s := S512x5x128) off S512x1x128.size inb)) shapeCasts_S512x1x128_S512x128 (ix2 p q)
      = x2 (ix3 p l q) := by
  refine (shapeCast_apply _ _ _ (ix3 p (0 : Fin 1) q) ?_).trans ?_
  · rw [Shape.rowMajor_val_three, Shape.rowMajor_val_two]
    show (p.val * 1 + 0) * 128 + q.val = p.val * 128 + q.val
    omega
  · show x2 _ = x2 _
    refine congrArg x2 (funext fun a => Fin.ext ?_)
    match a with
    | ⟨0, _⟩ => show off 0 + 1 * p.val = p.val; omega
    | ⟨1, _⟩ => show off 1 + 1 * 0 = l.val; omega
    | ⟨2, _⟩ => show off 2 + 1 * q.val = q.val; omega

/-- Row `l` of a coefficient table, spread over the 512 rows, at (row, lane). -/
theorem row_apply (x : Vec Ideal S5x128 .f32) (off : Fin 2 → ℕ)
    (inb : ∀ a, off a + S1x128.size a ≤ S5x128.size a) (l : Fin 5)
    (h0 : off 0 = l.val) (h1 : off 1 = 0) (p : Fin 512) (q : Fin 128) :
    broadcastTo S512x128
        (shapeCast S1x128 (shapeCast S128 (View.ld x (Rect.unit (s := S5x128) off S1x128.size inb)) shapeCasts_S1x128_S128)
          shapeCasts_S128_S1x128) broadcasts_S1x128_S512x128 (ix2 p q)
      = x (ix2 l q) := by
  rw [shapeCast_shapeCast, broadcastTo_1b_ab_apply]
  show x _ = x _
  refine congrArg x (funext fun a => Fin.ext ?_)
  match a with
  | ⟨0, _⟩ => show off 0 + 1 * 0 = l.val; omega
  | ⟨1, _⟩ => show off 1 + 1 * q.val = q.val; omega

/-- The named reciprocal is one fifth. -/
theorem inv_5 : Named.named (F := Ideal) Cert.KernelIdeal.κ "inv_5" (φ := .f32) 0x3E4CCCCD#32 = ((1 / 5 : ℝ) : EReal) :=
  IdealRules.named_const.ideal_named_scalar _ _ _ _ rfl

/-- The zero accumulator. -/
theorem zero_acc : (Scalar.ofBits (F := Ideal) .f32 0x00000000#32 : EReal) = 0 := Ideal.ofBits_zero_f32

/-- One step of the table form over the block: the accumulator, plus the lane's own entry times the first table's, plus its
    mate's entry times the second table's. -/
def blockStep (x0 x1 : Vec Ideal S5x128 .f32) (x2 : Vec Ideal S512x5x128 .f32) (p : Fin 512) (q : Fin 128) (l : Fin 5)
    (acc : EReal) : EReal :=
  acc + x2 (ix3 p l q) * x0 (ix2 l q) + x2 (ix3 p l (mate q)) * x1 (ix2 l q)

/-- The table form over the block at (row `p`, lane `q`): five steps from zero, then times 1/5. -/
def blockTableAt (x0 x1 : Vec Ideal S5x128 .f32) (x2 : Vec Ideal S512x5x128 .f32) (p : Fin 512) (q : Fin 128) : EReal :=
  blockStep x0 x1 x2 p q 4 (blockStep x0 x1 x2 p q 3 (blockStep x0 x1 x2 p q 2 (blockStep x0 x1 x2 p q 1
    (blockStep x0 x1 x2 p q 0 0)))) * ((1 / 5 : ℝ) : EReal)

/-- The stored value at (row, lane) is the table form over the block. -/
theorem storeVal_apply (x0 x1 : Vec Ideal S5x128 .f32) (x2 : Vec Ideal S512x5x128 .f32) (p : Fin 512) (q : Fin 128) :
    Fr.storeVal x0 x1 x2 (ix2 p q) = blockTableAt x0 x1 x2 p q := by
  unfold Fr.storeVal k0_pay1 k0_pay7 k0_pay5 k0_pay4 k0_pay6 k0_pay8 k0_pay3 blockTableAt blockStep
  simp only [mulf_apply, addf_apply, broadcast_apply, swap_apply, zero_acc, inv_5,
    slab_apply x2 _ inb_S512x5x128_S512x1x128_0_0_0 0 rfl rfl rfl, slab_apply x2 _ inb_S512x5x128_S512x1x128_0_1_0 1 rfl rfl rfl,
    slab_apply x2 _ inb_S512x5x128_S512x1x128_0_2_0 2 rfl rfl rfl, slab_apply x2 _ inb_S512x5x128_S512x1x128_0_3_0 3 rfl rfl rfl,
    slab_apply x2 _ inb_S512x5x128_S512x1x128_0_4_0 4 rfl rfl rfl,
    row_apply x0 _ inb_S5x128_S1x128_0_0 0 rfl rfl, row_apply x0 _ inb_S5x128_S1x128_1_0 1 rfl rfl,
    row_apply x0 _ inb_S5x128_S1x128_2_0 2 rfl rfl, row_apply x0 _ inb_S5x128_S1x128_3_0 3 rfl rfl,
    row_apply x0 _ inb_S5x128_S1x128_4_0 4 rfl rfl,
    row_apply x1 _ inb_S5x128_S1x128_0_0 0 rfl rfl, row_apply x1 _ inb_S5x128_S1x128_1_0 1 rfl rfl,
    row_apply x1 _ inb_S5x128_S1x128_2_0 2 rfl rfl, row_apply x1 _ inb_S5x128_S1x128_3_0 3 rfl rfl,
    row_apply x1 _ inb_S5x128_S1x128_4_0 4 rfl rfl]
  rw [swap_apply, swap_apply, swap_apply, swap_apply, swap_apply,
    slab_apply x2 _ inb_S512x5x128_S512x1x128_0_0_0 0 rfl rfl rfl, slab_apply x2 _ inb_S512x5x128_S512x1x128_0_1_0 1 rfl rfl rfl,
    slab_apply x2 _ inb_S512x5x128_S512x1x128_0_2_0 2 rfl rfl rfl, slab_apply x2 _ inb_S512x5x128_S512x1x128_0_3_0 3 rfl rfl rfl,
    slab_apply x2 _ inb_S512x5x128_S512x1x128_0_4_0 4 rfl rfl rfl]

end Cert.KernelIdeal.Val

end
-- ==== Proof.KValue.lean ====
/-
  From the blocks to the array: after the 512 points the result array [262144,128] is the table form of Spec.lean of the
  three arrays the region finds — the edge data [262144,5,128] and the two coefficient tables [5,128].

  Point t reads the whole of each table (their windows stay at block (0,0)) and rows 512 t … 512 t + 511 of the edge data
  (block (t,0,0)), and writes rows 512 t … 512 t + 511 of the result (block (t,0)).  What it writes at (row p, lane q) of its
  block is the table form over the blocks, hence the table form of the arrays at row 512 t + p.  Row n of the result lies in
  the block of point n / 512, so the 512 blocks cover the array.
-/
import proofs.«423924_j10677288698548_4_alg».proof.Proof.KPayload
import proofs.«423924_j10677288698548_4_alg».proof.Proof.KBase
import proofs.«423924_j10677288698548_4_alg».proof.Proof.Spec
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx
open Idealize.ShloMosaic.TcCoe Idealize.SL.Sem
open Idealize.ShloMosaic.Pipeline (Dat)
open Cert.RotMean (mate SEdge STab SOut tableAt tableOut tableStep)

variable (m : (ℓ : Loc nD τ sig) → Buf (Elt Ideal) ℓ)

theorem zero2 : (![0, 0] : Fin 2 → Nat) = fun _ => 0 := funext fun a => by fin_cases a <;> rfl

/-- The printed index maps over the grid: the two tables' windows stay at block (0, 0); the edge data's window is at block
    (t, 0, 0) and the result's at block (t, 0). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The first table's block at any point is the whole table. -/
theorem tab0_apply (c : Dev nD) (t : Fin cfg0.N) (l : Fin 5) (r : Fin 128) :
    (Fr.iblk m c 0 t : Vec Ideal S5x128 .f32) (ix2 l r) = (Fr.V m c main_v136 : STab.Idx → EReal) (ix2 l r) := by
  obtain ⟨f00, f01, -⟩ := idx_facts t
  unfold Fr.iblk
  rw [View.read_apply]
  show Fr.V m c main_v136 _ = Fr.V m c main_v136 _
  refine congrArg (Fr.V m c main_v136) (funext fun a => Fin.ext ?_)
  match a with
  | ⟨0, _⟩ => show win0_0.index t (0 : Fin 2) * 5 + 1 * l.val = l.val; omega
  | ⟨1, _⟩ => show win0_0.index t (1 : Fin 2) * 128 + 1 * r.val = r.val; omega

/-- The second table's block at any point is the whole table. -/
theorem tab1_apply (c : Dev nD) (t : Fin cfg0.N) (l : Fin 5) (r : Fin 128) :
    (Fr.iblk m c 1 t : Vec Ideal S5x128 .f32) (ix2 l r) = (Fr.V m c main_v141 : STab.Idx → EReal) (ix2 l r) := by
  obtain ⟨-, -, f10, f11, -⟩ := idx_facts t
  unfold Fr.iblk
  rw [View.read_apply]
  show Fr.V m c main_v141 _ = Fr.V m c main_v141 _
  refine congrArg (Fr.V m c main_v141) (funext fun a => Fin.ext ?_)
  match a with
  | ⟨0, _⟩ => show win0_1.index t (0 : Fin 2) * 5 + 1 * l.val = l.val; omega
  | ⟨1, _⟩ => show win0_1.index t (1 : Fin 2) * 128 + 1 * r.val = r.val; omega

/-- The edge data's block at point `t` is rows `512 t … 512 t + 511` of the array. -/
theorem edge_apply (c : Dev nD) (t : Fin cfg0.N) (p : Fin 512) (l : Fin 5) (r : Fin 128) (n : Fin 262144)
    (hn : n.val = t.val * 512 + p.val) :
    (Fr.iblk m c 2 t : Vec Ideal S512x5x128 .f32) (ix3 p l r) = (Fr.V m c main_arg0 : SEdge.Idx → EReal) (ix3 n l r) := by
  obtain ⟨-, -, -, -, f20, f21, f22, -⟩ := idx_facts t
  unfold Fr.iblk
  rw [View.read_apply]
  show Fr.V m c main_arg0 _ = Fr.V m c main_arg0 _
  refine congrArg (Fr.V m c main_arg0) (funext fun a => Fin.ext ?_)
  match a with
  | ⟨0, _⟩ => show win0_2.index t (0 : Fin 3) * 512 + 1 * p.val = n.val; omega
  | ⟨1, _⟩ => show win0_2.index t (1 : Fin 3) * 5 + 1 * l.val = l.val; omega
  | ⟨2, _⟩ => show win0_2.index t (2 : Fin 3) * 128 + 1 * r.val = r.val; omega

/-- The array the result's window ends holding: the table form of the three arrays the region finds. -/
abbrev G (c : Dev nD) : SOut.Idx → EReal :=
  tableOut (Fr.V m c main_arg0) (Fr.V m c main_v136) (Fr.V m c main_v141)

/-- The stored value at a point of the block is the table form of the arrays at the row the block's row is, when the
    blocks are the arrays' parts. -/
theorem point_eq (e : SEdge.Idx → EReal) (cT sT : STab.Idx → EReal) (x0 x1 : Vec Ideal S5x128 .f32)
    (x2 : Vec Ideal S512x5x128 .f32) (n : Fin 262144) (p : Fin 512) (q q' : Fin 128) (hq : q'.val = q.val)
    (h0 : ∀ (l : Fin 5) (r : Fin 128), x0 (ix2 l r) = cT (ix2 l r))
    (h1 : ∀ (l : Fin 5) (r : Fin 128), x1 (ix2 l r) = sT (ix2 l r))
    (h2 : ∀ (l : Fin 5) (r : Fin 128), x2 (ix3 p l r) = e (ix3 n l r)) :
    Fr.storeVal x0 x1 x2 (ix2 p q) = tableAt e cT sT n q' := by
  obtain rfl : q' = q := Fin.ext hq
  rw [storeVal_apply]
  unfold blockTableAt blockStep tableAt tableStep
  simp only [h0, h1, h2]

/-- What point `t` writes back is block `t` of the table form of the arrays. -/
theorem flushed_eq (c : Dev nD) (t : Fin cfg0.N) :
    (Fr.dats m 0 c).flushed 3 t = ((cfg0.win 3).blk t).view.read (Elt Ideal) (G m c) := by
  show (cfg0.win 3).cut (grid0.coords t) ((Fr.dats m 0 c).after 3 t) = _
  rw [Fr.after0_3]
  unfold Fr.outBlock
  rw [View.canon_unit_zero zero2]
  obtain ⟨-, -, -, -, -, -, -, f30, f31⟩ := idx_facts t
  funext j
  obtain ⟨p, q, rfl⟩ : ∃ (p : Fin 512) (q : Fin 128), j = ix2 p q := ⟨j 0, j 1, eq_ix2 j⟩
  rw [View.read_apply]
  show Fr.storeVal (Fr.iblk m c 0 t) (Fr.iblk m c 1 t) (Fr.iblk m c 2 t) (ix2 p q)
    = tableAt (Fr.V m c main_arg0) (Fr.V m c main_v136) (Fr.V m c main_v141)
        ⟨(((cfg0.win 3).blk t).view.emb (ix2 p q) 0).val, _⟩ ⟨(((cfg0.win 3).blk t).view.emb (ix2 p q) 1).val, _⟩
  refine point_eq _ _ _ _ _ _ _ p q _ ?_ (tab0_apply m c t) (tab1_apply m c t) (fun l r => edge_apply m c t p l r _ ?_)
  · show win0_3.index t (1 : Fin 2) * 128 + 1 * q.val = q.val
    omega
  · show win0_3.index t (0 : Fin 2) * 512 + 1 * p.val = t.val * 512 + p.val
    omega

/-- An index of the result array is in point `t`'s block iff each coordinate is in the block's range on its axis. -/
theorem mem_blk (t : Fin cfg0.N) (i : SOut.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v142).slice (win0_3.rect t)).set ↔ _
  rw [View.set_slice_whole, Rect.mem_set_unit]
  exact Iff.rfl

/-- Every index of the result array is in the block of the point its row falls in. -/
theorem cover (i : SOut.Idx) : ∃ t : Fin cfg0.N, (cfg0.win 3).flush t = true ∧ i ∈ ((cfg0.win 3).blk t).view.set := by
  have hi0 : (i 0).val < 262144 := idx2_lt0 i
  have hi1 : (i 1).val < 128 := idx2_lt1 i
  have hN : cfg0.N = 512 := N_0
  refine ⟨⟨(i 0).val / 512, by rw [hN]; omega⟩, flush0_3 _, ?_⟩
  rw [mem_blk]
  obtain ⟨-, -, -, -, -, -, -, f30, f31⟩ := idx_facts ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [f30]; show (i 0).val / 512 * 512 ≤ (i 0).val ∧ (i 0).val < (i 0).val / 512 * 512 + 512
    omega
  | ⟨1, _⟩ =>
    show win0_3.index _ (1 : Fin 2) * 128 ≤ (i 1).val ∧ (i 1).val < win0_3.index _ (1 : Fin 2) * 128 + 128
    rw [f31]; omega

/-- After the pipeline's 512 points the result array is the table form of the three arrays the region found. -/
theorem final (c : Dev nD) :
    (Fr.dats m 0 c).arrAt 3 cfg0.N = Cert.RotMean.tableOut (Fr.V m c main_arg0) (Fr.V m c main_v136) (Fr.V m c main_v141) :=
  (Fr.dats m 0 c).arrAt_eq_of_cover 3 (G m c) (fun t _ => flushed_eq m c t) cover

end Cert.KernelIdeal.Val

end
-- ==== Proof.KHost.lean ====
/-
  The two coefficient tables the host hands the kernel, read entry by entry.

  The host's last eleven operations before the kernel turn the rotations `rot : [5, 64, 2]` (per step `l` and pair `k` the complex
  number `(rot l k 0, rot l k 1)`) into two lane-dense tables `[5, 128]`:
  * the cosine table: slot 0 of every pair cut out, the unit axis dropped, each entry repeated along a new last axis of extent 2,
    and the last two axes merged, so that lanes `2k` and `2k+1` both hold `rot l k 0`;
  * the signed sine table: slot 1 of every pair cut out, the unit axis dropped, its negation and itself each given a last axis of
    extent 1 and laid side by side along it, and the last two axes merged, so that lane `2k` holds `-(rot l k 1)` and lane
    `2k+1` holds `rot l k 1`.
  Each layout operation is read at an index by one lemma over explicit coordinates: merging `[5, 64, 2]` into `[5, 128]` sends
  lane `q` to pair `q / 2`, slot `q % 2` (row-major positions agree: `(64 l + q / 2) 2 + q % 2 = 128 l + q`).

  The list of host operations is cut after everything that precedes these eleven; the contents the eleven start from are kept
  opaque, and none of the eleven writes the rotations.
-/
import proofs.«423924_j10677288698548_4_alg».proof.Proof.KBase
import proofs.«423924_j10677288698548_4_alg».proof.Proof.Spec
import Idealize.ShloMosaic.Lib.StableHlo.Run
import Idealize.ShloMosaic.Lib.Pipeline.Value
import Idealize.ShloMosaic.Lib.ValueIdx

-- the cut of a 144-operation list is checked by unfolding it
set_option maxRecDepth 4000

noncomputable section

namespace Cert.KernelIdeal.Host

open Cert.KernelIdeal Cert.KernelIdeal.Gen
open Idealize.ShloMosaic Idealize.ShloMosaic.TcCoe Idealize.ShloMosaic.ValueIdx
open Idealize.SL.Sem

/-! ## The cut of the host operations -/

/-- Two stretches of operations run one after the other are their concatenation run as one. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

/-- The last eleven host operations: the two tables from the rotations. -/
abbrev tableOps : List (HloOp τ sig (Elt Ideal)) :=
  [ StableHlo.unary main_v130 main_v131 ((extractStridedSlice S5x64x1 ![0, 0, 0] · slices_S5x64x2_S5x64x1_0_0_0) : (⟨S5x64x2, .f32⟩ : BufTy).Contents (Elt Ideal) → (⟨S5x64x1, .f32⟩ : BufTy).Contents (Elt Ideal)),
    StableHlo.reshape main_v131 main_v132 rfl shapeCasts_S5x64x1_S5x64,
    StableHlo.unary main_v130 main_v133 ((extractStridedSlice S5x64x1 ![0, 0, 1] · slices_S5x64x2_S5x64x1_0_0_1) : (⟨S5x64x2, .f32⟩ : BufTy).Contents (Elt Ideal) → (⟨S5x64x1, .f32⟩ : BufTy).Contents (Elt Ideal)),
    StableHlo.reshape main_v133 main_v134 rfl shapeCasts_S5x64x1_S5x64,
    StableHlo.unary main_v132 main_v135 (broadcastInDim S5x64x2 ![0, 1] bcast_S5x64_S5x64x2_0_1 : (⟨S5x64, .f32⟩ : BufTy).Contents (Elt Ideal) → (⟨S5x64x2, .f32⟩ : BufTy).Contents (Elt Ideal)),
    StableHlo.reshape main_v135 main_v136 rfl shapeCasts_S5x64x2_S5x128,
    StableHlo.unary main_v134 main_v137 (Host.negf (F := Ideal) (s := S5x64) (φ := .f32) : (⟨S5x64, .f32⟩ : BufTy).Contents (Elt Ideal) → (⟨S5x64, .f32⟩ : BufTy).Contents (Elt Ideal)),
    StableHlo.unary main_v137 main_v138 (broadcastInDim S5x64x1 ![0, 1] bcast_S5x64_S5x64x1_0_1 : (⟨S5x64, .f32⟩ : BufTy).Contents (Elt Ideal) → (⟨S5x64x1, .f32⟩ : BufTy).Contents (Elt Ideal)),
    StableHlo.unary main_v134 main_v139 (broadcastInDim S5x64x1 ![0, 1] bcast_S5x64_S5x64x1_0_1 : (⟨S5x64, .f32⟩ : BufTy).Contents (Elt Ideal) → (⟨S5x64x1, .f32⟩ : BufTy).Contents (Elt Ideal)),
    StableHlo.binary main_v138 main_v139 main_v140 ((fun a b => concatenate S5x64x2 2 [⟨S5x64x1, a⟩, ⟨S5x64x1, b⟩] concatenates_S5x64x1_S5x64x1_S5x64x2_d2) : (⟨S5x64x1, .f32⟩ : BufTy).Contents (Elt Ideal) → (⟨S5x64x1, .f32⟩ : BufTy).Contents (Elt Ideal) → (⟨S5x64x2, .f32⟩ : BufTy).Contents (Elt Ideal)),
    StableHlo.reshape main_v140 main_v141 rfl shapeCasts_S5x64x2_S5x128 ]

/-- Everything before them. -/
abbrev preOps : List (HloOp τ sig (Elt Ideal)) :=
  hostOps0 (F := Ideal) ++ (hostOps0_1 (F := Ideal) ++ List.take 133 (hostOps0_2 (F := Ideal)))

/-- The eleven are the end of the last stretch of host operations. -/
theorem drop_eq : List.drop 133 (hostOps0_2 (F := Ideal)) = tableOps := rfl

/-- All the host operations, cut before the eleven. -/
theorem hostAll_cut :
    (List.flatten [hostOps0 (F := Ideal), hostOps0_1, hostOps0_2] : List (HloOp τ sig (Elt Ideal))) = preOps ++ tableOps := by
  show hostOps0 (F := Ideal) ++ (hostOps0_1 (F := Ideal) ++ (hostOps0_2 (F := Ideal) ++ [])) = _
  rw [List.append_nil, preOps, List.append_assoc, List.append_assoc, ← drop_eq, List.take_append_drop]

/-- What the kernel finds is what the eleven leave, from whatever the operations before them left. -/
theorem V_cut (m : (ℓ : Loc nD τ sig) → Buf (Elt Ideal) ℓ) (c : Dev nD) (b : Ref sig .tc) :
    Fr.V m c b = StableHlo.after tableOps (StableHlo.after preOps (fun b => m (c, b))) b := by
  rw [← after_append, ← hostAll_cut]

/-- None of the eleven writes the rotations. -/
theorem rot_kept (W : Valuation τ sig (Elt Ideal)) : StableHlo.after tableOps W main_v130 = W main_v130 := by
  after_results

/-- The cosine table as a composition of layout operations over the rotations. -/
theorem cos_term (W : Valuation τ sig (Elt Ideal)) :
    StableHlo.after tableOps W main_v136
      = shapeCast S5x128
          (broadcastInDim S5x64x2 ![0, 1] bcast_S5x64_S5x64x2_0_1
            (shapeCast S5x64 (extractStridedSlice S5x64x1 ![0, 0, 0] (W main_v130) slices_S5x64x2_S5x64x1_0_0_0)
              shapeCasts_S5x64x1_S5x64))
          shapeCasts_S5x64x2_S5x128 := by
  after_results
  rfl

/-- The signed sine table as a composition of layout operations and one negation over the rotations. -/
theorem sin_term (W : Valuation τ sig (Elt Ideal)) :
    StableHlo.after tableOps W main_v141
      = shapeCast S5x128
          (concatenate S5x64x2 2
            [⟨S5x64x1, broadcastInDim S5x64x1 ![0, 1] bcast_S5x64_S5x64x1_0_1
                (Host.negf (F := Ideal) (s := S5x64) (φ := .f32)
                  (shapeCast S5x64 (extractStridedSlice S5x64x1 ![0, 0, 1] (W main_v130) slices_S5x64x2_S5x64x1_0_0_1)
                    shapeCasts_S5x64x1_S5x64))⟩,
             ⟨S5x64x1, broadcastInDim S5x64x1 ![0, 1] bcast_S5x64_S5x64x1_0_1
                (shapeCast S5x64 (extractStridedSlice S5x64x1 ![0, 0, 1] (W main_v130) slices_S5x64x2_S5x64x1_0_0_1)
                  shapeCasts_S5x64x1_S5x64)⟩]
            concatenates_S5x64x1_S5x64x1_S5x64x2_d2)
          shapeCasts_S5x64x2_S5x128 := by
  after_results
  rfl

/-! ## Each layout operation at an index -/

section Layout
variable {α : Type}

/-- Merging the last two axes of `[5, 64, 2]`: lane `q` is slot `q % 2` of pair `q / 2`. -/
theorem merge_pairs_apply (x : S5x64x2.Idx → α) (h : S5x64x2.ShapeCasts S5x128) (l : Fin 5) (q : Fin 128) (z : Fin 2)
    (hz : z.val = q.val % 2) : shapeCast S5x128 x h (ix2 l q) = x (ix3 l (Cert.RotMean.pairOf q) z) :=
  shapeCast_apply x h (ix2 l q) (ix3 l (Cert.RotMean.pairOf q) z) (by
    rw [Shape.rowMajor_val_three, Shape.rowMajor_val_two]
    show (l.val * 64 + q.val / 2) * 2 + z.val = l.val * 128 + q.val
    omega)

/-- Dropping the unit last axis of `[5, 64, 1]`. -/
theorem drop_unit_apply (x : S5x64x1.Idx → α) (h : S5x64x1.ShapeCasts S5x64) (l : Fin 5) (k : Fin 64) :
    shapeCast S5x64 x h (ix2 l k) = x (ix3 l k (0 : Fin 1)) :=
  shapeCast_apply x h (ix2 l k) (ix3 l k (0 : Fin 1)) (by
    rw [Shape.rowMajor_val_three, Shape.rowMajor_val_two]
    show (l.val * 64 + k.val) * 1 + 0 = l.val * 64 + k.val
    omega)

/-- Cutting slot `o` out of every pair. -/
theorem cut_slot_apply (o : Nat) (ho : o < 2) (x : S5x64x2.Idx → α) (h : S5x64x2.Slices ![0, 0, o] S5x64x1)
    (l : Fin 5) (k : Fin 64) (z : Fin 1) :
    extractStridedSlice S5x64x1 ![0, 0, o] x h (ix3 l k z) = x (ix3 l k (⟨o, ho⟩ : Fin 2)) :=
  extractStridedSlice_apply ![0, 0, o] x h (ix3 l k z) (ix3 l k (⟨o, ho⟩ : Fin 2)) (fun a => match a with
    | ⟨0, _⟩ => by show l.val = 0 + l.val; omega
    | ⟨1, _⟩ => by show k.val = 0 + k.val; omega
    | ⟨2, _⟩ => by have := z.isLt; show o = o + z.val; omega)

/-- Repeating every entry along a new last axis of extent 2. -/
theorem repeat_pair_apply (h : S5x64.BroadcastsInDim S5x64x2 (![0, 1] : Fin 2 → Fin S5x64x2.rank)) (x : S5x64.Idx → α)
    (l : Fin 5) (k : Fin 64) (z : Fin 2) : broadcastInDim S5x64x2 ![0, 1] h x (ix3 l k z) = x (ix2 l k) :=
  broadcastInDim_apply ![0, 1] h x (ix3 l k z) (ix2 l k) (fun a => match a with
    | ⟨0, _⟩ => rfl
    | ⟨1, _⟩ => rfl)

/-- Giving every entry a new last axis of extent 1. -/
theorem add_unit_apply (h : S5x64.BroadcastsInDim S5x64x1 (![0, 1] : Fin 2 → Fin S5x64x1.rank)) (x : S5x64.Idx → α)
    (l : Fin 5) (k : Fin 64) (z : Fin 1) : broadcastInDim S5x64x1 ![0, 1] h x (ix3 l k z) = x (ix2 l k) :=
  broadcastInDim_apply ![0, 1] h x (ix3 l k z) (ix2 l k) (fun a => match a with
    | ⟨0, _⟩ => rfl
    | ⟨1, _⟩ => rfl)

/-- Two `[5, 64, 1]` arrays side by side along the last axis, at slot 0: the first. -/
theorem beside_slot0_apply (x₁ x₂ : S5x64x1.Idx → α) (h : Shape.Concatenates [S5x64x1, S5x64x1] S5x64x2 2)
    (l : Fin 5) (k : Fin 64) :
    concatenate S5x64x2 2 [⟨S5x64x1, x₁⟩, ⟨S5x64x1, x₂⟩] h (ix3 l k (0 : Fin 2)) = x₁ (ix3 l k (0 : Fin 1)) :=
  concatenate_pair_apply_left 2 x₁ x₂ h (ix3 l k (0 : Fin 2)) rfl (ix3 l k (0 : Fin 1)) (fun b => match b with
    | ⟨0, _⟩ => rfl
    | ⟨1, _⟩ => rfl
    | ⟨2, _⟩ => rfl)

/-- Two `[5, 64, 1]` arrays side by side along the last axis, at slot 1: the second. -/
theorem beside_slot1_apply (x₁ x₂ : S5x64x1.Idx → α) (h : Shape.Concatenates [S5x64x1, S5x64x1] S5x64x2 2)
    (l : Fin 5) (k : Fin 64) :
    concatenate S5x64x2 2 [⟨S5x64x1, x₁⟩, ⟨S5x64x1, x₂⟩] h (ix3 l k (1 : Fin 2)) = x₂ (ix3 l k (0 : Fin 1)) :=
  concatenate_pair_apply_right 2 x₁ x₂ h (ix3 l k (1 : Fin 2)) rfl rfl (ix3 l k (0 : Fin 1)) (fun b hb => match b, hb with
    | ⟨0, _⟩, _ => rfl
    | ⟨1, _⟩, _ => rfl
    | ⟨2, _⟩, hb => absurd rfl hb) rfl

end Layout

/-- The host's negation of an array of extended reals, at an index. -/
theorem host_neg_apply {s : Shape} {φ : FTy} (x : FVec Ideal s φ) (i : s.Idx) : Host.negf (F := Ideal) x i = -(x i) := rfl

/-! ## The two tables -/

/-- The cosine table the kernel finds: both lanes of pair `k` hold `rot l k 0`. -/
theorem cos_table (m : (ℓ : Loc nD τ sig) → Buf (Elt Ideal) ℓ) (c : Dev nD) (l : Fin 5) (q : Fin 128) :
    Fr.V m c main_v136 (ix2 l q) = Cert.RotMean.cosAt (Fr.V m c main_v130) l q := by
  rw [V_cut m c main_v136, V_cut m c main_v130]
  generalize StableHlo.after preOps (fun b => m (c, b)) = W
  rw [rot_kept W, cos_term W]
  unfold Cert.RotMean.cosAt
  refine (merge_pairs_apply _ _ l q ⟨q.val % 2, Nat.mod_lt _ (by decide)⟩ rfl).trans ?_
  refine (repeat_pair_apply _ _ l _ _).trans ?_
  refine (drop_unit_apply _ _ l _).trans ?_
  exact cut_slot_apply 0 (by decide) _ _ l _ 0

/-- The signed sine table the kernel finds: the even lane of pair `k` holds `-(rot l k 1)`, the odd lane `rot l k 1`. -/
theorem sin_table (m : (ℓ : Loc nD τ sig) → Buf (Elt Ideal) ℓ) (c : Dev nD) (l : Fin 5) (q : Fin 128) :
    Fr.V m c main_v141 (ix2 l q) = Cert.RotMean.sinAt (Fr.V m c main_v130) l q := by
  rw [V_cut m c main_v141, V_cut m c main_v130]
  generalize StableHlo.after preOps (fun b => m (c, b)) = W
  rw [rot_kept W, sin_term W]
  unfold Cert.RotMean.sinAt
  by_cases hq : q.val % 2 = 0
  · rw [if_pos hq]
    refine (merge_pairs_apply _ _ l q (0 : Fin 2) hq.symm).trans ?_
    refine (beside_slot0_apply _ _ _ l _).trans ?_
    refine (add_unit_apply _ _ l _ _).trans ?_
    refine (host_neg_apply _ _).trans ?_
    refine congrArg Neg.neg ?_
    refine (drop_unit_apply _ _ l _).trans ?_
    exact cut_slot_apply 1 (by decide) _ _ l _ 0
  · rw [if_neg hq]
    refine (merge_pairs_apply _ _ l q (1 : Fin 2) (by show 1 = q.val % 2; omega)).trans ?_
    refine (beside_slot1_apply _ _ _ l _).trans ?_
    refine (add_unit_apply _ _ l _ _).trans ?_
    refine (drop_unit_apply _ _ l _).trans ?_
    exact cut_slot_apply 1 (by decide) _ _ l _ 0

end Cert.KernelIdeal.Host

end
-- ==== Proof.ROps.lean ====
/- GENERATED by scratch/gen_rops.py: python3 scratch/gen_rops.py proof/ReferenceIdeal.lean proof/Proof/ROps.lean (run from the unit directory). Lists the printed reference program's 179 operations in order, window by window:
   each statement's operation verbatim, the call's as the callee's operations over the call's record; with each
   list, that every operation of it touches TensorCore references only. -/
import proofs.«423924_j10677288698548_4_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem Idealize.ShloMosaic.StableHlo

variable {F : FTy → Type} [FloatOps F]

/-- The operations 1 … 64 of 179 (window main_part0). -/
abbrev ops_part0 : List (HloOp τ sig (Elt F)) :=
  [ StableHlo.nullary main_cst (fun i => FloatOps.ofBits .f32 (lit0 (S2.rowMajor i))),
    StableHlo.reshape main_arg0 main_v0 rfl shapeCasts_S262144x5x128_S262144x5x64x2,
    StableHlo.TRef.binary (.of main_arg1 : StableHlo.TRef sig ⟨S4x64x2, .f32⟩) (.of main_arg1 : StableHlo.TRef sig ⟨S4x64x2, .f32⟩) (.of main_call0_v0 : StableHlo.TRef sig ⟨S4x64x2, .f32⟩) mulf,
    StableHlo.TRef.nullary (.of main_call0_cst : StableHlo.TRef sig ⟨S_, .f32⟩) (constant S_ .f32 0x00000000#32),
    StableHlo.TRef.binary (.of main_call0_v0 : StableHlo.TRef sig ⟨S4x64x2, .f32⟩) (.of main_call0_cst : StableHlo.TRef sig ⟨S_, .f32⟩) (.of main_call0_v1 : StableHlo.TRef sig ⟨S4x64, .f32⟩) (fun x v => Host.reduceAdd x v reducesTo_S4x64x2_S4x64_d2 h_S_),
    StableHlo.TRef.unary (.of main_call0_v1 : StableHlo.TRef sig ⟨S4x64, .f32⟩) (.of main_call0_v2 : StableHlo.TRef sig ⟨S4x64x1, .f32⟩) (broadcastInDim S4x64x1 ![0, 1] bcast_S4x64_S4x64x1_0_1),
    StableHlo.TRef.unary (.of main_call0_v2 : StableHlo.TRef sig ⟨S4x64x1, .f32⟩) (.of main_v1 : StableHlo.TRef sig ⟨S4x64x1, .f32⟩) Host.sqrt,
    StableHlo.nullary main_cst_0 (constant S_ .f32 0x2B8CBCCC#32),
    StableHlo.unary main_cst_0 main_v2 (broadcastInDim S4x64x1 ![] bcast_S_S4x64x1 : (⟨S_, .f32⟩ : BufTy).Contents (Elt F) → (⟨S4x64x1, .f32⟩ : BufTy).Contents (Elt F)),
    StableHlo.binary main_v1 main_v2 main_v3 (maximumf : (⟨S4x64x1, .f32⟩ : BufTy).Contents (Elt F) → (⟨S4x64x1, .f32⟩ : BufTy).Contents (Elt F) → (⟨S4x64x1, .f32⟩ : BufTy).Contents (Elt F)),
    StableHlo.unary main_v3 main_v4 (broadcastInDim S4x64x2 ![0, 1, 2] bcast_S4x64x1_S4x64x2_0_1_2 : (⟨S4x64x1, .f32⟩ : BufTy).Contents (Elt F) → (⟨S4x64x2, .f32⟩ : BufTy).Contents (Elt F)),
    StableHlo.binary main_arg1 main_v4 main_v5 (Host.divf : (⟨S4x64x2, .f32⟩ : BufTy).Contents (Elt F) → (⟨S4x64x2, .f32⟩ : BufTy).Contents (Elt F) → (⟨S4x64x2, .f32⟩ : BufTy).Contents (Elt F)),
    StableHlo.unary main_cst main_v6 (broadcastInDim S1x1x2 ![2] bcast_S2_S1x1x2_2 : (⟨S2, .f32⟩ : BufTy).Contents (Elt F) → (⟨S1x1x2, .f32⟩ : BufTy).Contents (Elt F)),
    StableHlo.unary main_v6 main_v7 (broadcastInDim S4x64x2 ![0, 1, 2] bcast_S1x1x2_S4x64x2_0_1_2 : (⟨S1x1x2, .f32⟩ : BufTy).Contents (Elt F) → (⟨S4x64x2, .f32⟩ : BufTy).Contents (Elt F)),
    StableHlo.binary main_v5 main_v7 main_v8 (mulf : (⟨S4x64x2, .f32⟩ : BufTy).Contents (Elt F) → (⟨S4x64x2, .f32⟩ : BufTy).Contents (Elt F) → (⟨S4x64x2, .f32⟩ : BufTy).Contents (Elt F)),
    StableHlo.unary main_v5 main_v9 (broadcastInDim S4x1x64x2 ![0, 2, 3] bcast_S4x64x2_S4x1x64x2_0_2_3 : (⟨S4x64x2, .f32⟩ : BufTy).Contents (Elt F) → (⟨S4x1x64x2, .f32⟩ : BufTy).Contents (Elt F)),
    StableHlo.unary main_v8 main_v10 (broadcastInDim S4x1x64x2 ![0, 2, 3] bcast_S4x64x2_S4x1x64x2_0_2_3 : (⟨S4x64x2, .f32⟩ : BufTy).Contents (Elt F) → (⟨S4x1x64x2, .f32⟩ : BufTy).Contents (Elt F)),
    StableHlo.binary main_v9 main_v10 main_v11 ((fun a b => concatenate S4x2x64x2 1 [⟨S4x1x64x2, a⟩, ⟨S4x1x64x2, b⟩] concatenates_S4x1x64x2_S4x1x64x2_S4x2x64x2_d1) : (⟨S4x1x64x2, .f32⟩ : BufTy).Contents (Elt F) → (⟨S4x1x64x2, .f32⟩ : BufTy).Contents (Elt F) → (⟨S4x2x64x2, .f32⟩ : BufTy).Contents (Elt F)),
    StableHlo.reshape main_v11 main_v12 rfl shapeCasts_S4x2x64x2_S8x64x2,
    StableHlo.nullary main_cst_1 (constant S_ .f32 0x3F800000#32),
    StableHlo.unary main_cst_1 main_v13 (broadcastInDim S64 ![] bcast_S_S64 : (⟨S_, .f32⟩ : BufTy).Contents (Elt F) → (⟨S64, .f32⟩ : BufTy).Contents (Elt F)),
    StableHlo.nullary main_cst_2 (constant S_ .f32 0x00000000#32),
    StableHlo.unary main_cst_2 main_v14 (broadcastInDim S64 ![] bcast_S_S64 : (⟨S_, .f32⟩ : BufTy).Contents (Elt F) → (⟨S64, .f32⟩ : BufTy).Contents (Elt F)),
    StableHlo.unary main_v13 main_v15 (broadcastInDim S64x1 ![0] bcast_S64_S64x1_0 : (⟨S64, .f32⟩ : BufTy).Contents (Elt F) → (⟨S64x1, .f32⟩ : BufTy).Contents (Elt F)),
    StableHlo.unary main_v14 main_v16 (broadcastInDim S64x1 ![0] bcast_S64_S64x1_0 : (⟨S64, .f32⟩ : BufTy).Contents (Elt F) → (⟨S64x1, .f32⟩ : BufTy).Contents (Elt F)),
    StableHlo.binary main_v15 main_v16 main_v17 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)),
    StableHlo.unary main_v12 main_v18 ((extractStridedSlice S1x64x2 ![7, 0, 0] · slices_S8x64x2_S1x64x2_7_0_0) : (⟨S8x64x2, .f32⟩ : BufTy).Contents (Elt F) → (⟨S1x64x2, .f32⟩ : BufTy).Contents (Elt F)),
    StableHlo.reshape main_v18 main_v19 rfl shapeCasts_S1x64x2_S64x2,
    StableHlo.unary main_v17 main_v20 ((extractStridedSlice S64x1 ![0, 0] · slices_S64x2_S64x1_0_0) : (⟨S64x2, .f32⟩ : BufTy).Contents (Elt F) → (⟨S64x1, .f32⟩ : BufTy).Contents (Elt F)),
    StableHlo.reshape main_v20 main_v21 rfl shapeCasts_S64x1_S64,
    StableHlo.unary main_v19 main_v22 ((extractStridedSlice S64x1 ![0, 0] · slices_S64x2_S64x1_0_0) : (⟨S64x2, .f32⟩ : BufTy).Contents (Elt F) → (⟨S64x1, .f32⟩ : BufTy).Contents (Elt F)),
    StableHlo.reshape main_v22 main_v23 rfl shapeCasts_S64x1_S64,
    StableHlo.binary main_v21 main_v23 main_v24 (mulf : (⟨S64, .f32⟩ : BufTy).Contents (Elt F) → (⟨S64, .f32⟩ : BufTy).Contents (Elt F) → (⟨S64, .f32⟩ : BufTy).Contents (Elt F)),
    StableHlo.unary main_v17 main_v25 ((extractStridedSlice S64x1 ![0, 1] · slices_S64x2_S64x1_0_1) : (⟨S64x2, .f32⟩ : BufTy).Contents (Elt F) → (⟨S64x1, .f32⟩ : BufTy).Contents (Elt F)),
    StableHlo.reshape main_v25 main_v26 rfl shapeCasts_S64x1_S64,
    StableHlo.unary main_v19 main_v27 ((extractStridedSlice S64x1 ![0, 1] · slices_S64x2_S64x1_0_1) : (⟨S64x2, .f32⟩ : BufTy).Contents (Elt F) → (⟨S64x1, .f32⟩ : BufTy).Contents (Elt F)),
    StableHlo.reshape main_v27 main_v28 rfl shapeCasts_S64x1_S64,
    StableHlo.binary main_v26 main_v28 main_v29 (mulf : (⟨S64, .f32⟩ : BufTy).Contents (Elt F) → (⟨S64, .f32⟩ : BufTy).Contents (Elt F) → (⟨S64, .f32⟩ : BufTy).Contents (Elt F)),
    StableHlo.binary main_v24 main_v29 main_v30 (subf : (⟨S64, .f32⟩ : BufTy).Contents (Elt F) → (⟨S64, .f32⟩ : BufTy).Contents (Elt F) → (⟨S64, .f32⟩ : BufTy).Contents (Elt F)),
    StableHlo.unary main_v17 main_v31 ((extractStridedSlice S64x1 ![0, 0] · slices_S64x2_S64x1_0_0) : (⟨S64x2, .f32⟩ : BufTy).Contents (Elt F) → (⟨S64x1, .f32⟩ : BufTy).Contents (Elt F)),
    StableHlo.reshape main_v31 main_v32 rfl shapeCasts_S64x1_S64,
    StableHlo.unary main_v19 main_v33 ((extractStridedSlice S64x1 ![0, 1] · slices_S64x2_S64x1_0_1) : (⟨S64x2, .f32⟩ : BufTy).Contents (Elt F) → (⟨S64x1, .f32⟩ : BufTy).Contents (Elt F)),
    StableHlo.reshape main_v33 main_v34 rfl shapeCasts_S64x1_S64,
    StableHlo.binary main_v32 main_v34 main_v35 (mulf : (⟨S64, .f32⟩ : BufTy).Contents (Elt F) → (⟨S64, .f32⟩ : BufTy).Contents (Elt F) → (⟨S64, .f32⟩ : BufTy).Contents (Elt F)),
    StableHlo.unary main_v17 main_v36 ((extractStridedSlice S64x1 ![0, 1] · slices_S64x2_S64x1_0_1) : (⟨S64x2, .f32⟩ : BufTy).Contents (Elt F) → (⟨S64x1, .f32⟩ : BufTy).Contents (Elt F)),
    StableHlo.reshape main_v36 main_v37 rfl shapeCasts_S64x1_S64,
    StableHlo.unary main_v19 main_v38 ((extractStridedSlice S64x1 ![0, 0] · slices_S64x2_S64x1_0_0) : (⟨S64x2, .f32⟩ : BufTy).Contents (Elt F) → (⟨S64x1, .f32⟩ : BufTy).Contents (Elt F)),
    StableHlo.reshape main_v38 main_v39 rfl shapeCasts_S64x1_S64,
    StableHlo.binary main_v37 main_v39 main_v40 (mulf : (⟨S64, .f32⟩ : BufTy).Contents (Elt F) → (⟨S64, .f32⟩ : BufTy).Contents (Elt F) → (⟨S64, .f32⟩ : BufTy).Contents (Elt F)),
    StableHlo.binary main_v35 main_v40 main_v41 (addf : (⟨S64, .f32⟩ : BufTy).Contents (Elt F) → (⟨S64, .f32⟩ : BufTy).Contents (Elt F) → (⟨S64, .f32⟩ : BufTy).Contents (Elt F)),
    StableHlo.unary main_v30 main_v42 (broadcastInDim S64x1 ![0] bcast_S64_S64x1_0 : (⟨S64, .f32⟩ : BufTy).Contents (Elt F) → (⟨S64x1, .f32⟩ : BufTy).Contents (Elt F)),
    StableHlo.unary main_v41 main_v43 (broadcastInDim S64x1 ![0] bcast_S64_S64x1_0 : (⟨S64, .f32⟩ : BufTy).Contents (Elt F) → (⟨S64x1, .f32⟩ : BufTy).Contents (Elt F)),
    StableHlo.binary main_v42 main_v43 main_v44 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)),
    StableHlo.unary main_v12 main_v45 ((extractStridedSlice S1x64x2 ![5, 0, 0] · slices_S8x64x2_S1x64x2_5_0_0) : (⟨S8x64x2, .f32⟩ : BufTy).Contents (Elt F) → (⟨S1x64x2, .f32⟩ : BufTy).Contents (Elt F)),
    StableHlo.reshape main_v45 main_v46 rfl shapeCasts_S1x64x2_S64x2,
    StableHlo.unary main_v44 main_v47 ((extractStridedSlice S64x1 ![0, 0] · slices_S64x2_S64x1_0_0) : (⟨S64x2, .f32⟩ : BufTy).Contents (Elt F) → (⟨S64x1, .f32⟩ : BufTy).Contents (Elt F)),
    StableHlo.reshape main_v47 main_v48 rfl shapeCasts_S64x1_S64,
    StableHlo.unary main_v46 main_v49 ((extractStridedSlice S64x1 ![0, 0] · slices_S64x2_S64x1_0_0) : (⟨S64x2, .f32⟩ : BufTy).Contents (Elt F) → (⟨S64x1, .f32⟩ : BufTy).Contents (Elt F)),
    StableHlo.reshape main_v49 main_v50 rfl shapeCasts_S64x1_S64,
    StableHlo.binary main_v48 main_v50 main_v51 (mulf : (⟨S64, .f32⟩ : BufTy).Contents (Elt F) → (⟨S64, .f32⟩ : BufTy).Contents (Elt F) → (⟨S64, .f32⟩ : BufTy).Contents (Elt F)),
    StableHlo.unary main_v44 main_v52 ((extractStridedSlice S64x1 ![0, 1] · slices_S64x2_S64x1_0_1) : (⟨S64x2, .f32⟩ : BufTy).Contents (Elt F) → (⟨S64x1, .f32⟩ : BufTy).Contents (Elt F)),
    StableHlo.reshape main_v52 main_v53 rfl shapeCasts_S64x1_S64,
    StableHlo.unary main_v46 main_v54 ((extractStridedSlice S64x1 ![0, 1] · slices_S64x2_S64x1_0_1) : (⟨S64x2, .f32⟩ : BufTy).Contents (Elt F) → (⟨S64x1, .f32⟩ : BufTy).Contents (Elt F)),
    StableHlo.reshape main_v54 main_v55 rfl shapeCasts_S64x1_S64 ]

/-- The operations 65 … 124 of 179 (window main_part1). -/
abbrev ops_part1 : List (HloOp τ sig (Elt F)) :=
  [ StableHlo.binary main_v53 main_v55 main_v56 (mulf : (⟨S64, .f32⟩ : BufTy).Contents (Elt F) → (⟨S64, .f32⟩ : BufTy).Contents (Elt F) → (⟨S64, .f32⟩ : BufTy).Contents (Elt F)),
    StableHlo.binary main_v51 main_v56 main_v57 (subf : (⟨S64, .f32⟩ : BufTy).Contents (Elt F) → (⟨S64, .f32⟩ : BufTy).Contents (Elt F) → (⟨S64, .f32⟩ : BufTy).Contents (Elt F)),
    StableHlo.unary main_v44 main_v58 ((extractStridedSlice S64x1 ![0, 0] · slices_S64x2_S64x1_0_0) : (⟨S64x2, .f32⟩ : BufTy).Contents (Elt F) → (⟨S64x1, .f32⟩ : BufTy).Contents (Elt F)),
    StableHlo.reshape main_v58 main_v59 rfl shapeCasts_S64x1_S64,
    StableHlo.unary main_v46 main_v60 ((extractStridedSlice S64x1 ![0, 1] · slices_S64x2_S64x1_0_1) : (⟨S64x2, .f32⟩ : BufTy).Contents (Elt F) → (⟨S64x1, .f32⟩ : BufTy).Contents (Elt F)),
    StableHlo.reshape main_v60 main_v61 rfl shapeCasts_S64x1_S64,
    StableHlo.binary main_v59 main_v61 main_v62 (mulf : (⟨S64, .f32⟩ : BufTy).Contents (Elt F) → (⟨S64, .f32⟩ : BufTy).Contents (Elt F) → (⟨S64, .f32⟩ : BufTy).Contents (Elt F)),
    StableHlo.unary main_v44 main_v63 ((extractStridedSlice S64x1 ![0, 1] · slices_S64x2_S64x1_0_1) : (⟨S64x2, .f32⟩ : BufTy).Contents (Elt F) → (⟨S64x1, .f32⟩ : BufTy).Contents (Elt F)),
    StableHlo.reshape main_v63 main_v64 rfl shapeCasts_S64x1_S64,
    StableHlo.unary main_v46 main_v65 ((extractStridedSlice S64x1 ![0, 0] · slices_S64x2_S64x1_0_0) : (⟨S64x2, .f32⟩ : BufTy).Contents (Elt F) → (⟨S64x1, .f32⟩ : BufTy).Contents (Elt F)),
    StableHlo.reshape main_v65 main_v66 rfl shapeCasts_S64x1_S64,
    StableHlo.binary main_v64 main_v66 main_v67 (mulf : (⟨S64, .f32⟩ : BufTy).Contents (Elt F) → (⟨S64, .f32⟩ : BufTy).Contents (Elt F) → (⟨S64, .f32⟩ : BufTy).Contents (Elt F)),
    StableHlo.binary main_v62 main_v67 main_v68 (addf : (⟨S64, .f32⟩ : BufTy).Contents (Elt F) → (⟨S64, .f32⟩ : BufTy).Contents (Elt F) → (⟨S64, .f32⟩ : BufTy).Contents (Elt F)),
    StableHlo.unary main_v57 main_v69 (broadcastInDim S64x1 ![0] bcast_S64_S64x1_0 : (⟨S64, .f32⟩ : BufTy).Contents (Elt F) → (⟨S64x1, .f32⟩ : BufTy).Contents (Elt F)),
    StableHlo.unary main_v68 main_v70 (broadcastInDim S64x1 ![0] bcast_S64_S64x1_0 : (⟨S64, .f32⟩ : BufTy).Contents (Elt F) → (⟨S64x1, .f32⟩ : BufTy).Contents (Elt F)),
    StableHlo.binary main_v69 main_v70 main_v71 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)),
    StableHlo.unary main_v12 main_v72 ((extractStridedSlice S1x64x2 ![2, 0, 0] · slices_S8x64x2_S1x64x2_2_0_0) : (⟨S8x64x2, .f32⟩ : BufTy).Contents (Elt F) → (⟨S1x64x2, .f32⟩ : BufTy).Contents (Elt F)),
    StableHlo.reshape main_v72 main_v73 rfl shapeCasts_S1x64x2_S64x2,
    StableHlo.unary main_v71 main_v74 ((extractStridedSlice S64x1 ![0, 0] · slices_S64x2_S64x1_0_0) : (⟨S64x2, .f32⟩ : BufTy).Contents (Elt F) → (⟨S64x1, .f32⟩ : BufTy).Contents (Elt F)),
    StableHlo.reshape main_v74 main_v75 rfl shapeCasts_S64x1_S64,
    StableHlo.unary main_v73 main_v76 ((extractStridedSlice S64x1 ![0, 0] · slices_S64x2_S64x1_0_0) : (⟨S64x2, .f32⟩ : BufTy).Contents (Elt F) → (⟨S64x1, .f32⟩ : BufTy).Contents (Elt F)),
    StableHlo.reshape main_v76 main_v77 rfl shapeCasts_S64x1_S64,
    StableHlo.binary main_v75 main_v77 main_v78 (mulf : (⟨S64, .f32⟩ : BufTy).Contents (Elt F) → (⟨S64, .f32⟩ : BufTy).Contents (Elt F) → (⟨S64, .f32⟩ : BufTy).Contents (Elt F)),
    StableHlo.unary main_v71 main_v79 ((extractStridedSlice S64x1 ![0, 1] · slices_S64x2_S64x1_0_1) : (⟨S64x2, .f32⟩ : BufTy).Contents (Elt F) → (⟨S64x1, .f32⟩ : BufTy).Contents (Elt F)),
    StableHlo.reshape main_v79 main_v80 rfl shapeCasts_S64x1_S64,
    StableHlo.unary main_v73 main_v81 ((extractStridedSlice S64x1 ![0, 1] · slices_S64x2_S64x1_0_1) : (⟨S64x2, .f32⟩ : BufTy).Contents (Elt F) → (⟨S64x1, .f32⟩ : BufTy).Contents (Elt F)),
    StableHlo.reshape main_v81 main_v82 rfl shapeCasts_S64x1_S64,
    StableHlo.binary main_v80 main_v82 main_v83 (mulf : (⟨S64, .f32⟩ : BufTy).Contents (Elt F) → (⟨S64, .f32⟩ : BufTy).Contents (Elt F) → (⟨S64, .f32⟩ : BufTy).Contents (Elt F)),
    StableHlo.binary main_v78 main_v83 main_v84 (subf : (⟨S64, .f32⟩ : BufTy).Contents (Elt F) → (⟨S64, .f32⟩ : BufTy).Contents (Elt F) → (⟨S64, .f32⟩ : BufTy).Contents (Elt F)),
    StableHlo.unary main_v71 main_v85 ((extractStridedSlice S64x1 ![0, 0] · slices_S64x2_S64x1_0_0) : (⟨S64x2, .f32⟩ : BufTy).Contents (Elt F) → (⟨S64x1, .f32⟩ : BufTy).Contents (Elt F)),
    StableHlo.reshape main_v85 main_v86 rfl shapeCasts_S64x1_S64,
    StableHlo.unary main_v73 main_v87 ((extractStridedSlice S64x1 ![0, 1] · slices_S64x2_S64x1_0_1) : (⟨S64x2, .f32⟩ : BufTy).Contents (Elt F) → (⟨S64x1, .f32⟩ : BufTy).Contents (Elt F)),
    StableHlo.reshape main_v87 main_v88 rfl shapeCasts_S64x1_S64,
    StableHlo.binary main_v86 main_v88 main_v89 (mulf : (⟨S64, .f32⟩ : BufTy).Contents (Elt F) → (⟨S64, .f32⟩ : BufTy).Contents (Elt F) → (⟨S64, .f32⟩ : BufTy).Contents (Elt F)),
    StableHlo.unary main_v71 main_v90 ((extractStridedSlice S64x1 ![0, 1] · slices_S64x2_S64x1_0_1) : (⟨S64x2, .f32⟩ : BufTy).Contents (Elt F) → (⟨S64x1, .f32⟩ : BufTy).Contents (Elt F)),
    StableHlo.reshape main_v90 main_v91 rfl shapeCasts_S64x1_S64,
    StableHlo.unary main_v73 main_v92 ((extractStridedSlice S64x1 ![0, 0] · slices_S64x2_S64x1_0_0) : (⟨S64x2, .f32⟩ : BufTy).Contents (Elt F) → (⟨S64x1, .f32⟩ : BufTy).Contents (Elt F)),
    StableHlo.reshape main_v92 main_v93 rfl shapeCasts_S64x1_S64,
    StableHlo.binary main_v91 main_v93 main_v94 (mulf : (⟨S64, .f32⟩ : BufTy).Contents (Elt F) → (⟨S64, .f32⟩ : BufTy).Contents (Elt F) → (⟨S64, .f32⟩ : BufTy).Contents (Elt F)),
    StableHlo.binary main_v89 main_v94 main_v95 (addf : (⟨S64, .f32⟩ : BufTy).Contents (Elt F) → (⟨S64, .f32⟩ : BufTy).Contents (Elt F) → (⟨S64, .f32⟩ : BufTy).Contents (Elt F)),
    StableHlo.unary main_v84 main_v96 (broadcastInDim S64x1 ![0] bcast_S64_S64x1_0 : (⟨S64, .f32⟩ : BufTy).Contents (Elt F) → (⟨S64x1, .f32⟩ : BufTy).Contents (Elt F)),
    StableHlo.unary main_v95 main_v97 (broadcastInDim S64x1 ![0] bcast_S64_S64x1_0 : (⟨S64, .f32⟩ : BufTy).Contents (Elt F) → (⟨S64x1, .f32⟩ : BufTy).Contents (Elt F)),
    StableHlo.binary main_v96 main_v97 main_v98 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)),
    StableHlo.unary main_v12 main_v99 ((extractStridedSlice S1x64x2 ![0, 0, 0] · slices_S8x64x2_S1x64x2_0_0_0) : (⟨S8x64x2, .f32⟩ : BufTy).Contents (Elt F) → (⟨S1x64x2, .f32⟩ : BufTy).Contents (Elt F)),
    StableHlo.reshape main_v99 main_v100 rfl shapeCasts_S1x64x2_S64x2,
    StableHlo.unary main_v98 main_v101 ((extractStridedSlice S64x1 ![0, 0] · slices_S64x2_S64x1_0_0) : (⟨S64x2, .f32⟩ : BufTy).Contents (Elt F) → (⟨S64x1, .f32⟩ : BufTy).Contents (Elt F)),
    StableHlo.reshape main_v101 main_v102 rfl shapeCasts_S64x1_S64,
    StableHlo.unary main_v100 main_v103 ((extractStridedSlice S64x1 ![0, 0] · slices_S64x2_S64x1_0_0) : (⟨S64x2, .f32⟩ : BufTy).Contents (Elt F) → (⟨S64x1, .f32⟩ : BufTy).Contents (Elt F)),
    StableHlo.reshape main_v103 main_v104 rfl shapeCasts_S64x1_S64,
    StableHlo.binary main_v102 main_v104 main_v105 (mulf : (⟨S64, .f32⟩ : BufTy).Contents (Elt F) → (⟨S64, .f32⟩ : BufTy).Contents (Elt F) → (⟨S64, .f32⟩ : BufTy).Contents (Elt F)),
    StableHlo.unary main_v98 main_v106 ((extractStridedSlice S64x1 ![0, 1] · slices_S64x2_S64x1_0_1) : (⟨S64x2, .f32⟩ : BufTy).Contents (Elt F) → (⟨S64x1, .f32⟩ : BufTy).Contents (Elt F)),
    StableHlo.reshape main_v106 main_v107 rfl shapeCasts_S64x1_S64,
    StableHlo.unary main_v100 main_v108 ((extractStridedSlice S64x1 ![0, 1] · slices_S64x2_S64x1_0_1) : (⟨S64x2, .f32⟩ : BufTy).Contents (Elt F) → (⟨S64x1, .f32⟩ : BufTy).Contents (Elt F)),
    StableHlo.reshape main_v108 main_v109 rfl shapeCasts_S64x1_S64,
    StableHlo.binary main_v107 main_v109 main_v110 (mulf : (⟨S64, .f32⟩ : BufTy).Contents (Elt F) → (⟨S64, .f32⟩ : BufTy).Contents (Elt F) → (⟨S64, .f32⟩ : BufTy).Contents (Elt F)),
    StableHlo.binary main_v105 main_v110 main_v111 (subf : (⟨S64, .f32⟩ : BufTy).Contents (Elt F) → (⟨S64, .f32⟩ : BufTy).Contents (Elt F) → (⟨S64, .f32⟩ : BufTy).Contents (Elt F)),
    StableHlo.unary main_v98 main_v112 ((extractStridedSlice S64x1 ![0, 0] · slices_S64x2_S64x1_0_0) : (⟨S64x2, .f32⟩ : BufTy).Contents (Elt F) → (⟨S64x1, .f32⟩ : BufTy).Contents (Elt F)),
    StableHlo.reshape main_v112 main_v113 rfl shapeCasts_S64x1_S64,
    StableHlo.unary main_v100 main_v114 ((extractStridedSlice S64x1 ![0, 1] · slices_S64x2_S64x1_0_1) : (⟨S64x2, .f32⟩ : BufTy).Contents (Elt F) → (⟨S64x1, .f32⟩ : BufTy).Contents (Elt F)),
    StableHlo.reshape main_v114 main_v115 rfl shapeCasts_S64x1_S64 ]

/-- The operations 125 … 179 of 179 (window main_part2). -/
abbrev ops_part2 : List (HloOp τ sig (Elt F)) :=
  [ StableHlo.binary main_v113 main_v115 main_v116 (mulf : (⟨S64, .f32⟩ : BufTy).Contents (Elt F) → (⟨S64, .f32⟩ : BufTy).Contents (Elt F) → (⟨S64, .f32⟩ : BufTy).Contents (Elt F)),
    StableHlo.unary main_v98 main_v117 ((extractStridedSlice S64x1 ![0, 1] · slices_S64x2_S64x1_0_1) : (⟨S64x2, .f32⟩ : BufTy).Contents (Elt F) → (⟨S64x1, .f32⟩ : BufTy).Contents (Elt F)),
    StableHlo.reshape main_v117 main_v118 rfl shapeCasts_S64x1_S64,
    StableHlo.unary main_v100 main_v119 ((extractStridedSlice S64x1 ![0, 0] · slices_S64x2_S64x1_0_0) : (⟨S64x2, .f32⟩ : BufTy).Contents (Elt F) → (⟨S64x1, .f32⟩ : BufTy).Contents (Elt F)),
    StableHlo.reshape main_v119 main_v120 rfl shapeCasts_S64x1_S64,
    StableHlo.binary main_v118 main_v120 main_v121 (mulf : (⟨S64, .f32⟩ : BufTy).Contents (Elt F) → (⟨S64, .f32⟩ : BufTy).Contents (Elt F) → (⟨S64, .f32⟩ : BufTy).Contents (Elt F)),
    StableHlo.binary main_v116 main_v121 main_v122 (addf : (⟨S64, .f32⟩ : BufTy).Contents (Elt F) → (⟨S64, .f32⟩ : BufTy).Contents (Elt F) → (⟨S64, .f32⟩ : BufTy).Contents (Elt F)),
    StableHlo.unary main_v111 main_v123 (broadcastInDim S64x1 ![0] bcast_S64_S64x1_0 : (⟨S64, .f32⟩ : BufTy).Contents (Elt F) → (⟨S64x1, .f32⟩ : BufTy).Contents (Elt F)),
    StableHlo.unary main_v122 main_v124 (broadcastInDim S64x1 ![0] bcast_S64_S64x1_0 : (⟨S64, .f32⟩ : BufTy).Contents (Elt F) → (⟨S64x1, .f32⟩ : BufTy).Contents (Elt F)),
    StableHlo.binary main_v123 main_v124 main_v125 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)),
    StableHlo.unary main_v125 main_v126 (broadcastInDim S1x64x2 ![1, 2] bcast_S64x2_S1x64x2_1_2 : (⟨S64x2, .f32⟩ : BufTy).Contents (Elt F) → (⟨S1x64x2, .f32⟩ : BufTy).Contents (Elt F)),
    StableHlo.unary main_v98 main_v127 (broadcastInDim S1x64x2 ![1, 2] bcast_S64x2_S1x64x2_1_2 : (⟨S64x2, .f32⟩ : BufTy).Contents (Elt F) → (⟨S1x64x2, .f32⟩ : BufTy).Contents (Elt F)),
    StableHlo.unary main_v71 main_v128 (broadcastInDim S1x64x2 ![1, 2] bcast_S64x2_S1x64x2_1_2 : (⟨S64x2, .f32⟩ : BufTy).Contents (Elt F) → (⟨S1x64x2, .f32⟩ : BufTy).Contents (Elt F)),
    StableHlo.unary main_v44 main_v129 (broadcastInDim S1x64x2 ![1, 2] bcast_S64x2_S1x64x2_1_2 : (⟨S64x2, .f32⟩ : BufTy).Contents (Elt F) → (⟨S1x64x2, .f32⟩ : BufTy).Contents (Elt F)),
    StableHlo.unary main_v17 main_v130 (broadcastInDim S1x64x2 ![1, 2] bcast_S64x2_S1x64x2_1_2 : (⟨S64x2, .f32⟩ : BufTy).Contents (Elt F) → (⟨S1x64x2, .f32⟩ : BufTy).Contents (Elt F)),
    StableHlo.nary ![main_v126, main_v127, main_v128, main_v129, main_v130] main_v131 (fun u => concatenate S5x64x2 0 [⟨S1x64x2, u 0⟩, ⟨S1x64x2, u 1⟩, ⟨S1x64x2, u 2⟩, ⟨S1x64x2, u 3⟩, ⟨S1x64x2, u 4⟩] concatenates_S1x64x2_S1x64x2_S1x64x2_S1x64x2_S1x64x2_S5x64x2_d0),
    StableHlo.unary main_v0 main_v132 ((extractStridedSlice S262144x5x64x1 ![0, 0, 0, 0] · slices_S262144x5x64x2_S262144x5x64x1_0_0_0_0) : (⟨S262144x5x64x2, .f32⟩ : BufTy).Contents (Elt F) → (⟨S262144x5x64x1, .f32⟩ : BufTy).Contents (Elt F)),
    StableHlo.reshape main_v132 main_v133 rfl shapeCasts_S262144x5x64x1_S262144x5x64,
    StableHlo.unary main_v131 main_v134 ((extractStridedSlice S5x64x1 ![0, 0, 0] · slices_S5x64x2_S5x64x1_0_0_0) : (⟨S5x64x2, .f32⟩ : BufTy).Contents (Elt F) → (⟨S5x64x1, .f32⟩ : BufTy).Contents (Elt F)),
    StableHlo.reshape main_v134 main_v135 rfl shapeCasts_S5x64x1_S5x64,
    StableHlo.unary main_v135 main_v136 (broadcastInDim S1x5x64 ![1, 2] bcast_S5x64_S1x5x64_1_2 : (⟨S5x64, .f32⟩ : BufTy).Contents (Elt F) → (⟨S1x5x64, .f32⟩ : BufTy).Contents (Elt F)),
    StableHlo.unary main_v136 main_v137 (broadcastInDim S262144x5x64 ![0, 1, 2] bcast_S1x5x64_S262144x5x64_0_1_2 : (⟨S1x5x64, .f32⟩ : BufTy).Contents (Elt F) → (⟨S262144x5x64, .f32⟩ : BufTy).Contents (Elt F)),
    StableHlo.binary main_v133 main_v137 main_v138 (mulf : (⟨S262144x5x64, .f32⟩ : BufTy).Contents (Elt F) → (⟨S262144x5x64, .f32⟩ : BufTy).Contents (Elt F) → (⟨S262144x5x64, .f32⟩ : BufTy).Contents (Elt F)),
    StableHlo.unary main_v0 main_v139 ((extractStridedSlice S262144x5x64x1 ![0, 0, 0, 1] · slices_S262144x5x64x2_S262144x5x64x1_0_0_0_1) : (⟨S262144x5x64x2, .f32⟩ : BufTy).Contents (Elt F) → (⟨S262144x5x64x1, .f32⟩ : BufTy).Contents (Elt F)),
    StableHlo.reshape main_v139 main_v140 rfl shapeCasts_S262144x5x64x1_S262144x5x64,
    StableHlo.unary main_v131 main_v141 ((extractStridedSlice S5x64x1 ![0, 0, 1] · slices_S5x64x2_S5x64x1_0_0_1) : (⟨S5x64x2, .f32⟩ : BufTy).Contents (Elt F) → (⟨S5x64x1, .f32⟩ : BufTy).Contents (Elt F)),
    StableHlo.reshape main_v141 main_v142 rfl shapeCasts_S5x64x1_S5x64,
    StableHlo.unary main_v142 main_v143 (broadcastInDim S1x5x64 ![1, 2] bcast_S5x64_S1x5x64_1_2 : (⟨S5x64, .f32⟩ : BufTy).Contents (Elt F) → (⟨S1x5x64, .f32⟩ : BufTy).Contents (Elt F)),
    StableHlo.unary main_v143 main_v144 (broadcastInDim S262144x5x64 ![0, 1, 2] bcast_S1x5x64_S262144x5x64_0_1_2 : (⟨S1x5x64, .f32⟩ : BufTy).Contents (Elt F) → (⟨S262144x5x64, .f32⟩ : BufTy).Contents (Elt F)),
    StableHlo.binary main_v140 main_v144 main_v145 (mulf : (⟨S262144x5x64, .f32⟩ : BufTy).Contents (Elt F) → (⟨S262144x5x64, .f32⟩ : BufTy).Contents (Elt F) → (⟨S262144x5x64, .f32⟩ : BufTy).Contents (Elt F)),
    StableHlo.binary main_v138 main_v145 main_v146 (subf : (⟨S262144x5x64, .f32⟩ : BufTy).Contents (Elt F) → (⟨S262144x5x64, .f32⟩ : BufTy).Contents (Elt F) → (⟨S262144x5x64, .f32⟩ : BufTy).Contents (Elt F)),
    StableHlo.unary main_v0 main_v147 ((extractStridedSlice S262144x5x64x1 ![0, 0, 0, 0] · slices_S262144x5x64x2_S262144x5x64x1_0_0_0_0) : (⟨S262144x5x64x2, .f32⟩ : BufTy).Contents (Elt F) → (⟨S262144x5x64x1, .f32⟩ : BufTy).Contents (Elt F)),
    StableHlo.reshape main_v147 main_v148 rfl shapeCasts_S262144x5x64x1_S262144x5x64,
    StableHlo.unary main_v131 main_v149 ((extractStridedSlice S5x64x1 ![0, 0, 1] · slices_S5x64x2_S5x64x1_0_0_1) : (⟨S5x64x2, .f32⟩ : BufTy).Contents (Elt F) → (⟨S5x64x1, .f32⟩ : BufTy).Contents (Elt F)),
    StableHlo.reshape main_v149 main_v150 rfl shapeCasts_S5x64x1_S5x64,
    StableHlo.unary main_v150 main_v151 (broadcastInDim S1x5x64 ![1, 2] bcast_S5x64_S1x5x64_1_2 : (⟨S5x64, .f32⟩ : BufTy).Contents (Elt F) → (⟨S1x5x64, .f32⟩ : BufTy).Contents (Elt F)),
    StableHlo.unary main_v151 main_v152 (broadcastInDim S262144x5x64 ![0, 1, 2] bcast_S1x5x64_S262144x5x64_0_1_2 : (⟨S1x5x64, .f32⟩ : BufTy).Contents (Elt F) → (⟨S262144x5x64, .f32⟩ : BufTy).Contents (Elt F)),
    StableHlo.binary main_v148 main_v152 main_v153 (mulf : (⟨S262144x5x64, .f32⟩ : BufTy).Contents (Elt F) → (⟨S262144x5x64, .f32⟩ : BufTy).Contents (Elt F) → (⟨S262144x5x64, .f32⟩ : BufTy).Contents (Elt F)),
    StableHlo.unary main_v0 main_v154 ((extractStridedSlice S262144x5x64x1 ![0, 0, 0, 1] · slices_S262144x5x64x2_S262144x5x64x1_0_0_0_1) : (⟨S262144x5x64x2, .f32⟩ : BufTy).Contents (Elt F) → (⟨S262144x5x64x1, .f32⟩ : BufTy).Contents (Elt F)),
    StableHlo.reshape main_v154 main_v155 rfl shapeCasts_S262144x5x64x1_S262144x5x64,
    StableHlo.unary main_v131 main_v156 ((extractStridedSlice S5x64x1 ![0, 0, 0] · slices_S5x64x2_S5x64x1_0_0_0) : (⟨S5x64x2, .f32⟩ : BufTy).Contents (Elt F) → (⟨S5x64x1, .f32⟩ : BufTy).Contents (Elt F)),
    StableHlo.reshape main_v156 main_v157 rfl shapeCasts_S5x64x1_S5x64,
    StableHlo.unary main_v157 main_v158 (broadcastInDim S1x5x64 ![1, 2] bcast_S5x64_S1x5x64_1_2 : (⟨S5x64, .f32⟩ : BufTy).Contents (Elt F) → (⟨S1x5x64, .f32⟩ : BufTy).Contents (Elt F)),
    StableHlo.unary main_v158 main_v159 (broadcastInDim S262144x5x64 ![0, 1, 2] bcast_S1x5x64_S262144x5x64_0_1_2 : (⟨S1x5x64, .f32⟩ : BufTy).Contents (Elt F) → (⟨S262144x5x64, .f32⟩ : BufTy).Contents (Elt F)),
    StableHlo.binary main_v155 main_v159 main_v160 (mulf : (⟨S262144x5x64, .f32⟩ : BufTy).Contents (Elt F) → (⟨S262144x5x64, .f32⟩ : BufTy).Contents (Elt F) → (⟨S262144x5x64, .f32⟩ : BufTy).Contents (Elt F)),
    StableHlo.binary main_v153 main_v160 main_v161 (addf : (⟨S262144x5x64, .f32⟩ : BufTy).Contents (Elt F) → (⟨S262144x5x64, .f32⟩ : BufTy).Contents (Elt F) → (⟨S262144x5x64, .f32⟩ : BufTy).Contents (Elt F)),
    StableHlo.unary main_v146 main_v162 (broadcastInDim S262144x5x64x1 ![0, 1, 2] bcast_S262144x5x64_S262144x5x64x1_0_1_2 : (⟨S262144x5x64, .f32⟩ : BufTy).Contents (Elt F) → (⟨S262144x5x64x1, .f32⟩ : BufTy).Contents (Elt F)),
    StableHlo.unary main_v161 main_v163 (broadcastInDim S262144x5x64x1 ![0, 1, 2] bcast_S262144x5x64_S262144x5x64x1_0_1_2 : (⟨S262144x5x64, .f32⟩ : BufTy).Contents (Elt F) → (⟨S262144x5x64x1, .f32⟩ : BufTy).Contents (Elt F)),
    StableHlo.binary main_v162 main_v163 main_v164 ((fun a b => concatenate S262144x5x64x2 3 [⟨S262144x5x64x1, a⟩, ⟨S262144x5x64x1, b⟩] concatenates_S262144x5x64x1_S262144x5x64x1_S262144x5x64x2_d3) : (⟨S262144x5x64x1, .f32⟩ : BufTy).Contents (Elt F) → (⟨S262144x5x64x1, .f32⟩ : BufTy).Contents (Elt F) → (⟨S262144x5x64x2, .f32⟩ : BufTy).Contents (Elt F)),
    StableHlo.reshape main_v164 main_v165 rfl shapeCasts_S262144x5x64x2_S262144x5x128,
    StableHlo.nullary main_cst_3 (constant S_ .f32 0x00000000#32),
    StableHlo.binary main_v165 main_cst_3 main_v166 ((fun x v => Host.reduceAdd x v reducesTo_S262144x5x128_S262144x128_d1 h_S_) : (⟨S262144x5x128, .f32⟩ : BufTy).Contents (Elt F) → (⟨S_, .f32⟩ : BufTy).Contents (Elt F) → (⟨S262144x128, .f32⟩ : BufTy).Contents (Elt F)),
    StableHlo.nullary main_cst_4 (constant S_ .f32 0x40A00000#32),
    StableHlo.unary main_cst_4 main_v167 (broadcastInDim S262144x128 ![] bcast_S_S262144x128 : (⟨S_, .f32⟩ : BufTy).Contents (Elt F) → (⟨S262144x128, .f32⟩ : BufTy).Contents (Elt F)),
    StableHlo.binary main_v166 main_v167 main_v168 (Host.divf : (⟨S262144x128, .f32⟩ : BufTy).Contents (Elt F) → (⟨S262144x128, .f32⟩ : BufTy).Contents (Elt F) → (⟨S262144x128, .f32⟩ : BufTy).Contents (Elt F)) ]

/-- The 179 operations, in order. -/
abbrev ops : List (HloOp τ sig (Elt F)) :=
  ops_part0 ++ (ops_part1 ++ (ops_part2))

set_option maxRecDepth 8192 in
theorem ops_part0_sub : (ops_part0 : List (HloOp τ sig (Elt F))).Forall fun op => op.bufs ⊆ tcRefs τ sig :=
  ⟨nullary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., reshape_bufs_sub .., nullary_bufs_sub .., unary_bufs_sub .., nullary_bufs_sub .., unary_bufs_sub .., unary_bufs_sub .., unary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub ..⟩
set_option maxRecDepth 8192 in
theorem ops_part1_sub : (ops_part1 : List (HloOp τ sig (Elt F))).Forall fun op => op.bufs ⊆ tcRefs τ sig :=
  ⟨binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub ..⟩
set_option maxRecDepth 8192 in
theorem ops_part2_sub : (ops_part2 : List (HloOp τ sig (Elt F))).Forall fun op => op.bufs ⊆ tcRefs τ sig :=
  ⟨binary_bufs_sub .., unary_bufs_sub .., reshape_bufs_sub .., unary_bufs_sub .., reshape_bufs_sub .., binary_bufs_sub .., binary_bufs_sub .., unary_bufs_sub .., unary_bufs_sub .., binary_bufs_sub .., unary_bufs_sub .., unary_bufs_sub .., unary_bufs_sub .., unary_bufs_sub .., unary_bufs_sub .., nary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., binary_bufs_sub .., unary_bufs_sub .., unary_bufs_sub .., binary_bufs_sub .., reshape_bufs_sub .., nullary_bufs_sub .., binary_bufs_sub .., nullary_bufs_sub .., unary_bufs_sub .., binary_bufs_sub ..⟩

end Cert.ReferenceIdeal.Rn

end
-- ==== Proof.RBase.lean ====
/- The reference program's run. Each of its three windows, and so @main, is the straight line of the listed
   operations (the call unfolds to the callee's five); nothing in the signature is scoped; every operation
   touches TensorCore references only and determines what it writes. Hence every weakly fair execution of
   @main terminates with each TensorCore buffer at the fold of the operations' results over its launch
   contents; and the fold leaves the two argument buffers as they were, since no operation writes them. -/
import proofs.«423924_j10677288698548_4_alg».proof.Proof.ROps

noncomputable section

namespace Cert.ReferenceIdeal.Rn

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line -/

set_option maxRecDepth 8192 in
set_option maxHeartbeats 4000000 in
/-- The first window, the call unfolded: sequencing reassociates by computation. -/
theorem main_part0_eq (c : Dev nD) : main_part0 (F := F) c = seq ops_part0 := rfl

set_option maxRecDepth 8192 in
set_option maxHeartbeats 4000000 in
theorem main_part1_eq (c : Dev nD) : main_part1 (F := F) c = seq ops_part1 := rfl

set_option maxRecDepth 8192 in
set_option maxHeartbeats 4000000 in
theorem main_part2_eq (c : Dev nD) : main_part2 (F := F) c = seq ops_part2 := rfl

set_option maxRecDepth 8192 in
/-- @main runs its windows in order; a line after a line is their concatenation as one line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## What holds of every operation -/

/-- A property of every operation of each window holds of every operation of the line. -/
theorem forall_mem_ops {p : HloOp τ sig (Elt F) → Prop}
    (h0 : (ops_part0 : List (HloOp τ sig (Elt F))).Forall p) (h1 : (ops_part1 : List (HloOp τ sig (Elt F))).Forall p)
    (h2 : (ops_part2 : List (HloOp τ sig (Elt F))).Forall p) : ∀ op ∈ (ops : List (HloOp τ sig (Elt F))), p op := fun op h => by
  simp only [ops, List.mem_append] at h
  rcases h with h | h | h
  exacts [List.forall_iff_forall_mem.mp h0 op h, List.forall_iff_forall_mem.mp h1 op h, List.forall_iff_forall_mem.mp h2 op h]

theorem ops_sub : (ops : List (HloOp τ sig (Elt F))).Forall fun op => op.bufs ⊆ tcRefs τ sig :=
  List.forall_iff_forall_mem.mpr (forall_mem_ops ops_part0_sub ops_part1_sub ops_part2_sub)

set_option maxRecDepth 8192 in
theorem ops_part0_fresh : (ops_part0 : List (HloOp τ sig (Elt F))).Forall fun op => op.fresh = ∅ := by
  simp only [List.Forall]; repeat' constructor
set_option maxRecDepth 8192 in
theorem ops_part1_fresh : (ops_part1 : List (HloOp τ sig (Elt F))).Forall fun op => op.fresh = ∅ := by
  simp only [List.Forall]; repeat' constructor
set_option maxRecDepth 8192 in
theorem ops_part2_fresh : (ops_part2 : List (HloOp τ sig (Elt F))).Forall fun op => op.fresh = ∅ := by
  simp only [List.Forall]; repeat' constructor

/-- Every operation determines what it writes. -/
theorem ops_fresh : ∀ op ∈ (ops : List (HloOp τ sig (Elt F))), op.fresh = ∅ :=
  forall_mem_ops ops_part0_fresh ops_part1_fresh ops_part2_fresh

/-! ## The run -/

/-- On every device, for any float values, from any memory with zero counters: every weakly fair execution of
    @main terminates with each TensorCore buffer at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## The arguments are kept -/

/-- Each operation writes its one result buffer, and that is not the reference: the references differ, by
    computation. -/
local macro "not_written" : tactic =>
  `(tactic| (simp only [List.Forall, nullary_writes, unary_writes, binary_writes, reshape_writes, nary_writes, Finset.mem_singleton]
             repeat' apply And.intro
             all_goals exact devRef_ne_of_ne (by decide)))

set_option maxRecDepth 8192 in
theorem ops_part0_keeps_arg0 : (ops_part0 : List (HloOp τ sig (Elt F))).Forall fun op => (Proc.devRef .tc main_arg0 : DevRef τ sig) ∉ op.writes := by
  not_written
set_option maxRecDepth 8192 in
theorem ops_part1_keeps_arg0 : (ops_part1 : List (HloOp τ sig (Elt F))).Forall fun op => (Proc.devRef .tc main_arg0 : DevRef τ sig) ∉ op.writes := by
  not_written
set_option maxRecDepth 8192 in
theorem ops_part2_keeps_arg0 : (ops_part2 : List (HloOp τ sig (Elt F))).Forall fun op => (Proc.devRef .tc main_arg0 : DevRef τ sig) ∉ op.writes := by
  not_written
set_option maxRecDepth 8192 in
theorem ops_part0_keeps_arg1 : (ops_part0 : List (HloOp τ sig (Elt F))).Forall fun op => (Proc.devRef .tc main_arg1 : DevRef τ sig) ∉ op.writes := by
  not_written
set_option maxRecDepth 8192 in
theorem ops_part1_keeps_arg1 : (ops_part1 : List (HloOp τ sig (Elt F))).Forall fun op => (Proc.devRef .tc main_arg1 : DevRef τ sig) ∉ op.writes := by
  not_written
set_option maxRecDepth 8192 in
theorem ops_part2_keeps_arg1 : (ops_part2 : List (HloOp τ sig (Elt F))).Forall fun op => (Proc.devRef .tc main_arg1 : DevRef τ sig) ∉ op.writes := by
  not_written

/-- No operation writes the first argument: the fold leaves it as it was. -/
theorem arg0_kept (M : Valuation τ sig (Elt F)) : after ops M (Proc.devRef .tc main_arg0) = M (Proc.devRef .tc main_arg0) :=
  after_of_forall_not_mem ops M (forall_mem_ops ops_part0_keeps_arg0 ops_part1_keeps_arg0 ops_part2_keeps_arg0)

/-- No operation writes the second argument: the fold leaves it as it was. -/
theorem arg1_kept (M : Valuation τ sig (Elt F)) : after ops M (Proc.devRef .tc main_arg1) = M (Proc.devRef .tc main_arg1) :=
  after_of_forall_not_mem ops M (forall_mem_ops ops_part0_keeps_arg1 ops_part1_keeps_arg1 ops_part2_keeps_arg1)

end Cert.ReferenceIdeal.Rn

end
-- ==== Proof.RTail.lean ====
/-
  The value of the reference's last part. From the edge data `e : [262144, 5, 128]` and the rotations `rot : [5, 64, 2]` the
  reference views `e` as 64 pairs per (row, step), takes the pairs' real and imaginary parts `a`, `b` and the rotations'
  `c`, `d`, forms `a·c − b·d` and `a·d + b·c`, lays the two side by side so that even lanes hold real parts and odd lanes
  imaginary parts, sums over the five steps from zero and divides by five. `tail` is that composition, stage by stage;
  `tail_apply` reads it at (row `n`, lane `q`): the pair form `Cert.RotMean.pairAt`. Each layout stage is read at an index
  by one small lemma over explicit coordinates (a reshape keeps the row-major position; a slice shifts by its offsets; a
  broadcast forgets the new axes; a concatenation of two unit-extent pieces picks the piece by the last coordinate).
-/
import proofs.«423924_j10677288698548_4_alg».proof.Proof.Gen.ReferenceIdeal
import proofs.«423924_j10677288698548_4_alg».proof.Proof.Spec
import Idealize.ShloMosaic.PureOps.Ideal.Laws
import Idealize.ShloMosaic.Lib.Pipeline.Value
import Idealize.ShloMosaic.Lib.ValueIdx

noncomputable section

namespace Cert.ReferenceIdeal.RefVal

open Idealize.ShloMosaic Idealize.ShloMosaic.ValueIdx
open Cert.ReferenceIdeal Cert.ReferenceIdeal.Facts₀

/-! ## The stages of the reference's last part, one definition per group of printed operations -/

/-- The real parts `a`: the slice `[.., 0:1]` of the paired view, its unit axis dropped. -/
def edgeRe (e4 : FVec Ideal S262144x5x64x2 .f32) : FVec Ideal S262144x5x64 .f32 :=
  shapeCast S262144x5x64
    (extractStridedSlice S262144x5x64x1 ![0, 0, 0, 0] e4 slices_S262144x5x64x2_S262144x5x64x1_0_0_0_0)
    shapeCasts_S262144x5x64x1_S262144x5x64

/-- The imaginary parts `b`: the slice `[.., 1:2]` of the paired view, its unit axis dropped. -/
def edgeIm (e4 : FVec Ideal S262144x5x64x2 .f32) : FVec Ideal S262144x5x64 .f32 :=
  shapeCast S262144x5x64
    (extractStridedSlice S262144x5x64x1 ![0, 0, 0, 1] e4 slices_S262144x5x64x2_S262144x5x64x1_0_0_0_1)
    shapeCasts_S262144x5x64x1_S262144x5x64

/-- The rotations' real parts `c`, repeated along the rows. -/
def rotRe (rot : FVec Ideal S5x64x2 .f32) : FVec Ideal S262144x5x64 .f32 :=
  broadcastInDim S262144x5x64 ![0, 1, 2] bcast_S1x5x64_S262144x5x64_0_1_2
    (broadcastInDim S1x5x64 ![1, 2] bcast_S5x64_S1x5x64_1_2
      (shapeCast S5x64 (extractStridedSlice S5x64x1 ![0, 0, 0] rot slices_S5x64x2_S5x64x1_0_0_0) shapeCasts_S5x64x1_S5x64))

/-- The rotations' imaginary parts `d`, repeated along the rows. -/
def rotIm (rot : FVec Ideal S5x64x2 .f32) : FVec Ideal S262144x5x64 .f32 :=
  broadcastInDim S262144x5x64 ![0, 1, 2] bcast_S1x5x64_S262144x5x64_0_1_2
    (broadcastInDim S1x5x64 ![1, 2] bcast_S5x64_S1x5x64_1_2
      (shapeCast S5x64 (extractStridedSlice S5x64x1 ![0, 0, 1] rot slices_S5x64x2_S5x64x1_0_0_1) shapeCasts_S5x64x1_S5x64))

/-- The products' real parts `a·c − b·d`. -/
def prodRe (e4 : FVec Ideal S262144x5x64x2 .f32) (rot : FVec Ideal S5x64x2 .f32) : FVec Ideal S262144x5x64 .f32 :=
  subf (mulf (edgeRe e4) (rotRe rot)) (mulf (edgeIm e4) (rotIm rot))

/-- The products' imaginary parts `a·d + b·c`. -/
def prodIm (e4 : FVec Ideal S262144x5x64x2 .f32) (rot : FVec Ideal S5x64x2 .f32) : FVec Ideal S262144x5x64 .f32 :=
  addf (mulf (edgeRe e4) (rotIm rot)) (mulf (edgeIm e4) (rotRe rot))

/-- The products laid out lane by lane: real and imaginary parts side by side along a last axis of two, flattened to 128 lanes. -/
def rotated (e4 : FVec Ideal S262144x5x64x2 .f32) (rot : FVec Ideal S5x64x2 .f32) : FVec Ideal S262144x5x128 .f32 :=
  shapeCast S262144x5x128
    (concatenate S262144x5x64x2 3
      [⟨S262144x5x64x1, broadcastInDim S262144x5x64x1 ![0, 1, 2] bcast_S262144x5x64_S262144x5x64x1_0_1_2 (prodRe e4 rot)⟩,
       ⟨S262144x5x64x1, broadcastInDim S262144x5x64x1 ![0, 1, 2] bcast_S262144x5x64_S262144x5x64x1_0_1_2 (prodIm e4 rot)⟩]
      concatenates_S262144x5x64x1_S262144x5x64x1_S262144x5x64x2_d3)
    shapeCasts_S262144x5x64x2_S262144x5x128

/-- The last part over the paired view: the sum over the five steps from zero, divided by five. -/
def tail' (e4 : FVec Ideal S262144x5x64x2 .f32) (rot : FVec Ideal S5x64x2 .f32) : FVec Ideal S262144x128 .f32 :=
  Host.divf (F := Ideal)
    (Host.reduceAdd (F := Ideal) (rotated e4 rot) (constant (F := Ideal) S_ .f32 0x00000000#32)
      reducesTo_S262144x5x128_S262144x128_d1 h_S_)
    (broadcastInDim S262144x128 ![] bcast_S_S262144x128 (constant (F := Ideal) S_ .f32 0x40A00000#32))

/-- The last part over the edge data: the paired view first. -/
def tail (e : FVec Ideal S262144x5x128 .f32) (rot : FVec Ideal S5x64x2 .f32) : FVec Ideal S262144x128 .f32 :=
  tail' (shapeCast S262144x5x64x2 e shapeCasts_S262144x5x128_S262144x5x64x2) rot

/-! ## Each layout operation read at an index -/

/-- The unit last axis dropped: `[262144, 5, 64, 1] → [262144, 5, 64]` at `(n, l, k)` is the operand at `(n, l, k, 0)`. -/
theorem dropUnit_apply (x : FVec Ideal S262144x5x64x1 .f32) (n : Fin 262144) (l : Fin 5) (k : Fin 64) :
    shapeCast S262144x5x64 x shapeCasts_S262144x5x64x1_S262144x5x64 (ix3 n l k) = x (ix4 n l k (0 : Fin 1)) :=
  shapeCast_apply x _ (ix3 n l k) (ix4 n l k (0 : Fin 1)) (by
    rw [Shape.rowMajor_val_four, Shape.rowMajor_val_three]
    show ((n.val * 5 + l.val) * 64 + k.val) * 1 + 0 = (n.val * 5 + l.val) * 64 + k.val
    omega)

/-- The real parts at `(n, l, k)`: the paired view at `(n, l, k, 0)`. -/
theorem edgeRe_apply (e4 : FVec Ideal S262144x5x64x2 .f32) (n : Fin 262144) (l : Fin 5) (k : Fin 64) :
    edgeRe e4 (ix3 n l k) = e4 (ix4 n l k (0 : Fin 2)) := by
  unfold edgeRe
  rw [dropUnit_apply]
  exact extractStridedSlice_apply _ _ _ _ (ix4 n l k (0 : Fin 2)) fun a => match a with
    | ⟨0, _⟩ => by show n.val = 0 + n.val; omega
    | ⟨1, _⟩ => by show l.val = 0 + l.val; omega
    | ⟨2, _⟩ => by show k.val = 0 + k.val; omega
    | ⟨3, _⟩ => by show 0 = 0 + 0; omega

/-- The imaginary parts at `(n, l, k)`: the paired view at `(n, l, k, 1)`. -/
theorem edgeIm_apply (e4 : FVec Ideal S262144x5x64x2 .f32) (n : Fin 262144) (l : Fin 5) (k : Fin 64) :
    edgeIm e4 (ix3 n l k) = e4 (ix4 n l k (1 : Fin 2)) := by
  unfold edgeIm
  rw [dropUnit_apply]
  exact extractStridedSlice_apply _ _ _ _ (ix4 n l k (1 : Fin 2)) fun a => match a with
    | ⟨0, _⟩ => by show n.val = 0 + n.val; omega
    | ⟨1, _⟩ => by show l.val = 0 + l.val; omega
    | ⟨2, _⟩ => by show k.val = 0 + k.val; omega
    | ⟨3, _⟩ => by show 1 = 1 + 0; omega

/-- A `[5, 64]` table repeated along the rows, read at `(n, l, k)`: the table at `(l, k)`. -/
theorem rowsBroadcast_apply (x : FVec Ideal S5x64 .f32) (n : Fin 262144) (l : Fin 5) (k : Fin 64) :
    broadcastInDim S262144x5x64 ![0, 1, 2] bcast_S1x5x64_S262144x5x64_0_1_2
      (broadcastInDim S1x5x64 ![1, 2] bcast_S5x64_S1x5x64_1_2 x) (ix3 n l k) = x (ix2 l k) := by
  refine (broadcastInDim_apply _ _ _ (ix3 n l k) (ix3 (0 : Fin 1) l k) fun a => match a with
    | ⟨0, _⟩ => rfl | ⟨1, _⟩ => rfl | ⟨2, _⟩ => rfl).trans ?_
  exact broadcastInDim_apply _ _ _ (ix3 (0 : Fin 1) l k) (ix2 l k) fun a => match a with
    | ⟨0, _⟩ => rfl | ⟨1, _⟩ => rfl

/-- The unit last axis dropped: `[5, 64, 1] → [5, 64]` at `(l, k)` is the operand at `(l, k, 0)`. -/
theorem dropUnitRot_apply (x : FVec Ideal S5x64x1 .f32) (l : Fin 5) (k : Fin 64) :
    shapeCast S5x64 x shapeCasts_S5x64x1_S5x64 (ix2 l k) = x (ix3 l k (0 : Fin 1)) :=
  shapeCast_apply x _ (ix2 l k) (ix3 l k (0 : Fin 1)) (by
    rw [Shape.rowMajor_val_three, Shape.rowMajor_val_two]
    show (l.val * 64 + k.val) * 1 + 0 = l.val * 64 + k.val
    omega)

/-- The rotations' real parts at `(n, l, k)`: `rot` at `(l, k, 0)`. -/
theorem rotRe_apply (rot : FVec Ideal S5x64x2 .f32) (n : Fin 262144) (l : Fin 5) (k : Fin 64) :
    rotRe rot (ix3 n l k) = rot (ix3 l k (0 : Fin 2)) := by
  unfold rotRe
  rw [rowsBroadcast_apply, dropUnitRot_apply]
  exact extractStridedSlice_apply _ _ _ _ (ix3 l k (0 : Fin 2)) fun a => match a with
    | ⟨0, _⟩ => by show l.val = 0 + l.val; omega
    | ⟨1, _⟩ => by show k.val = 0 + k.val; omega
    | ⟨2, _⟩ => by show 0 = 0 + 0; omega

/-- The rotations' imaginary parts at `(n, l, k)`: `rot` at `(l, k, 1)`. -/
theorem rotIm_apply (rot : FVec Ideal S5x64x2 .f32) (n : Fin 262144) (l : Fin 5) (k : Fin 64) :
    rotIm rot (ix3 n l k) = rot (ix3 l k (1 : Fin 2)) := by
  unfold rotIm
  rw [rowsBroadcast_apply, dropUnitRot_apply]
  exact extractStridedSlice_apply _ _ _ _ (ix3 l k (1 : Fin 2)) fun a => match a with
    | ⟨0, _⟩ => by show l.val = 0 + l.val; omega
    | ⟨1, _⟩ => by show k.val = 0 + k.val; omega
    | ⟨2, _⟩ => by show 1 = 1 + 0; omega

/-- A unit last axis added: `[262144, 5, 64] → [262144, 5, 64, 1]` at `(n, l, k, u)` is the operand at `(n, l, k)`. -/
theorem addUnit_apply (x : FVec Ideal S262144x5x64 .f32) (n : Fin 262144) (l : Fin 5) (k : Fin 64) (u : Fin 1) :
    broadcastInDim S262144x5x64x1 ![0, 1, 2] bcast_S262144x5x64_S262144x5x64x1_0_1_2 x (ix4 n l k u) = x (ix3 n l k) :=
  broadcastInDim_apply _ _ _ (ix4 n l k u) (ix3 n l k) fun a => match a with
    | ⟨0, _⟩ => rfl | ⟨1, _⟩ => rfl | ⟨2, _⟩ => rfl

/-- Two `[262144, 5, 64, 1]` arrays side by side along the last axis, read at `(n, l, k, p)`: the first at `(n, l, k, 0)` where
    `p = 0`, the second where `p = 1`. -/
theorem sideBySide_apply (x₁ x₂ : FVec Ideal S262144x5x64x1 .f32) (n : Fin 262144) (l : Fin 5) (k : Fin 64) (p : Fin 2) :
    concatenate S262144x5x64x2 3 [⟨S262144x5x64x1, x₁⟩, ⟨S262144x5x64x1, x₂⟩]
        concatenates_S262144x5x64x1_S262144x5x64x1_S262144x5x64x2_d3 (ix4 n l k p)
      = if p.val = 0 then x₁ (ix4 n l k (0 : Fin 1)) else x₂ (ix4 n l k (0 : Fin 1)) := by
  by_cases hp : p.val = 0
  · rw [if_pos hp]
    exact concatenate_pair_apply_left (3 : Fin 4) x₁ x₂ _ (ix4 n l k p) rfl (ix4 n l k (0 : Fin 1)) fun b => match b with
      | ⟨0, _⟩ => rfl | ⟨1, _⟩ => rfl | ⟨2, _⟩ => rfl
      | ⟨3, _⟩ => by show 0 = p.val; omega
  · rw [if_neg hp]
    exact concatenate_pair_apply_right (3 : Fin 4) x₁ x₂ _ (ix4 n l k p) rfl rfl (ix4 n l k (0 : Fin 1))
      (fun b => match b with
        | ⟨0, _⟩ => fun _ => rfl | ⟨1, _⟩ => fun _ => rfl | ⟨2, _⟩ => fun _ => rfl
        | ⟨3, _⟩ => fun h => absurd rfl h)
      (by show 0 + 1 = p.val; have := p.isLt; omega)

/-- The pairs flattened: `[262144, 5, 64, 2] → [262144, 5, 128]` at `(n, l, q)` is the operand at `(n, l, q / 2, q % 2)`. -/
theorem flatten_apply (x : FVec Ideal S262144x5x64x2 .f32) (n : Fin 262144) (l : Fin 5) (q : Fin 128) :
    shapeCast S262144x5x128 x shapeCasts_S262144x5x64x2_S262144x5x128 (ix3 n l q)
      = x (ix4 n l (Cert.RotMean.pairOf q) (⟨q.val % 2, Nat.mod_lt _ (by decide)⟩ : Fin 2)) :=
  shapeCast_apply x _ (ix3 n l q) _ (by
    rw [Shape.rowMajor_val_four, Shape.rowMajor_val_three]
    show ((n.val * 5 + l.val) * 64 + q.val / 2) * 2 + q.val % 2 = (n.val * 5 + l.val) * 128 + q.val
    omega)

/-- The lane of entry `p` of pair `k`. -/
def lane (k : Fin 64) (p : Fin 2) : Fin 128 := ⟨2 * k.val + p.val, by have := k.isLt; have := p.isLt; omega⟩

/-- The paired view: `[262144, 5, 128] → [262144, 5, 64, 2]` at `(n, l, k, p)` is the operand at `(n, l, 2 k + p)`. -/
theorem paired_apply (e : FVec Ideal S262144x5x128 .f32) (n : Fin 262144) (l : Fin 5) (k : Fin 64) (p : Fin 2) :
    shapeCast S262144x5x64x2 e shapeCasts_S262144x5x128_S262144x5x64x2 (ix4 n l k p) = e (ix3 n l (lane k p)) :=
  shapeCast_apply e _ (ix4 n l k p) (ix3 n l (lane k p)) (by
    rw [Shape.rowMajor_val_four, Shape.rowMajor_val_three]
    show (n.val * 5 + l.val) * 128 + (2 * k.val + p.val) = ((n.val * 5 + l.val) * 64 + k.val) * 2 + p.val
    omega)

/-- The sum over the steps from an initial value, read at `(n, q)`. -/
theorem stepSum_apply (x : FVec Ideal S262144x5x128 .f32) (init : FVec Ideal S_ .f32) (n : Fin 262144) (q : Fin 128) :
    Host.reduceAdd (F := Ideal) x init reducesTo_S262144x5x128_S262144x128_d1 h_S_ (ix2 n q)
      = init ix0 + ∑ l : Fin 5, x (ix3 n l q) := by
  have h : S262144x5x128.Reduces [1] S262144x128 := by decide
  show Ideal.hostReduceAdd reducesTo_S262144x5x128_S262144x128_d1 x (init (Shape.Idx.first h_S_)) (ix2 n q) = _
  rw [Ideal.hostReduceAdd_single _ h, eq_ix0 (Shape.Idx.first h_S_)]
  refine congrArg (init ix0 + ·) (Finset.sum_congr rfl fun l _ => congrArg x ?_)
  funext a
  match a with
  | ⟨0, _⟩ => rfl
  | ⟨1, _⟩ => rfl
  | ⟨2, _⟩ => rfl

/-- The divisor's pattern denotes the real `5`. -/
theorem ofBits_five : Ideal.ofBits .f32 0x40A00000#32 = ((5 : ℝ) : EReal) := by
  simp [Ideal.ofBits, Ideal.ieee, -EReal.coe_mul]; norm_num

/-! ## The lanes' arithmetic -/

/-- On an even lane, the pair's first entry is the lane itself. -/
theorem lane_zero_of_even (q : Fin 128) (hq : q.val % 2 = 0) : lane (Cert.RotMean.pairOf q) 0 = q :=
  Fin.ext (by show 2 * (q.val / 2) + 0 = q.val; omega)

/-- On an even lane, the pair's second entry is the lane's mate. -/
theorem lane_one_of_even (q : Fin 128) (hq : q.val % 2 = 0) : lane (Cert.RotMean.pairOf q) 1 = Cert.RotMean.mate q := by
  unfold Cert.RotMean.mate
  rw [dif_pos hq]
  exact Fin.ext (by show 2 * (q.val / 2) + 1 = q.val + 1; omega)

/-- On an odd lane, the pair's first entry is the lane's mate. -/
theorem lane_zero_of_odd (q : Fin 128) (hq : ¬ q.val % 2 = 0) : lane (Cert.RotMean.pairOf q) 0 = Cert.RotMean.mate q := by
  unfold Cert.RotMean.mate
  rw [dif_neg hq]
  exact Fin.ext (by show 2 * (q.val / 2) + 0 = q.val - 1; omega)

/-- On an odd lane, the pair's second entry is the lane itself. -/
theorem lane_one_of_odd (q : Fin 128) (hq : ¬ q.val % 2 = 0) : lane (Cert.RotMean.pairOf q) 1 = q :=
  Fin.ext (by show 2 * (q.val / 2) + 1 = q.val; omega)

/-! ## The value -/

/-- The products laid out lane by lane, read at `(n, l, q)` over the paired view of `e`: one step's complex product at the lane. -/
theorem rotated_apply (e : FVec Ideal S262144x5x128 .f32) (rot : FVec Ideal S5x64x2 .f32) (n : Fin 262144) (l : Fin 5)
    (q : Fin 128) :
    rotated (shapeCast S262144x5x64x2 e shapeCasts_S262144x5x128_S262144x5x64x2) rot (ix3 n l q)
      = Cert.RotMean.rotatedAt e rot n l q := by
  unfold rotated Cert.RotMean.rotatedAt
  rw [flatten_apply, sideBySide_apply, addUnit_apply, addUnit_apply]
  by_cases hq : q.val % 2 = 0
  · rw [if_pos hq, if_pos hq]
    unfold prodRe
    rw [subf_apply, mulf_apply, mulf_apply, edgeRe_apply, edgeIm_apply, rotRe_apply, rotIm_apply, paired_apply, paired_apply,
      lane_zero_of_even q hq, lane_one_of_even q hq]
  · rw [if_neg hq, if_neg hq]
    unfold prodIm
    rw [addf_apply, mulf_apply, mulf_apply, edgeRe_apply, edgeIm_apply, rotRe_apply, rotIm_apply, paired_apply, paired_apply,
      lane_zero_of_odd q hq, lane_one_of_odd q hq]

/-- THE REFERENCE'S LAST PART AT `(n, q)`: zero plus the sum over the five steps of the complex products at the lane, divided
    by five. -/
theorem tail_apply (e : FVec Ideal S262144x5x128 .f32) (rot : FVec Ideal S5x64x2 .f32) (n : Fin 262144) (q : Fin 128) :
    tail e rot (ix2 n q) = Cert.RotMean.pairAt e rot n q := by
  unfold tail tail' Cert.RotMean.pairAt
  show Ideal.div _ _ = _
  rw [stepSum_apply]
  have hd : broadcastInDim S262144x128 ![] bcast_S_S262144x128 (constant (F := Ideal) S_ .f32 0x40A00000#32) (ix2 n q)
      = ((5 : ℝ) : EReal) := by
    refine (broadcastInDim_apply _ _ _ (ix2 n q) ix0 fun a => a.elim0).trans ?_
    rw [constant_apply, ofBits_five]
  rw [hd, constant_apply, Ideal.ofBits_zero_f32]
  exact congrArg (fun s => Ideal.div (0 + s) ((5 : ℝ) : EReal)) (Finset.sum_congr rfl fun l _ => rotated_apply e rot n l q)

end Cert.ReferenceIdeal.RefVal

end
-- ==== Proof.RValue.lean ====
/-
  The reference's result at the ideal values, entry by entry. The reference's operations first compute the rotations
  `rot : [5, 64, 2]`, then combine them with the edge data. The line is cut after the operation that writes the rotations: the
  operations before it are never composed; the 39 after it compose to `tail'` over the paired view of the edge data and the
  rotations as they stand at the cut; the paired view there is the edge data reshaped (its operation is the line's second, and
  nothing later writes it), and the rotations there are the line's final ones (none of the 39 writes them). So the result at
  (row `n`, lane `q`) is the pair form `Cert.RotMean.pairAt` of the edge data and the computed rotations.
-/
import proofs.«423924_j10677288698548_4_alg».proof.Proof.ROps
import proofs.«423924_j10677288698548_4_alg».proof.Proof.RTail
import Idealize.ShloMosaic.Lib.Pipeline.Frame

noncomputable section

namespace Cert.ReferenceIdeal.RefVal

open Idealize.ShloMosaic Idealize.ShloMosaic.ValueIdx Idealize.ShloMosaic.StableHlo Idealize.SL.Sem
open Cert.ReferenceIdeal Cert.ReferenceIdeal.Facts₀

/-- The contents once every operation up to the one writing the rotations has run. -/
def before (M : Valuation τ sig (Elt Ideal)) : Valuation τ sig (Elt Ideal) :=
  after (Rn.ops_part2.take 16) (after Rn.ops_part1 (after Rn.ops_part0 M))

/-- The whole line is its last 39 operations run from there. -/
theorem ops_cut (M : Valuation τ sig (Elt Ideal)) : after Rn.ops M = after (Rn.ops_part2.drop 16) (before M) := by
  unfold before
  rw [← after_append, ← after_append, ← after_append, List.take_append_drop]

set_option maxRecDepth 8192 in
set_option maxHeartbeats 4000000 in
/-- The last 39 operations compose to the last part over the paired view and the rotations they start from. -/
theorem last_value (W : Valuation τ sig (Elt Ideal)) :
    after (Rn.ops_part2.drop 16) W (Proc.devRef .tc main_v168)
      = tail' (W (Proc.devRef .tc main_v0)) (W (Proc.devRef .tc main_v131)) := by
  simp only [List.drop_succ_cons, List.drop_zero]
  after_results_simp
  rfl

/-- Each operation writes its one result buffer, and that is not the reference: the references differ, by computation. -/
local macro "differs_from_each_result" : tactic =>
  `(tactic| (simp only [List.Forall, nullary_writes, unary_writes, binary_writes, reshape_writes, nary_writes, Finset.mem_singleton]
             repeat' apply And.intro
             all_goals exact devRef_ne_of_ne (by decide)))

set_option maxRecDepth 8192 in
/-- None of the last 39 operations writes the rotations. -/
theorem last_keeps_rot : (Rn.ops_part2.drop 16 : List (HloOp τ sig (Elt Ideal))).Forall fun op =>
    (Proc.devRef .tc main_v131 : DevRef τ sig) ∉ op.writes := by
  simp only [List.drop_succ_cons, List.drop_zero]
  differs_from_each_result

set_option maxRecDepth 8192 in
/-- After its first two operations, the first window does not write the paired view. -/
theorem part0_rest_keeps_paired : (Rn.ops_part0.drop 2 : List (HloOp τ sig (Elt Ideal))).Forall fun op =>
    (Proc.devRef .tc main_v0 : DevRef τ sig) ∉ op.writes := by
  simp only [List.drop_succ_cons, List.drop_zero]
  differs_from_each_result

set_option maxRecDepth 8192 in
/-- The second window does not write the paired view. -/
theorem part1_keeps_paired : (Rn.ops_part1 : List (HloOp τ sig (Elt Ideal))).Forall fun op =>
    (Proc.devRef .tc main_v0 : DevRef τ sig) ∉ op.writes := by
  differs_from_each_result

set_option maxRecDepth 8192 in
/-- The third window does not write the paired view. -/
theorem part2_keeps_paired : (Rn.ops_part2 : List (HloOp τ sig (Elt Ideal))).Forall fun op =>
    (Proc.devRef .tc main_v0 : DevRef τ sig) ∉ op.writes := by
  differs_from_each_result

set_option maxRecDepth 8192 in
/-- Where the last 39 operations start, the paired view is the edge data reshaped: the second operation writes it so from the
    argument, which the first does not write, and no later operation writes it again. -/
theorem before_paired (M : Valuation τ sig (Elt Ideal)) :
    before M (Proc.devRef .tc main_v0)
      = shapeCast S262144x5x64x2 (M (Proc.devRef .tc main_arg0)) shapeCasts_S262144x5x128_S262144x5x64x2 := by
  unfold before
  rw [after_of_forall_not_mem _ _ (fun op h => List.forall_iff_forall_mem.mp part2_keeps_paired op (List.mem_of_mem_take h)),
    after_of_forall_not_mem _ _ (List.forall_iff_forall_mem.mp part1_keeps_paired)]
  have h0 : after Rn.ops_part0 M = after (Rn.ops_part0.drop 2) (after (Rn.ops_part0.take 2) M) := by
    rw [← after_append, List.take_append_drop]
  rw [h0, after_of_forall_not_mem _ _ (List.forall_iff_forall_mem.mp part0_rest_keeps_paired)]
  simp only [List.take_succ_cons, List.take_zero]
  after_results
  rfl

/-- THE REFERENCE'S RESULT AT `(n, q)`: the pair form of the edge data and of the rotations the program computes. -/
theorem out_eq (M : Valuation τ sig (Elt Ideal)) (n : Fin 262144) (q : Fin 128) :
    after Rn.ops M (Proc.devRef .tc main_v168) (ix2 n q)
      = Cert.RotMean.pairAt (M (Proc.devRef .tc main_arg0)) (after Rn.ops M (Proc.devRef .tc main_v131)) n q := by
  rw [ops_cut, last_value, after_of_forall_not_mem _ _ (List.forall_iff_forall_mem.mp last_keeps_rot), before_paired]
  exact tail_apply _ _ n q

end Cert.ReferenceIdeal.RefVal

end
-- ==== Proof.RotPieces.lean ====
/- GENERATED by scratch/gen_pieces.py: python3 scratch/gen_pieces.py proof/Proof/Gen/KernelIdeal/Launch.lean proof/Proof/ROps.lean proof/Proof/RotPieces.lean (run from the unit directory). Lists the kernel program's 150 host operations before its region and the reference program's 179,
   in order and verbatim, each as eight consecutive stages (the same eight for both: the prologue up to the stacked
   rotation vectors, the unit start, the four levels of the running complex product, the table's assembly, the rest);
   and states that each program's list is the concatenation of its eight. -/
import proofs.«423924_j10677288698548_4_alg».proof.Proof.KBase
import proofs.«423924_j10677288698548_4_alg».proof.Proof.ROps

noncomputable section

namespace Cert.Bridge

/-! ## The kernel program's stages -/

section K

open Cert.KernelIdeal Cert.KernelIdeal.Gen Idealize.ShloMosaic Idealize.ShloMosaic.TcCoe Idealize.SL.Sem

variable {F : FTy → Type} [FloatOps F] [Named F]

/-- The operations at positions 0 … 17 of 150; the last writes main_v11. -/
abbrev kP0 : List (HloOp τ sig (Elt F)) :=
  [ StableHlo.nullary main_cst (fun i => FloatOps.ofBits .f32 (lit0 (S2.rowMajor i))),
    StableHlo.TRef.binary (.of main_arg1 : StableHlo.TRef sig ⟨S4x64x2, .f32⟩) (.of main_arg1 : StableHlo.TRef sig ⟨S4x64x2, .f32⟩) (.of main_call0_v0 : StableHlo.TRef sig ⟨S4x64x2, .f32⟩) mulf,
    StableHlo.TRef.nullary (.of main_call0_cst : StableHlo.TRef sig ⟨S_, .f32⟩) (constant S_ .f32 0x00000000#32),
    StableHlo.TRef.binary (.of main_call0_v0 : StableHlo.TRef sig ⟨S4x64x2, .f32⟩) (.of main_call0_cst : StableHlo.TRef sig ⟨S_, .f32⟩) (.of main_call0_v1 : StableHlo.TRef sig ⟨S4x64, .f32⟩) (fun x v => Host.reduceAdd x v reducesTo_S4x64x2_S4x64_d2 h_S_),
    StableHlo.TRef.unary (.of main_call0_v1 : StableHlo.TRef sig ⟨S4x64, .f32⟩) (.of main_call0_v2 : StableHlo.TRef sig ⟨S4x64x1, .f32⟩) (broadcastInDim S4x64x1 ![0, 1] bcast_S4x64_S4x64x1_0_1),
    StableHlo.TRef.unary (.of main_call0_v2 : StableHlo.TRef sig ⟨S4x64x1, .f32⟩) (.of main_v0 : StableHlo.TRef sig ⟨S4x64x1, .f32⟩) Host.sqrt,
    StableHlo.nullary main_cst_0 (constant S_ .f32 0x2B8CBCCC#32),
    StableHlo.unary main_cst_0 main_v1 (broadcastInDim S4x64x1 ![] bcast_S_S4x64x1 : (⟨S_, .f32⟩ : BufTy).Contents (Elt F) → (⟨S4x64x1, .f32⟩ : BufTy).Contents (Elt F)),
    StableHlo.binary main_v0 main_v1 main_v2 (maximumf : (⟨S4x64x1, .f32⟩ : BufTy).Contents (Elt F) → (⟨S4x64x1, .f32⟩ : BufTy).Contents (Elt F) → (⟨S4x64x1, .f32⟩ : BufTy).Contents (Elt F)),
    StableHlo.unary main_v2 main_v3 (broadcastInDim S4x64x2 ![0, 1, 2] bcast_S4x64x1_S4x64x2_0_1_2 : (⟨S4x64x1, .f32⟩ : BufTy).Contents (Elt F) → (⟨S4x64x2, .f32⟩ : BufTy).Contents (Elt F)),
    StableHlo.binary main_arg1 main_v3 main_v4 (Host.divf : (⟨S4x64x2, .f32⟩ : BufTy).Contents (Elt F) → (⟨S4x64x2, .f32⟩ : BufTy).Contents (Elt F) → (⟨S4x64x2, .f32⟩ : BufTy).Contents (Elt F)),
    StableHlo.unary main_cst main_v5 (broadcastInDim S1x1x2 ![2] bcast_S2_S1x1x2_2 : (⟨S2, .f32⟩ : BufTy).Contents (Elt F) → (⟨S1x1x2, .f32⟩ : BufTy).Contents (Elt F)),
    StableHlo.unary main_v5 main_v6 (broadcastInDim S4x64x2 ![0, 1, 2] bcast_S1x1x2_S4x64x2_0_1_2 : (⟨S1x1x2, .f32⟩ : BufTy).Contents (Elt F) → (⟨S4x64x2, .f32⟩ : BufTy).Contents (Elt F)),
    StableHlo.binary main_v4 main_v6 main_v7 (mulf : (⟨S4x64x2, .f32⟩ : BufTy).Contents (Elt F) → (⟨S4x64x2, .f32⟩ : BufTy).Contents (Elt F) → (⟨S4x64x2, .f32⟩ : BufTy).Contents (Elt F)),
    StableHlo.unary main_v4 main_v8 (broadcastInDim S4x1x64x2 ![0, 2, 3] bcast_S4x64x2_S4x1x64x2_0_2_3 : (⟨S4x64x2, .f32⟩ : BufTy).Contents (Elt F) → (⟨S4x1x64x2, .f32⟩ : BufTy).Contents (Elt F)),
    StableHlo.unary main_v7 main_v9 (broadcastInDim S4x1x64x2 ![0, 2, 3] bcast_S4x64x2_S4x1x64x2_0_2_3 : (⟨S4x64x2, .f32⟩ : BufTy).Contents (Elt F) → (⟨S4x1x64x2, .f32⟩ : BufTy).Contents (Elt F)),
    StableHlo.binary main_v8 main_v9 main_v10 ((fun a b => concatenate S4x2x64x2 1 [⟨S4x1x64x2, a⟩, ⟨S4x1x64x2, b⟩] concatenates_S4x1x64x2_S4x1x64x2_S4x2x64x2_d1) : (⟨S4x1x64x2, .f32⟩ : BufTy).Contents (Elt F) → (⟨S4x1x64x2, .f32⟩ : BufTy).Contents (Elt F) → (⟨S4x2x64x2, .f32⟩ : BufTy).Contents (Elt F)),
    StableHlo.reshape main_v10 main_v11 rfl shapeCasts_S4x2x64x2_S8x64x2 ]

/-- The operations at positions 18 … 24 of 150; the last writes main_v16. -/
abbrev kP1 : List (HloOp τ sig (Elt F)) :=
  [ StableHlo.nullary main_cst_1 (constant S_ .f32 0x3F800000#32),
    StableHlo.unary main_cst_1 main_v12 (broadcastInDim S64 ![] bcast_S_S64 : (⟨S_, .f32⟩ : BufTy).Contents (Elt F) → (⟨S64, .f32⟩ : BufTy).Contents (Elt F)),
    StableHlo.nullary main_cst_2 (constant S_ .f32 0x00000000#32),
    StableHlo.unary main_cst_2 main_v13 (broadcastInDim S64 ![] bcast_S_S64 : (⟨S_, .f32⟩ : BufTy).Contents (Elt F) → (⟨S64, .f32⟩ : BufTy).Contents (Elt F)),
    StableHlo.unary main_v12 main_v14 (broadcastInDim S64x1 ![0] bcast_S64_S64x1_0 : (⟨S64, .f32⟩ : BufTy).Contents (Elt F) → (⟨S64x1, .f32⟩ : BufTy).Contents (Elt F)),
    StableHlo.unary main_v13 main_v15 (broadcastInDim S64x1 ![0] bcast_S64_S64x1_0 : (⟨S64, .f32⟩ : BufTy).Contents (Elt F) → (⟨S64x1, .f32⟩ : BufTy).Contents (Elt F)),
    StableHlo.binary main_v14 main_v15 main_v16 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 25 … 51 of 150; the last writes main_v43. -/
abbrev kL1 : List (HloOp τ sig (Elt F)) :=
  [ StableHlo.unary main_v11 main_v17 ((extractStridedSlice S1x64x2 ![7, 0, 0] · slices_S8x64x2_S1x64x2_7_0_0) : (⟨S8x64x2, .f32⟩ : BufTy).Contents (Elt F) → (⟨S1x64x2, .f32⟩ : BufTy).Contents (Elt F)),
    StableHlo.reshape main_v17 main_v18 rfl shapeCasts_S1x64x2_S64x2,
    StableHlo.unary main_v16 main_v19 ((extractStridedSlice S64x1 ![0, 0] · slices_S64x2_S64x1_0_0) : (⟨S64x2, .f32⟩ : BufTy).Contents (Elt F) → (⟨S64x1, .f32⟩ : BufTy).Contents (Elt F)),
    StableHlo.reshape main_v19 main_v20 rfl shapeCasts_S64x1_S64,
    StableHlo.unary main_v18 main_v21 ((extractStridedSlice S64x1 ![0, 0] · slices_S64x2_S64x1_0_0) : (⟨S64x2, .f32⟩ : BufTy).Contents (Elt F) → (⟨S64x1, .f32⟩ : BufTy).Contents (Elt F)),
    StableHlo.reshape main_v21 main_v22 rfl shapeCasts_S64x1_S64,
    StableHlo.binary main_v20 main_v22 main_v23 (mulf : (⟨S64, .f32⟩ : BufTy).Contents (Elt F) → (⟨S64, .f32⟩ : BufTy).Contents (Elt F) → (⟨S64, .f32⟩ : BufTy).Contents (Elt F)),
    StableHlo.unary main_v16 main_v24 ((extractStridedSlice S64x1 ![0, 1] · slices_S64x2_S64x1_0_1) : (⟨S64x2, .f32⟩ : BufTy).Contents (Elt F) → (⟨S64x1, .f32⟩ : BufTy).Contents (Elt F)),
    StableHlo.reshape main_v24 main_v25 rfl shapeCasts_S64x1_S64,
    StableHlo.unary main_v18 main_v26 ((extractStridedSlice S64x1 ![0, 1] · slices_S64x2_S64x1_0_1) : (⟨S64x2, .f32⟩ : BufTy).Contents (Elt F) → (⟨S64x1, .f32⟩ : BufTy).Contents (Elt F)),
    StableHlo.reshape main_v26 main_v27 rfl shapeCasts_S64x1_S64,
    StableHlo.binary main_v25 main_v27 main_v28 (mulf : (⟨S64, .f32⟩ : BufTy).Contents (Elt F) → (⟨S64, .f32⟩ : BufTy).Contents (Elt F) → (⟨S64, .f32⟩ : BufTy).Contents (Elt F)),
    StableHlo.binary main_v23 main_v28 main_v29 (subf : (⟨S64, .f32⟩ : BufTy).Contents (Elt F) → (⟨S64, .f32⟩ : BufTy).Contents (Elt F) → (⟨S64, .f32⟩ : BufTy).Contents (Elt F)),
    StableHlo.unary main_v16 main_v30 ((extractStridedSlice S64x1 ![0, 0] · slices_S64x2_S64x1_0_0) : (⟨S64x2, .f32⟩ : BufTy).Contents (Elt F) → (⟨S64x1, .f32⟩ : BufTy).Contents (Elt F)),
    StableHlo.reshape main_v30 main_v31 rfl shapeCasts_S64x1_S64,
    StableHlo.unary main_v18 main_v32 ((extractStridedSlice S64x1 ![0, 1] · slices_S64x2_S64x1_0_1) : (⟨S64x2, .f32⟩ : BufTy).Contents (Elt F) → (⟨S64x1, .f32⟩ : BufTy).Contents (Elt F)),
    StableHlo.reshape main_v32 main_v33 rfl shapeCasts_S64x1_S64,
    StableHlo.binary main_v31 main_v33 main_v34 (mulf : (⟨S64, .f32⟩ : BufTy).Contents (Elt F) → (⟨S64, .f32⟩ : BufTy).Contents (Elt F) → (⟨S64, .f32⟩ : BufTy).Contents (Elt F)),
    StableHlo.unary main_v16 main_v35 ((extractStridedSlice S64x1 ![0, 1] · slices_S64x2_S64x1_0_1) : (⟨S64x2, .f32⟩ : BufTy).Contents (Elt F) → (⟨S64x1, .f32⟩ : BufTy).Contents (Elt F)),
    StableHlo.reshape main_v35 main_v36 rfl shapeCasts_S64x1_S64,
    StableHlo.unary main_v18 main_v37 ((extractStridedSlice S64x1 ![0, 0] · slices_S64x2_S64x1_0_0) : (⟨S64x2, .f32⟩ : BufTy).Contents (Elt F) → (⟨S64x1, .f32⟩ : BufTy).Contents (Elt F)),
    StableHlo.reshape main_v37 main_v38 rfl shapeCasts_S64x1_S64,
    StableHlo.binary main_v36 main_v38 main_v39 (mulf : (⟨S64, .f32⟩ : BufTy).Contents (Elt F) → (⟨S64, .f32⟩ : BufTy).Contents (Elt F) → (⟨S64, .f32⟩ : BufTy).Contents (Elt F)),
    StableHlo.binary main_v34 main_v39 main_v40 (addf : (⟨S64, .f32⟩ : BufTy).Contents (Elt F) → (⟨S64, .f32⟩ : BufTy).Contents (Elt F) → (⟨S64, .f32⟩ : BufTy).Contents (Elt F)),
    StableHlo.unary main_v29 main_v41 (broadcastInDim S64x1 ![0] bcast_S64_S64x1_0 : (⟨S64, .f32⟩ : BufTy).Contents (Elt F) → (⟨S64x1, .f32⟩ : BufTy).Contents (Elt F)),
    StableHlo.unary main_v40 main_v42 (broadcastInDim S64x1 ![0] bcast_S64_S64x1_0 : (⟨S64, .f32⟩ : BufTy).Contents (Elt F) → (⟨S64x1, .f32⟩ : BufTy).Contents (Elt F)),
    StableHlo.binary main_v41 main_v42 main_v43 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 52 … 78 of 150; the last writes main_v70. -/
abbrev kL2 : List (HloOp τ sig (Elt F)) :=
  [ StableHlo.unary main_v11 main_v44 ((extractStridedSlice S1x64x2 ![5, 0, 0] · slices_S8x64x2_S1x64x2_5_0_0) : (⟨S8x64x2, .f32⟩ : BufTy).Contents (Elt F) → (⟨S1x64x2, .f32⟩ : BufTy).Contents (Elt F)),
    StableHlo.reshape main_v44 main_v45 rfl shapeCasts_S1x64x2_S64x2,
    StableHlo.unary main_v43 main_v46 ((extractStridedSlice S64x1 ![0, 0] · slices_S64x2_S64x1_0_0) : (⟨S64x2, .f32⟩ : BufTy).Contents (Elt F) → (⟨S64x1, .f32⟩ : BufTy).Contents (Elt F)),
    StableHlo.reshape main_v46 main_v47 rfl shapeCasts_S64x1_S64,
    StableHlo.unary main_v45 main_v48 ((extractStridedSlice S64x1 ![0, 0] · slices_S64x2_S64x1_0_0) : (⟨S64x2, .f32⟩ : BufTy).Contents (Elt F) → (⟨S64x1, .f32⟩ : BufTy).Contents (Elt F)),
    StableHlo.reshape main_v48 main_v49 rfl shapeCasts_S64x1_S64,
    StableHlo.binary main_v47 main_v49 main_v50 (mulf : (⟨S64, .f32⟩ : BufTy).Contents (Elt F) → (⟨S64, .f32⟩ : BufTy).Contents (Elt F) → (⟨S64, .f32⟩ : BufTy).Contents (Elt F)),
    StableHlo.unary main_v43 main_v51 ((extractStridedSlice S64x1 ![0, 1] · slices_S64x2_S64x1_0_1) : (⟨S64x2, .f32⟩ : BufTy).Contents (Elt F) → (⟨S64x1, .f32⟩ : BufTy).Contents (Elt F)),
    StableHlo.reshape main_v51 main_v52 rfl shapeCasts_S64x1_S64,
    StableHlo.unary main_v45 main_v53 ((extractStridedSlice S64x1 ![0, 1] · slices_S64x2_S64x1_0_1) : (⟨S64x2, .f32⟩ : BufTy).Contents (Elt F) → (⟨S64x1, .f32⟩ : BufTy).Contents (Elt F)),
    StableHlo.reshape main_v53 main_v54 rfl shapeCasts_S64x1_S64,
    StableHlo.binary main_v52 main_v54 main_v55 (mulf : (⟨S64, .f32⟩ : BufTy).Contents (Elt F) → (⟨S64, .f32⟩ : BufTy).Contents (Elt F) → (⟨S64, .f32⟩ : BufTy).Contents (Elt F)),
    StableHlo.binary main_v50 main_v55 main_v56 (subf : (⟨S64, .f32⟩ : BufTy).Contents (Elt F) → (⟨S64, .f32⟩ : BufTy).Contents (Elt F) → (⟨S64, .f32⟩ : BufTy).Contents (Elt F)),
    StableHlo.unary main_v43 main_v57 ((extractStridedSlice S64x1 ![0, 0] · slices_S64x2_S64x1_0_0) : (⟨S64x2, .f32⟩ : BufTy).Contents (Elt F) → (⟨S64x1, .f32⟩ : BufTy).Contents (Elt F)),
    StableHlo.reshape main_v57 main_v58 rfl shapeCasts_S64x1_S64,
    StableHlo.unary main_v45 main_v59 ((extractStridedSlice S64x1 ![0, 1] · slices_S64x2_S64x1_0_1) : (⟨S64x2, .f32⟩ : BufTy).Contents (Elt F) → (⟨S64x1, .f32⟩ : BufTy).Contents (Elt F)),
    StableHlo.reshape main_v59 main_v60 rfl shapeCasts_S64x1_S64,
    StableHlo.binary main_v58 main_v60 main_v61 (mulf : (⟨S64, .f32⟩ : BufTy).Contents (Elt F) → (⟨S64, .f32⟩ : BufTy).Contents (Elt F) → (⟨S64, .f32⟩ : BufTy).Contents (Elt F)),
    StableHlo.unary main_v43 main_v62 ((extractStridedSlice S64x1 ![0, 1] · slices_S64x2_S64x1_0_1) : (⟨S64x2, .f32⟩ : BufTy).Contents (Elt F) → (⟨S64x1, .f32⟩ : BufTy).Contents (Elt F)),
    StableHlo.reshape main_v62 main_v63 rfl shapeCasts_S64x1_S64,
    StableHlo.unary main_v45 main_v64 ((extractStridedSlice S64x1 ![0, 0] · slices_S64x2_S64x1_0_0) : (⟨S64x2, .f32⟩ : BufTy).Contents (Elt F) → (⟨S64x1, .f32⟩ : BufTy).Contents (Elt F)),
    StableHlo.reshape main_v64 main_v65 rfl shapeCasts_S64x1_S64,
    StableHlo.binary main_v63 main_v65 main_v66 (mulf : (⟨S64, .f32⟩ : BufTy).Contents (Elt F) → (⟨S64, .f32⟩ : BufTy).Contents (Elt F) → (⟨S64, .f32⟩ : BufTy).Contents (Elt F)),
    StableHlo.binary main_v61 main_v66 main_v67 (addf : (⟨S64, .f32⟩ : BufTy).Contents (Elt F) → (⟨S64, .f32⟩ : BufTy).Contents (Elt F) → (⟨S64, .f32⟩ : BufTy).Contents (Elt F)),
    StableHlo.unary main_v56 main_v68 (broadcastInDim S64x1 ![0] bcast_S64_S64x1_0 : (⟨S64, .f32⟩ : BufTy).Contents (Elt F) → (⟨S64x1, .f32⟩ : BufTy).Contents (Elt F)),
    StableHlo.unary main_v67 main_v69 (broadcastInDim S64x1 ![0] bcast_S64_S64x1_0 : (⟨S64, .f32⟩ : BufTy).Contents (Elt F) → (⟨S64x1, .f32⟩ : BufTy).Contents (Elt F)),
    StableHlo.binary main_v68 main_v69 main_v70 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 79 … 105 of 150; the last writes main_v97. -/
abbrev kL3 : List (HloOp τ sig (Elt F)) :=
  [ StableHlo.unary main_v11 main_v71 ((extractStridedSlice S1x64x2 ![2, 0, 0] · slices_S8x64x2_S1x64x2_2_0_0) : (⟨S8x64x2, .f32⟩ : BufTy).Contents (Elt F) → (⟨S1x64x2, .f32⟩ : BufTy).Contents (Elt F)),
    StableHlo.reshape main_v71 main_v72 rfl shapeCasts_S1x64x2_S64x2,
    StableHlo.unary main_v70 main_v73 ((extractStridedSlice S64x1 ![0, 0] · slices_S64x2_S64x1_0_0) : (⟨S64x2, .f32⟩ : BufTy).Contents (Elt F) → (⟨S64x1, .f32⟩ : BufTy).Contents (Elt F)),
    StableHlo.reshape main_v73 main_v74 rfl shapeCasts_S64x1_S64,
    StableHlo.unary main_v72 main_v75 ((extractStridedSlice S64x1 ![0, 0] · slices_S64x2_S64x1_0_0) : (⟨S64x2, .f32⟩ : BufTy).Contents (Elt F) → (⟨S64x1, .f32⟩ : BufTy).Contents (Elt F)),
    StableHlo.reshape main_v75 main_v76 rfl shapeCasts_S64x1_S64,
    StableHlo.binary main_v74 main_v76 main_v77 (mulf : (⟨S64, .f32⟩ : BufTy).Contents (Elt F) → (⟨S64, .f32⟩ : BufTy).Contents (Elt F) → (⟨S64, .f32⟩ : BufTy).Contents (Elt F)),
    StableHlo.unary main_v70 main_v78 ((extractStridedSlice S64x1 ![0, 1] · slices_S64x2_S64x1_0_1) : (⟨S64x2, .f32⟩ : BufTy).Contents (Elt F) → (⟨S64x1, .f32⟩ : BufTy).Contents (Elt F)),
    StableHlo.reshape main_v78 main_v79 rfl shapeCasts_S64x1_S64,
    StableHlo.unary main_v72 main_v80 ((extractStridedSlice S64x1 ![0, 1] · slices_S64x2_S64x1_0_1) : (⟨S64x2, .f32⟩ : BufTy).Contents (Elt F) → (⟨S64x1, .f32⟩ : BufTy).Contents (Elt F)),
    StableHlo.reshape main_v80 main_v81 rfl shapeCasts_S64x1_S64,
    StableHlo.binary main_v79 main_v81 main_v82 (mulf : (⟨S64, .f32⟩ : BufTy).Contents (Elt F) → (⟨S64, .f32⟩ : BufTy).Contents (Elt F) → (⟨S64, .f32⟩ : BufTy).Contents (Elt F)),
    StableHlo.binary main_v77 main_v82 main_v83 (subf : (⟨S64, .f32⟩ : BufTy).Contents (Elt F) → (⟨S64, .f32⟩ : BufTy).Contents (Elt F) → (⟨S64, .f32⟩ : BufTy).Contents (Elt F)),
    StableHlo.unary main_v70 main_v84 ((extractStridedSlice S64x1 ![0, 0] · slices_S64x2_S64x1_0_0) : (⟨S64x2, .f32⟩ : BufTy).Contents (Elt F) → (⟨S64x1, .f32⟩ : BufTy).Contents (Elt F)),
    StableHlo.reshape main_v84 main_v85 rfl shapeCasts_S64x1_S64,
    StableHlo.unary main_v72 main_v86 ((extractStridedSlice S64x1 ![0, 1] · slices_S64x2_S64x1_0_1) : (⟨S64x2, .f32⟩ : BufTy).Contents (Elt F) → (⟨S64x1, .f32⟩ : BufTy).Contents (Elt F)),
    StableHlo.reshape main_v86 main_v87 rfl shapeCasts_S64x1_S64,
    StableHlo.binary main_v85 main_v87 main_v88 (mulf : (⟨S64, .f32⟩ : BufTy).Contents (Elt F) → (⟨S64, .f32⟩ : BufTy).Contents (Elt F) → (⟨S64, .f32⟩ : BufTy).Contents (Elt F)),
    StableHlo.unary main_v70 main_v89 ((extractStridedSlice S64x1 ![0, 1] · slices_S64x2_S64x1_0_1) : (⟨S64x2, .f32⟩ : BufTy).Contents (Elt F) → (⟨S64x1, .f32⟩ : BufTy).Contents (Elt F)),
    StableHlo.reshape main_v89 main_v90 rfl shapeCasts_S64x1_S64,
    StableHlo.unary main_v72 main_v91 ((extractStridedSlice S64x1 ![0, 0] · slices_S64x2_S64x1_0_0) : (⟨S64x2, .f32⟩ : BufTy).Contents (Elt F) → (⟨S64x1, .f32⟩ : BufTy).Contents (Elt F)),
    StableHlo.reshape main_v91 main_v92 rfl shapeCasts_S64x1_S64,
    StableHlo.binary main_v90 main_v92 main_v93 (mulf : (⟨S64, .f32⟩ : BufTy).Contents (Elt F) → (⟨S64, .f32⟩ : BufTy).Contents (Elt F) → (⟨S64, .f32⟩ : BufTy).Contents (Elt F)),
    StableHlo.binary main_v88 main_v93 main_v94 (addf : (⟨S64, .f32⟩ : BufTy).Contents (Elt F) → (⟨S64, .f32⟩ : BufTy).Contents (Elt F) → (⟨S64, .f32⟩ : BufTy).Contents (Elt F)),
    StableHlo.unary main_v83 main_v95 (broadcastInDim S64x1 ![0] bcast_S64_S64x1_0 : (⟨S64, .f32⟩ : BufTy).Contents (Elt F) → (⟨S64x1, .f32⟩ : BufTy).Contents (Elt F)),
    StableHlo.unary main_v94 main_v96 (broadcastInDim S64x1 ![0] bcast_S64_S64x1_0 : (⟨S64, .f32⟩ : BufTy).Contents (Elt F) → (⟨S64x1, .f32⟩ : BufTy).Contents (Elt F)),
    StableHlo.binary main_v95 main_v96 main_v97 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 106 … 132 of 150; the last writes main_v124. -/
abbrev kL4 : List (HloOp τ sig (Elt F)) :=
  [ StableHlo.unary main_v11 main_v98 ((extractStridedSlice S1x64x2 ![0, 0, 0] · slices_S8x64x2_S1x64x2_0_0_0) : (⟨S8x64x2, .f32⟩ : BufTy).Contents (Elt F) → (⟨S1x64x2, .f32⟩ : BufTy).Contents (Elt F)),
    StableHlo.reshape main_v98 main_v99 rfl shapeCasts_S1x64x2_S64x2,
    StableHlo.unary main_v97 main_v100 ((extractStridedSlice S64x1 ![0, 0] · slices_S64x2_S64x1_0_0) : (⟨S64x2, .f32⟩ : BufTy).Contents (Elt F) → (⟨S64x1, .f32⟩ : BufTy).Contents (Elt F)),
    StableHlo.reshape main_v100 main_v101 rfl shapeCasts_S64x1_S64,
    StableHlo.unary main_v99 main_v102 ((extractStridedSlice S64x1 ![0, 0] · slices_S64x2_S64x1_0_0) : (⟨S64x2, .f32⟩ : BufTy).Contents (Elt F) → (⟨S64x1, .f32⟩ : BufTy).Contents (Elt F)),
    StableHlo.reshape main_v102 main_v103 rfl shapeCasts_S64x1_S64,
    StableHlo.binary main_v101 main_v103 main_v104 (mulf : (⟨S64, .f32⟩ : BufTy).Contents (Elt F) → (⟨S64, .f32⟩ : BufTy).Contents (Elt F) → (⟨S64, .f32⟩ : BufTy).Contents (Elt F)),
    StableHlo.unary main_v97 main_v105 ((extractStridedSlice S64x1 ![0, 1] · slices_S64x2_S64x1_0_1) : (⟨S64x2, .f32⟩ : BufTy).Contents (Elt F) → (⟨S64x1, .f32⟩ : BufTy).Contents (Elt F)),
    StableHlo.reshape main_v105 main_v106 rfl shapeCasts_S64x1_S64,
    StableHlo.unary main_v99 main_v107 ((extractStridedSlice S64x1 ![0, 1] · slices_S64x2_S64x1_0_1) : (⟨S64x2, .f32⟩ : BufTy).Contents (Elt F) → (⟨S64x1, .f32⟩ : BufTy).Contents (Elt F)),
    StableHlo.reshape main_v107 main_v108 rfl shapeCasts_S64x1_S64,
    StableHlo.binary main_v106 main_v108 main_v109 (mulf : (⟨S64, .f32⟩ : BufTy).Contents (Elt F) → (⟨S64, .f32⟩ : BufTy).Contents (Elt F) → (⟨S64, .f32⟩ : BufTy).Contents (Elt F)),
    StableHlo.binary main_v104 main_v109 main_v110 (subf : (⟨S64, .f32⟩ : BufTy).Contents (Elt F) → (⟨S64, .f32⟩ : BufTy).Contents (Elt F) → (⟨S64, .f32⟩ : BufTy).Contents (Elt F)),
    StableHlo.unary main_v97 main_v111 ((extractStridedSlice S64x1 ![0, 0] · slices_S64x2_S64x1_0_0) : (⟨S64x2, .f32⟩ : BufTy).Contents (Elt F) → (⟨S64x1, .f32⟩ : BufTy).Contents (Elt F)),
    StableHlo.reshape main_v111 main_v112 rfl shapeCasts_S64x1_S64,
    StableHlo.unary main_v99 main_v113 ((extractStridedSlice S64x1 ![0, 1] · slices_S64x2_S64x1_0_1) : (⟨S64x2, .f32⟩ : BufTy).Contents (Elt F) → (⟨S64x1, .f32⟩ : BufTy).Contents (Elt F)),
    StableHlo.reshape main_v113 main_v114 rfl shapeCasts_S64x1_S64,
    StableHlo.binary main_v112 main_v114 main_v115 (mulf : (⟨S64, .f32⟩ : BufTy).Contents (Elt F) → (⟨S64, .f32⟩ : BufTy).Contents (Elt F) → (⟨S64, .f32⟩ : BufTy).Contents (Elt F)),
    StableHlo.unary main_v97 main_v116 ((extractStridedSlice S64x1 ![0, 1] · slices_S64x2_S64x1_0_1) : (⟨S64x2, .f32⟩ : BufTy).Contents (Elt F) → (⟨S64x1, .f32⟩ : BufTy).Contents (Elt F)),
    StableHlo.reshape main_v116 main_v117 rfl shapeCasts_S64x1_S64,
    StableHlo.unary main_v99 main_v118 ((extractStridedSlice S64x1 ![0, 0] · slices_S64x2_S64x1_0_0) : (⟨S64x2, .f32⟩ : BufTy).Contents (Elt F) → (⟨S64x1, .f32⟩ : BufTy).Contents (Elt F)),
    StableHlo.reshape main_v118 main_v119 rfl shapeCasts_S64x1_S64,
    StableHlo.binary main_v117 main_v119 main_v120 (mulf : (⟨S64, .f32⟩ : BufTy).Contents (Elt F) → (⟨S64, .f32⟩ : BufTy).Contents (Elt F) → (⟨S64, .f32⟩ : BufTy).Contents (Elt F)),
    StableHlo.binary main_v115 main_v120 main_v121 (addf : (⟨S64, .f32⟩ : BufTy).Contents (Elt F) → (⟨S64, .f32⟩ : BufTy).Contents (Elt F) → (⟨S64, .f32⟩ : BufTy).Contents (Elt F)),
    StableHlo.unary main_v110 main_v122 (broadcastInDim S64x1 ![0] bcast_S64_S64x1_0 : (⟨S64, .f32⟩ : BufTy).Contents (Elt F) → (⟨S64x1, .f32⟩ : BufTy).Contents (Elt F)),
    StableHlo.unary main_v121 main_v123 (broadcastInDim S64x1 ![0] bcast_S64_S64x1_0 : (⟨S64, .f32⟩ : BufTy).Contents (Elt F) → (⟨S64x1, .f32⟩ : BufTy).Contents (Elt F)),
    StableHlo.binary main_v122 main_v123 main_v124 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 133 … 138 of 150; the last writes main_v130. -/
abbrev kE : List (HloOp τ sig (Elt F)) :=
  [ StableHlo.unary main_v124 main_v125 (broadcastInDim S1x64x2 ![1, 2] bcast_S64x2_S1x64x2_1_2 : (⟨S64x2, .f32⟩ : BufTy).Contents (Elt F) → (⟨S1x64x2, .f32⟩ : BufTy).Contents (Elt F)),
    StableHlo.unary main_v97 main_v126 (broadcastInDim S1x64x2 ![1, 2] bcast_S64x2_S1x64x2_1_2 : (⟨S64x2, .f32⟩ : BufTy).Contents (Elt F) → (⟨S1x64x2, .f32⟩ : BufTy).Contents (Elt F)),
    StableHlo.unary main_v70 main_v127 (broadcastInDim S1x64x2 ![1, 2] bcast_S64x2_S1x64x2_1_2 : (⟨S64x2, .f32⟩ : BufTy).Contents (Elt F) → (⟨S1x64x2, .f32⟩ : BufTy).Contents (Elt F)),
    StableHlo.unary main_v43 main_v128 (broadcastInDim S1x64x2 ![1, 2] bcast_S64x2_S1x64x2_1_2 : (⟨S64x2, .f32⟩ : BufTy).Contents (Elt F) → (⟨S1x64x2, .f32⟩ : BufTy).Contents (Elt F)),
    StableHlo.unary main_v16 main_v129 (broadcastInDim S1x64x2 ![1, 2] bcast_S64x2_S1x64x2_1_2 : (⟨S64x2, .f32⟩ : BufTy).Contents (Elt F) → (⟨S1x64x2, .f32⟩ : BufTy).Contents (Elt F)),
    StableHlo.nary ![main_v125, main_v126, main_v127, main_v128, main_v129] main_v130 (fun u => concatenate S5x64x2 0 [⟨S1x64x2, u 0⟩, ⟨S1x64x2, u 1⟩, ⟨S1x64x2, u 2⟩, ⟨S1x64x2, u 3⟩, ⟨S1x64x2, u 4⟩] concatenates_S1x64x2_S1x64x2_S1x64x2_S1x64x2_S1x64x2_S5x64x2_d0) ]

/-- The operations at positions 139 … 149 of 150; the last writes main_v141. -/
abbrev kPost : List (HloOp τ sig (Elt F)) :=
  [ StableHlo.unary main_v130 main_v131 ((extractStridedSlice S5x64x1 ![0, 0, 0] · slices_S5x64x2_S5x64x1_0_0_0) : (⟨S5x64x2, .f32⟩ : BufTy).Contents (Elt F) → (⟨S5x64x1, .f32⟩ : BufTy).Contents (Elt F)),
    StableHlo.reshape main_v131 main_v132 rfl shapeCasts_S5x64x1_S5x64,
    StableHlo.unary main_v130 main_v133 ((extractStridedSlice S5x64x1 ![0, 0, 1] · slices_S5x64x2_S5x64x1_0_0_1) : (⟨S5x64x2, .f32⟩ : BufTy).Contents (Elt F) → (⟨S5x64x1, .f32⟩ : BufTy).Contents (Elt F)),
    StableHlo.reshape main_v133 main_v134 rfl shapeCasts_S5x64x1_S5x64,
    StableHlo.unary main_v132 main_v135 (broadcastInDim S5x64x2 ![0, 1] bcast_S5x64_S5x64x2_0_1 : (⟨S5x64, .f32⟩ : BufTy).Contents (Elt F) → (⟨S5x64x2, .f32⟩ : BufTy).Contents (Elt F)),
    StableHlo.reshape main_v135 main_v136 rfl shapeCasts_S5x64x2_S5x128,
    StableHlo.unary main_v134 main_v137 (Host.negf : (⟨S5x64, .f32⟩ : BufTy).Contents (Elt F) → (⟨S5x64, .f32⟩ : BufTy).Contents (Elt F)),
    StableHlo.unary main_v137 main_v138 (broadcastInDim S5x64x1 ![0, 1] bcast_S5x64_S5x64x1_0_1 : (⟨S5x64, .f32⟩ : BufTy).Contents (Elt F) → (⟨S5x64x1, .f32⟩ : BufTy).Contents (Elt F)),
    StableHlo.unary main_v134 main_v139 (broadcastInDim S5x64x1 ![0, 1] bcast_S5x64_S5x64x1_0_1 : (⟨S5x64, .f32⟩ : BufTy).Contents (Elt F) → (⟨S5x64x1, .f32⟩ : BufTy).Contents (Elt F)),
    StableHlo.binary main_v138 main_v139 main_v140 ((fun a b => concatenate S5x64x2 2 [⟨S5x64x1, a⟩, ⟨S5x64x1, b⟩] concatenates_S5x64x1_S5x64x1_S5x64x2_d2) : (⟨S5x64x1, .f32⟩ : BufTy).Contents (Elt F) → (⟨S5x64x1, .f32⟩ : BufTy).Contents (Elt F) → (⟨S5x64x2, .f32⟩ : BufTy).Contents (Elt F)),
    StableHlo.reshape main_v140 main_v141 rfl shapeCasts_S5x64x2_S5x128 ]

set_option maxRecDepth 8192 in
set_option maxHeartbeats 4000000 in
/-- The host operations before the region are the eight stages in order. -/
theorem k_cut : (Cert.KernelIdeal.Fr.hostAll (F := F)) = kP0 ++ (kP1 ++ (kL1 ++ (kL2 ++ (kL3 ++ (kL4 ++ (kE ++ kPost)))))) := rfl

end K

/-! ## The reference program's stages -/

section R

open Cert.ReferenceIdeal Cert.ReferenceIdeal.Gen Idealize.ShloMosaic Idealize.ShloMosaic.TcCoe Idealize.SL.Sem

variable {F : FTy → Type} [FloatOps F]

/-- The operations at positions 0 … 18 of 179; the last writes main_v12. -/
abbrev rP0 : List (HloOp τ sig (Elt F)) :=
  [ StableHlo.nullary main_cst (fun i => FloatOps.ofBits .f32 (lit0 (S2.rowMajor i))),
    StableHlo.reshape main_arg0 main_v0 rfl shapeCasts_S262144x5x128_S262144x5x64x2,
    StableHlo.TRef.binary (.of main_arg1 : StableHlo.TRef sig ⟨S4x64x2, .f32⟩) (.of main_arg1 : StableHlo.TRef sig ⟨S4x64x2, .f32⟩) (.of main_call0_v0 : StableHlo.TRef sig ⟨S4x64x2, .f32⟩) mulf,
    StableHlo.TRef.nullary (.of main_call0_cst : StableHlo.TRef sig ⟨S_, .f32⟩) (constant S_ .f32 0x00000000#32),
    StableHlo.TRef.binary (.of main_call0_v0 : StableHlo.TRef sig ⟨S4x64x2, .f32⟩) (.of main_call0_cst : StableHlo.TRef sig ⟨S_, .f32⟩) (.of main_call0_v1 : StableHlo.TRef sig ⟨S4x64, .f32⟩) (fun x v => Host.reduceAdd x v reducesTo_S4x64x2_S4x64_d2 h_S_),
    StableHlo.TRef.unary (.of main_call0_v1 : StableHlo.TRef sig ⟨S4x64, .f32⟩) (.of main_call0_v2 : StableHlo.TRef sig ⟨S4x64x1, .f32⟩) (broadcastInDim S4x64x1 ![0, 1] bcast_S4x64_S4x64x1_0_1),
    StableHlo.TRef.unary (.of main_call0_v2 : StableHlo.TRef sig ⟨S4x64x1, .f32⟩) (.of main_v1 : StableHlo.TRef sig ⟨S4x64x1, .f32⟩) Host.sqrt,
    StableHlo.nullary main_cst_0 (constant S_ .f32 0x2B8CBCCC#32),
    StableHlo.unary main_cst_0 main_v2 (broadcastInDim S4x64x1 ![] bcast_S_S4x64x1 : (⟨S_, .f32⟩ : BufTy).Contents (Elt F) → (⟨S4x64x1, .f32⟩ : BufTy).Contents (Elt F)),
    StableHlo.binary main_v1 main_v2 main_v3 (maximumf : (⟨S4x64x1, .f32⟩ : BufTy).Contents (Elt F) → (⟨S4x64x1, .f32⟩ : BufTy).Contents (Elt F) → (⟨S4x64x1, .f32⟩ : BufTy).Contents (Elt F)),
    StableHlo.unary main_v3 main_v4 (broadcastInDim S4x64x2 ![0, 1, 2] bcast_S4x64x1_S4x64x2_0_1_2 : (⟨S4x64x1, .f32⟩ : BufTy).Contents (Elt F) → (⟨S4x64x2, .f32⟩ : BufTy).Contents (Elt F)),
    StableHlo.binary main_arg1 main_v4 main_v5 (Host.divf : (⟨S4x64x2, .f32⟩ : BufTy).Contents (Elt F) → (⟨S4x64x2, .f32⟩ : BufTy).Contents (Elt F) → (⟨S4x64x2, .f32⟩ : BufTy).Contents (Elt F)),
    StableHlo.unary main_cst main_v6 (broadcastInDim S1x1x2 ![2] bcast_S2_S1x1x2_2 : (⟨S2, .f32⟩ : BufTy).Contents (Elt F) → (⟨S1x1x2, .f32⟩ : BufTy).Contents (Elt F)),
    StableHlo.unary main_v6 main_v7 (broadcastInDim S4x64x2 ![0, 1, 2] bcast_S1x1x2_S4x64x2_0_1_2 : (⟨S1x1x2, .f32⟩ : BufTy).Contents (Elt F) → (⟨S4x64x2, .f32⟩ : BufTy).Contents (Elt F)),
    StableHlo.binary main_v5 main_v7 main_v8 (mulf : (⟨S4x64x2, .f32⟩ : BufTy).Contents (Elt F) → (⟨S4x64x2, .f32⟩ : BufTy).Contents (Elt F) → (⟨S4x64x2, .f32⟩ : BufTy).Contents (Elt F)),
    StableHlo.unary main_v5 main_v9 (broadcastInDim S4x1x64x2 ![0, 2, 3] bcast_S4x64x2_S4x1x64x2_0_2_3 : (⟨S4x64x2, .f32⟩ : BufTy).Contents (Elt F) → (⟨S4x1x64x2, .f32⟩ : BufTy).Contents (Elt F)),
    StableHlo.unary main_v8 main_v10 (broadcastInDim S4x1x64x2 ![0, 2, 3] bcast_S4x64x2_S4x1x64x2_0_2_3 : (⟨S4x64x2, .f32⟩ : BufTy).Contents (Elt F) → (⟨S4x1x64x2, .f32⟩ : BufTy).Contents (Elt F)),
    StableHlo.binary main_v9 main_v10 main_v11 ((fun a b => concatenate S4x2x64x2 1 [⟨S4x1x64x2, a⟩, ⟨S4x1x64x2, b⟩] concatenates_S4x1x64x2_S4x1x64x2_S4x2x64x2_d1) : (⟨S4x1x64x2, .f32⟩ : BufTy).Contents (Elt F) → (⟨S4x1x64x2, .f32⟩ : BufTy).Contents (Elt F) → (⟨S4x2x64x2, .f32⟩ : BufTy).Contents (Elt F)),
    StableHlo.reshape main_v11 main_v12 rfl shapeCasts_S4x2x64x2_S8x64x2 ]

/-- The operations at positions 19 … 25 of 179; the last writes main_v17. -/
abbrev rP1 : List (HloOp τ sig (Elt F)) :=
  [ StableHlo.nullary main_cst_1 (constant S_ .f32 0x3F800000#32),
    StableHlo.unary main_cst_1 main_v13 (broadcastInDim S64 ![] bcast_S_S64 : (⟨S_, .f32⟩ : BufTy).Contents (Elt F) → (⟨S64, .f32⟩ : BufTy).Contents (Elt F)),
    StableHlo.nullary main_cst_2 (constant S_ .f32 0x00000000#32),
    StableHlo.unary main_cst_2 main_v14 (broadcastInDim S64 ![] bcast_S_S64 : (⟨S_, .f32⟩ : BufTy).Contents (Elt F) → (⟨S64, .f32⟩ : BufTy).Contents (Elt F)),
    StableHlo.unary main_v13 main_v15 (broadcastInDim S64x1 ![0] bcast_S64_S64x1_0 : (⟨S64, .f32⟩ : BufTy).Contents (Elt F) → (⟨S64x1, .f32⟩ : BufTy).Contents (Elt F)),
    StableHlo.unary main_v14 main_v16 (broadcastInDim S64x1 ![0] bcast_S64_S64x1_0 : (⟨S64, .f32⟩ : BufTy).Contents (Elt F) → (⟨S64x1, .f32⟩ : BufTy).Contents (Elt F)),
    StableHlo.binary main_v15 main_v16 main_v17 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 26 … 52 of 179; the last writes main_v44. -/
abbrev rL1 : List (HloOp τ sig (Elt F)) :=
  [ StableHlo.unary main_v12 main_v18 ((extractStridedSlice S1x64x2 ![7, 0, 0] · slices_S8x64x2_S1x64x2_7_0_0) : (⟨S8x64x2, .f32⟩ : BufTy).Contents (Elt F) → (⟨S1x64x2, .f32⟩ : BufTy).Contents (Elt F)),
    StableHlo.reshape main_v18 main_v19 rfl shapeCasts_S1x64x2_S64x2,
    StableHlo.unary main_v17 main_v20 ((extractStridedSlice S64x1 ![0, 0] · slices_S64x2_S64x1_0_0) : (⟨S64x2, .f32⟩ : BufTy).Contents (Elt F) → (⟨S64x1, .f32⟩ : BufTy).Contents (Elt F)),
    StableHlo.reshape main_v20 main_v21 rfl shapeCasts_S64x1_S64,
    StableHlo.unary main_v19 main_v22 ((extractStridedSlice S64x1 ![0, 0] · slices_S64x2_S64x1_0_0) : (⟨S64x2, .f32⟩ : BufTy).Contents (Elt F) → (⟨S64x1, .f32⟩ : BufTy).Contents (Elt F)),
    StableHlo.reshape main_v22 main_v23 rfl shapeCasts_S64x1_S64,
    StableHlo.binary main_v21 main_v23 main_v24 (mulf : (⟨S64, .f32⟩ : BufTy).Contents (Elt F) → (⟨S64, .f32⟩ : BufTy).Contents (Elt F) → (⟨S64, .f32⟩ : BufTy).Contents (Elt F)),
    StableHlo.unary main_v17 main_v25 ((extractStridedSlice S64x1 ![0, 1] · slices_S64x2_S64x1_0_1) : (⟨S64x2, .f32⟩ : BufTy).Contents (Elt F) → (⟨S64x1, .f32⟩ : BufTy).Contents (Elt F)),
    StableHlo.reshape main_v25 main_v26 rfl shapeCasts_S64x1_S64,
    StableHlo.unary main_v19 main_v27 ((extractStridedSlice S64x1 ![0, 1] · slices_S64x2_S64x1_0_1) : (⟨S64x2, .f32⟩ : BufTy).Contents (Elt F) → (⟨S64x1, .f32⟩ : BufTy).Contents (Elt F)),
    StableHlo.reshape main_v27 main_v28 rfl shapeCasts_S64x1_S64,
    StableHlo.binary main_v26 main_v28 main_v29 (mulf : (⟨S64, .f32⟩ : BufTy).Contents (Elt F) → (⟨S64, .f32⟩ : BufTy).Contents (Elt F) → (⟨S64, .f32⟩ : BufTy).Contents (Elt F)),
    StableHlo.binary main_v24 main_v29 main_v30 (subf : (⟨S64, .f32⟩ : BufTy).Contents (Elt F) → (⟨S64, .f32⟩ : BufTy).Contents (Elt F) → (⟨S64, .f32⟩ : BufTy).Contents (Elt F)),
    StableHlo.unary main_v17 main_v31 ((extractStridedSlice S64x1 ![0, 0] · slices_S64x2_S64x1_0_0) : (⟨S64x2, .f32⟩ : BufTy).Contents (Elt F) → (⟨S64x1, .f32⟩ : BufTy).Contents (Elt F)),
    StableHlo.reshape main_v31 main_v32 rfl shapeCasts_S64x1_S64,
    StableHlo.unary main_v19 main_v33 ((extractStridedSlice S64x1 ![0, 1] · slices_S64x2_S64x1_0_1) : (⟨S64x2, .f32⟩ : BufTy).Contents (Elt F) → (⟨S64x1, .f32⟩ : BufTy).Contents (Elt F)),
    StableHlo.reshape main_v33 main_v34 rfl shapeCasts_S64x1_S64,
    StableHlo.binary main_v32 main_v34 main_v35 (mulf : (⟨S64, .f32⟩ : BufTy).Contents (Elt F) → (⟨S64, .f32⟩ : BufTy).Contents (Elt F) → (⟨S64, .f32⟩ : BufTy).Contents (Elt F)),
    StableHlo.unary main_v17 main_v36 ((extractStridedSlice S64x1 ![0, 1] · slices_S64x2_S64x1_0_1) : (⟨S64x2, .f32⟩ : BufTy).Contents (Elt F) → (⟨S64x1, .f32⟩ : BufTy).Contents (Elt F)),
    StableHlo.reshape main_v36 main_v37 rfl shapeCasts_S64x1_S64,
    StableHlo.unary main_v19 main_v38 ((extractStridedSlice S64x1 ![0, 0] · slices_S64x2_S64x1_0_0) : (⟨S64x2, .f32⟩ : BufTy).Contents (Elt F) → (⟨S64x1, .f32⟩ : BufTy).Contents (Elt F)),
    StableHlo.reshape main_v38 main_v39 rfl shapeCasts_S64x1_S64,
    StableHlo.binary main_v37 main_v39 main_v40 (mulf : (⟨S64, .f32⟩ : BufTy).Contents (Elt F) → (⟨S64, .f32⟩ : BufTy).Contents (Elt F) → (⟨S64, .f32⟩ : BufTy).Contents (Elt F)),
    StableHlo.binary main_v35 main_v40 main_v41 (addf : (⟨S64, .f32⟩ : BufTy).Contents (Elt F) → (⟨S64, .f32⟩ : BufTy).Contents (Elt F) → (⟨S64, .f32⟩ : BufTy).Contents (Elt F)),
    StableHlo.unary main_v30 main_v42 (broadcastInDim S64x1 ![0] bcast_S64_S64x1_0 : (⟨S64, .f32⟩ : BufTy).Contents (Elt F) → (⟨S64x1, .f32⟩ : BufTy).Contents (Elt F)),
    StableHlo.unary main_v41 main_v43 (broadcastInDim S64x1 ![0] bcast_S64_S64x1_0 : (⟨S64, .f32⟩ : BufTy).Contents (Elt F) → (⟨S64x1, .f32⟩ : BufTy).Contents (Elt F)),
    StableHlo.binary main_v42 main_v43 main_v44 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 53 … 79 of 179; the last writes main_v71. -/
abbrev rL2 : List (HloOp τ sig (Elt F)) :=
  [ StableHlo.unary main_v12 main_v45 ((extractStridedSlice S1x64x2 ![5, 0, 0] · slices_S8x64x2_S1x64x2_5_0_0) : (⟨S8x64x2, .f32⟩ : BufTy).Contents (Elt F) → (⟨S1x64x2, .f32⟩ : BufTy).Contents (Elt F)),
    StableHlo.reshape main_v45 main_v46 rfl shapeCasts_S1x64x2_S64x2,
    StableHlo.unary main_v44 main_v47 ((extractStridedSlice S64x1 ![0, 0] · slices_S64x2_S64x1_0_0) : (⟨S64x2, .f32⟩ : BufTy).Contents (Elt F) → (⟨S64x1, .f32⟩ : BufTy).Contents (Elt F)),
    StableHlo.reshape main_v47 main_v48 rfl shapeCasts_S64x1_S64,
    StableHlo.unary main_v46 main_v49 ((extractStridedSlice S64x1 ![0, 0] · slices_S64x2_S64x1_0_0) : (⟨S64x2, .f32⟩ : BufTy).Contents (Elt F) → (⟨S64x1, .f32⟩ : BufTy).Contents (Elt F)),
    StableHlo.reshape main_v49 main_v50 rfl shapeCasts_S64x1_S64,
    StableHlo.binary main_v48 main_v50 main_v51 (mulf : (⟨S64, .f32⟩ : BufTy).Contents (Elt F) → (⟨S64, .f32⟩ : BufTy).Contents (Elt F) → (⟨S64, .f32⟩ : BufTy).Contents (Elt F)),
    StableHlo.unary main_v44 main_v52 ((extractStridedSlice S64x1 ![0, 1] · slices_S64x2_S64x1_0_1) : (⟨S64x2, .f32⟩ : BufTy).Contents (Elt F) → (⟨S64x1, .f32⟩ : BufTy).Contents (Elt F)),
    StableHlo.reshape main_v52 main_v53 rfl shapeCasts_S64x1_S64,
    StableHlo.unary main_v46 main_v54 ((extractStridedSlice S64x1 ![0, 1] · slices_S64x2_S64x1_0_1) : (⟨S64x2, .f32⟩ : BufTy).Contents (Elt F) → (⟨S64x1, .f32⟩ : BufTy).Contents (Elt F)),
    StableHlo.reshape main_v54 main_v55 rfl shapeCasts_S64x1_S64,
    StableHlo.binary main_v53 main_v55 main_v56 (mulf : (⟨S64, .f32⟩ : BufTy).Contents (Elt F) → (⟨S64, .f32⟩ : BufTy).Contents (Elt F) → (⟨S64, .f32⟩ : BufTy).Contents (Elt F)),
    StableHlo.binary main_v51 main_v56 main_v57 (subf : (⟨S64, .f32⟩ : BufTy).Contents (Elt F) → (⟨S64, .f32⟩ : BufTy).Contents (Elt F) → (⟨S64, .f32⟩ : BufTy).Contents (Elt F)),
    StableHlo.unary main_v44 main_v58 ((extractStridedSlice S64x1 ![0, 0] · slices_S64x2_S64x1_0_0) : (⟨S64x2, .f32⟩ : BufTy).Contents (Elt F) → (⟨S64x1, .f32⟩ : BufTy).Contents (Elt F)),
    StableHlo.reshape main_v58 main_v59 rfl shapeCasts_S64x1_S64,
    StableHlo.unary main_v46 main_v60 ((extractStridedSlice S64x1 ![0, 1] · slices_S64x2_S64x1_0_1) : (⟨S64x2, .f32⟩ : BufTy).Contents (Elt F) → (⟨S64x1, .f32⟩ : BufTy).Contents (Elt F)),
    StableHlo.reshape main_v60 main_v61 rfl shapeCasts_S64x1_S64,
    StableHlo.binary main_v59 main_v61 main_v62 (mulf : (⟨S64, .f32⟩ : BufTy).Contents (Elt F) → (⟨S64, .f32⟩ : BufTy).Contents (Elt F) → (⟨S64, .f32⟩ : BufTy).Contents (Elt F)),
    StableHlo.unary main_v44 main_v63 ((extractStridedSlice S64x1 ![0, 1] · slices_S64x2_S64x1_0_1) : (⟨S64x2, .f32⟩ : BufTy).Contents (Elt F) → (⟨S64x1, .f32⟩ : BufTy).Contents (Elt F)),
    StableHlo.reshape main_v63 main_v64 rfl shapeCasts_S64x1_S64,
    StableHlo.unary main_v46 main_v65 ((extractStridedSlice S64x1 ![0, 0] · slices_S64x2_S64x1_0_0) : (⟨S64x2, .f32⟩ : BufTy).Contents (Elt F) → (⟨S64x1, .f32⟩ : BufTy).Contents (Elt F)),
    StableHlo.reshape main_v65 main_v66 rfl shapeCasts_S64x1_S64,
    StableHlo.binary main_v64 main_v66 main_v67 (mulf : (⟨S64, .f32⟩ : BufTy).Contents (Elt F) → (⟨S64, .f32⟩ : BufTy).Contents (Elt F) → (⟨S64, .f32⟩ : BufTy).Contents (Elt F)),
    StableHlo.binary main_v62 main_v67 main_v68 (addf : (⟨S64, .f32⟩ : BufTy).Contents (Elt F) → (⟨S64, .f32⟩ : BufTy).Contents (Elt F) → (⟨S64, .f32⟩ : BufTy).Contents (Elt F)),
    StableHlo.unary main_v57 main_v69 (broadcastInDim S64x1 ![0] bcast_S64_S64x1_0 : (⟨S64, .f32⟩ : BufTy).Contents (Elt F) → (⟨S64x1, .f32⟩ : BufTy).Contents (Elt F)),
    StableHlo.unary main_v68 main_v70 (broadcastInDim S64x1 ![0] bcast_S64_S64x1_0 : (⟨S64, .f32⟩ : BufTy).Contents (Elt F) → (⟨S64x1, .f32⟩ : BufTy).Contents (Elt F)),
    StableHlo.binary main_v69 main_v70 main_v71 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 80 … 106 of 179; the last writes main_v98. -/
abbrev rL3 : List (HloOp τ sig (Elt F)) :=
  [ StableHlo.unary main_v12 main_v72 ((extractStridedSlice S1x64x2 ![2, 0, 0] · slices_S8x64x2_S1x64x2_2_0_0) : (⟨S8x64x2, .f32⟩ : BufTy).Contents (Elt F) → (⟨S1x64x2, .f32⟩ : BufTy).Contents (Elt F)),
    StableHlo.reshape main_v72 main_v73 rfl shapeCasts_S1x64x2_S64x2,
    StableHlo.unary main_v71 main_v74 ((extractStridedSlice S64x1 ![0, 0] · slices_S64x2_S64x1_0_0) : (⟨S64x2, .f32⟩ : BufTy).Contents (Elt F) → (⟨S64x1, .f32⟩ : BufTy).Contents (Elt F)),
    StableHlo.reshape main_v74 main_v75 rfl shapeCasts_S64x1_S64,
    StableHlo.unary main_v73 main_v76 ((extractStridedSlice S64x1 ![0, 0] · slices_S64x2_S64x1_0_0) : (⟨S64x2, .f32⟩ : BufTy).Contents (Elt F) → (⟨S64x1, .f32⟩ : BufTy).Contents (Elt F)),
    StableHlo.reshape main_v76 main_v77 rfl shapeCasts_S64x1_S64,
    StableHlo.binary main_v75 main_v77 main_v78 (mulf : (⟨S64, .f32⟩ : BufTy).Contents (Elt F) → (⟨S64, .f32⟩ : BufTy).Contents (Elt F) → (⟨S64, .f32⟩ : BufTy).Contents (Elt F)),
    StableHlo.unary main_v71 main_v79 ((extractStridedSlice S64x1 ![0, 1] · slices_S64x2_S64x1_0_1) : (⟨S64x2, .f32⟩ : BufTy).Contents (Elt F) → (⟨S64x1, .f32⟩ : BufTy).Contents (Elt F)),
    StableHlo.reshape main_v79 main_v80 rfl shapeCasts_S64x1_S64,
    StableHlo.unary main_v73 main_v81 ((extractStridedSlice S64x1 ![0, 1] · slices_S64x2_S64x1_0_1) : (⟨S64x2, .f32⟩ : BufTy).Contents (Elt F) → (⟨S64x1, .f32⟩ : BufTy).Contents (Elt F)),
    StableHlo.reshape main_v81 main_v82 rfl shapeCasts_S64x1_S64,
    StableHlo.binary main_v80 main_v82 main_v83 (mulf : (⟨S64, .f32⟩ : BufTy).Contents (Elt F) → (⟨S64, .f32⟩ : BufTy).Contents (Elt F) → (⟨S64, .f32⟩ : BufTy).Contents (Elt F)),
    StableHlo.binary main_v78 main_v83 main_v84 (subf : (⟨S64, .f32⟩ : BufTy).Contents (Elt F) → (⟨S64, .f32⟩ : BufTy).Contents (Elt F) → (⟨S64, .f32⟩ : BufTy).Contents (Elt F)),
    StableHlo.unary main_v71 main_v85 ((extractStridedSlice S64x1 ![0, 0] · slices_S64x2_S64x1_0_0) : (⟨S64x2, .f32⟩ : BufTy).Contents (Elt F) → (⟨S64x1, .f32⟩ : BufTy).Contents (Elt F)),
    StableHlo.reshape main_v85 main_v86 rfl shapeCasts_S64x1_S64,
    StableHlo.unary main_v73 main_v87 ((extractStridedSlice S64x1 ![0, 1] · slices_S64x2_S64x1_0_1) : (⟨S64x2, .f32⟩ : BufTy).Contents (Elt F) → (⟨S64x1, .f32⟩ : BufTy).Contents (Elt F)),
    StableHlo.reshape main_v87 main_v88 rfl shapeCasts_S64x1_S64,
    StableHlo.binary main_v86 main_v88 main_v89 (mulf : (⟨S64, .f32⟩ : BufTy).Contents (Elt F) → (⟨S64, .f32⟩ : BufTy).Contents (Elt F) → (⟨S64, .f32⟩ : BufTy).Contents (Elt F)),
    StableHlo.unary main_v71 main_v90 ((extractStridedSlice S64x1 ![0, 1] · slices_S64x2_S64x1_0_1) : (⟨S64x2, .f32⟩ : BufTy).Contents (Elt F) → (⟨S64x1, .f32⟩ : BufTy).Contents (Elt F)),
    StableHlo.reshape main_v90 main_v91 rfl shapeCasts_S64x1_S64,
    StableHlo.unary main_v73 main_v92 ((extractStridedSlice S64x1 ![0, 0] · slices_S64x2_S64x1_0_0) : (⟨S64x2, .f32⟩ : BufTy).Contents (Elt F) → (⟨S64x1, .f32⟩ : BufTy).Contents (Elt F)),
    StableHlo.reshape main_v92 main_v93 rfl shapeCasts_S64x1_S64,
    StableHlo.binary main_v91 main_v93 main_v94 (mulf : (⟨S64, .f32⟩ : BufTy).Contents (Elt F) → (⟨S64, .f32⟩ : BufTy).Contents (Elt F) → (⟨S64, .f32⟩ : BufTy).Contents (Elt F)),
    StableHlo.binary main_v89 main_v94 main_v95 (addf : (⟨S64, .f32⟩ : BufTy).Contents (Elt F) → (⟨S64, .f32⟩ : BufTy).Contents (Elt F) → (⟨S64, .f32⟩ : BufTy).Contents (Elt F)),
    StableHlo.unary main_v84 main_v96 (broadcastInDim S64x1 ![0] bcast_S64_S64x1_0 : (⟨S64, .f32⟩ : BufTy).Contents (Elt F) → (⟨S64x1, .f32⟩ : BufTy).Contents (Elt F)),
    StableHlo.unary main_v95 main_v97 (broadcastInDim S64x1 ![0] bcast_S64_S64x1_0 : (⟨S64, .f32⟩ : BufTy).Contents (Elt F) → (⟨S64x1, .f32⟩ : BufTy).Contents (Elt F)),
    StableHlo.binary main_v96 main_v97 main_v98 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 107 … 133 of 179; the last writes main_v125. -/
abbrev rL4 : List (HloOp τ sig (Elt F)) :=
  [ StableHlo.unary main_v12 main_v99 ((extractStridedSlice S1x64x2 ![0, 0, 0] · slices_S8x64x2_S1x64x2_0_0_0) : (⟨S8x64x2, .f32⟩ : BufTy).Contents (Elt F) → (⟨S1x64x2, .f32⟩ : BufTy).Contents (Elt F)),
    StableHlo.reshape main_v99 main_v100 rfl shapeCasts_S1x64x2_S64x2,
    StableHlo.unary main_v98 main_v101 ((extractStridedSlice S64x1 ![0, 0] · slices_S64x2_S64x1_0_0) : (⟨S64x2, .f32⟩ : BufTy).Contents (Elt F) → (⟨S64x1, .f32⟩ : BufTy).Contents (Elt F)),
    StableHlo.reshape main_v101 main_v102 rfl shapeCasts_S64x1_S64,
    StableHlo.unary main_v100 main_v103 ((extractStridedSlice S64x1 ![0, 0] · slices_S64x2_S64x1_0_0) : (⟨S64x2, .f32⟩ : BufTy).Contents (Elt F) → (⟨S64x1, .f32⟩ : BufTy).Contents (Elt F)),
    StableHlo.reshape main_v103 main_v104 rfl shapeCasts_S64x1_S64,
    StableHlo.binary main_v102 main_v104 main_v105 (mulf : (⟨S64, .f32⟩ : BufTy).Contents (Elt F) → (⟨S64, .f32⟩ : BufTy).Contents (Elt F) → (⟨S64, .f32⟩ : BufTy).Contents (Elt F)),
    StableHlo.unary main_v98 main_v106 ((extractStridedSlice S64x1 ![0, 1] · slices_S64x2_S64x1_0_1) : (⟨S64x2, .f32⟩ : BufTy).Contents (Elt F) → (⟨S64x1, .f32⟩ : BufTy).Contents (Elt F)),
    StableHlo.reshape main_v106 main_v107 rfl shapeCasts_S64x1_S64,
    StableHlo.unary main_v100 main_v108 ((extractStridedSlice S64x1 ![0, 1] · slices_S64x2_S64x1_0_1) : (⟨S64x2, .f32⟩ : BufTy).Contents (Elt F) → (⟨S64x1, .f32⟩ : BufTy).Contents (Elt F)),
    StableHlo.reshape main_v108 main_v109 rfl shapeCasts_S64x1_S64,
    StableHlo.binary main_v107 main_v109 main_v110 (mulf : (⟨S64, .f32⟩ : BufTy).Contents (Elt F) → (⟨S64, .f32⟩ : BufTy).Contents (Elt F) → (⟨S64, .f32⟩ : BufTy).Contents (Elt F)),
    StableHlo.binary main_v105 main_v110 main_v111 (subf : (⟨S64, .f32⟩ : BufTy).Contents (Elt F) → (⟨S64, .f32⟩ : BufTy).Contents (Elt F) → (⟨S64, .f32⟩ : BufTy).Contents (Elt F)),
    StableHlo.unary main_v98 main_v112 ((extractStridedSlice S64x1 ![0, 0] · slices_S64x2_S64x1_0_0) : (⟨S64x2, .f32⟩ : BufTy).Contents (Elt F) → (⟨S64x1, .f32⟩ : BufTy).Contents (Elt F)),
    StableHlo.reshape main_v112 main_v113 rfl shapeCasts_S64x1_S64,
    StableHlo.unary main_v100 main_v114 ((extractStridedSlice S64x1 ![0, 1] · slices_S64x2_S64x1_0_1) : (⟨S64x2, .f32⟩ : BufTy).Contents (Elt F) → (⟨S64x1, .f32⟩ : BufTy).Contents (Elt F)),
    StableHlo.reshape main_v114 main_v115 rfl shapeCasts_S64x1_S64,
    StableHlo.binary main_v113 main_v115 main_v116 (mulf : (⟨S64, .f32⟩ : BufTy).Contents (Elt F) → (⟨S64, .f32⟩ : BufTy).Contents (Elt F) → (⟨S64, .f32⟩ : BufTy).Contents (Elt F)),
    StableHlo.unary main_v98 main_v117 ((extractStridedSlice S64x1 ![0, 1] · slices_S64x2_S64x1_0_1) : (⟨S64x2, .f32⟩ : BufTy).Contents (Elt F) → (⟨S64x1, .f32⟩ : BufTy).Contents (Elt F)),
    StableHlo.reshape main_v117 main_v118 rfl shapeCasts_S64x1_S64,
    StableHlo.unary main_v100 main_v119 ((extractStridedSlice S64x1 ![0, 0] · slices_S64x2_S64x1_0_0) : (⟨S64x2, .f32⟩ : BufTy).Contents (Elt F) → (⟨S64x1, .f32⟩ : BufTy).Contents (Elt F)),
    StableHlo.reshape main_v119 main_v120 rfl shapeCasts_S64x1_S64,
    StableHlo.binary main_v118 main_v120 main_v121 (mulf : (⟨S64, .f32⟩ : BufTy).Contents (Elt F) → (⟨S64, .f32⟩ : BufTy).Contents (Elt F) → (⟨S64, .f32⟩ : BufTy).Contents (Elt F)),
    StableHlo.binary main_v116 main_v121 main_v122 (addf : (⟨S64, .f32⟩ : BufTy).Contents (Elt F) → (⟨S64, .f32⟩ : BufTy).Contents (Elt F) → (⟨S64, .f32⟩ : BufTy).Contents (Elt F)),
    StableHlo.unary main_v111 main_v123 (broadcastInDim S64x1 ![0] bcast_S64_S64x1_0 : (⟨S64, .f32⟩ : BufTy).Contents (Elt F) → (⟨S64x1, .f32⟩ : BufTy).Contents (Elt F)),
    StableHlo.unary main_v122 main_v124 (broadcastInDim S64x1 ![0] bcast_S64_S64x1_0 : (⟨S64, .f32⟩ : BufTy).Contents (Elt F) → (⟨S64x1, .f32⟩ : BufTy).Contents (Elt F)),
    StableHlo.binary main_v123 main_v124 main_v125 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

/-- The operations at positions 134 … 139 of 179; the last writes main_v131. -/
abbrev rE : List (HloOp τ sig (Elt F)) :=
  [ StableHlo.unary main_v125 main_v126 (broadcastInDim S1x64x2 ![1, 2] bcast_S64x2_S1x64x2_1_2 : (⟨S64x2, .f32⟩ : BufTy).Contents (Elt F) → (⟨S1x64x2, .f32⟩ : BufTy).Contents (Elt F)),
    StableHlo.unary main_v98 main_v127 (broadcastInDim S1x64x2 ![1, 2] bcast_S64x2_S1x64x2_1_2 : (⟨S64x2, .f32⟩ : BufTy).Contents (Elt F) → (⟨S1x64x2, .f32⟩ : BufTy).Contents (Elt F)),
    StableHlo.unary main_v71 main_v128 (broadcastInDim S1x64x2 ![1, 2] bcast_S64x2_S1x64x2_1_2 : (⟨S64x2, .f32⟩ : BufTy).Contents (Elt F) → (⟨S1x64x2, .f32⟩ : BufTy).Contents (Elt F)),
    StableHlo.unary main_v44 main_v129 (broadcastInDim S1x64x2 ![1, 2] bcast_S64x2_S1x64x2_1_2 : (⟨S64x2, .f32⟩ : BufTy).Contents (Elt F) → (⟨S1x64x2, .f32⟩ : BufTy).Contents (Elt F)),
    StableHlo.unary main_v17 main_v130 (broadcastInDim S1x64x2 ![1, 2] bcast_S64x2_S1x64x2_1_2 : (⟨S64x2, .f32⟩ : BufTy).Contents (Elt F) → (⟨S1x64x2, .f32⟩ : BufTy).Contents (Elt F)),
    StableHlo.nary ![main_v126, main_v127, main_v128, main_v129, main_v130] main_v131 (fun u => concatenate S5x64x2 0 [⟨S1x64x2, u 0⟩, ⟨S1x64x2, u 1⟩, ⟨S1x64x2, u 2⟩, ⟨S1x64x2, u 3⟩, ⟨S1x64x2, u 4⟩] concatenates_S1x64x2_S1x64x2_S1x64x2_S1x64x2_S1x64x2_S5x64x2_d0) ]

/-- The operations at positions 140 … 178 of 179; the last writes main_v168. -/
abbrev rPost : List (HloOp τ sig (Elt F)) :=
  [ StableHlo.unary main_v0 main_v132 ((extractStridedSlice S262144x5x64x1 ![0, 0, 0, 0] · slices_S262144x5x64x2_S262144x5x64x1_0_0_0_0) : (⟨S262144x5x64x2, .f32⟩ : BufTy).Contents (Elt F) → (⟨S262144x5x64x1, .f32⟩ : BufTy).Contents (Elt F)),
    StableHlo.reshape main_v132 main_v133 rfl shapeCasts_S262144x5x64x1_S262144x5x64,
    StableHlo.unary main_v131 main_v134 ((extractStridedSlice S5x64x1 ![0, 0, 0] · slices_S5x64x2_S5x64x1_0_0_0) : (⟨S5x64x2, .f32⟩ : BufTy).Contents (Elt F) → (⟨S5x64x1, .f32⟩ : BufTy).Contents (Elt F)),
    StableHlo.reshape main_v134 main_v135 rfl shapeCasts_S5x64x1_S5x64,
    StableHlo.unary main_v135 main_v136 (broadcastInDim S1x5x64 ![1, 2] bcast_S5x64_S1x5x64_1_2 : (⟨S5x64, .f32⟩ : BufTy).Contents (Elt F) → (⟨S1x5x64, .f32⟩ : BufTy).Contents (Elt F)),
    StableHlo.unary main_v136 main_v137 (broadcastInDim S262144x5x64 ![0, 1, 2] bcast_S1x5x64_S262144x5x64_0_1_2 : (⟨S1x5x64, .f32⟩ : BufTy).Contents (Elt F) → (⟨S262144x5x64, .f32⟩ : BufTy).Contents (Elt F)),
    StableHlo.binary main_v133 main_v137 main_v138 (mulf : (⟨S262144x5x64, .f32⟩ : BufTy).Contents (Elt F) → (⟨S262144x5x64, .f32⟩ : BufTy).Contents (Elt F) → (⟨S262144x5x64, .f32⟩ : BufTy).Contents (Elt F)),
    StableHlo.unary main_v0 main_v139 ((extractStridedSlice S262144x5x64x1 ![0, 0, 0, 1] · slices_S262144x5x64x2_S262144x5x64x1_0_0_0_1) : (⟨S262144x5x64x2, .f32⟩ : BufTy).Contents (Elt F) → (⟨S262144x5x64x1, .f32⟩ : BufTy).Contents (Elt F)),
    StableHlo.reshape main_v139 main_v140 rfl shapeCasts_S262144x5x64x1_S262144x5x64,
    StableHlo.unary main_v131 main_v141 ((extractStridedSlice S5x64x1 ![0, 0, 1] · slices_S5x64x2_S5x64x1_0_0_1) : (⟨S5x64x2, .f32⟩ : BufTy).Contents (Elt F) → (⟨S5x64x1, .f32⟩ : BufTy).Contents (Elt F)),
    StableHlo.reshape main_v141 main_v142 rfl shapeCasts_S5x64x1_S5x64,
    StableHlo.unary main_v142 main_v143 (broadcastInDim S1x5x64 ![1, 2] bcast_S5x64_S1x5x64_1_2 : (⟨S5x64, .f32⟩ : BufTy).Contents (Elt F) → (⟨S1x5x64, .f32⟩ : BufTy).Contents (Elt F)),
    StableHlo.unary main_v143 main_v144 (broadcastInDim S262144x5x64 ![0, 1, 2] bcast_S1x5x64_S262144x5x64_0_1_2 : (⟨S1x5x64, .f32⟩ : BufTy).Contents (Elt F) → (⟨S262144x5x64, .f32⟩ : BufTy).Contents (Elt F)),
    StableHlo.binary main_v140 main_v144 main_v145 (mulf : (⟨S262144x5x64, .f32⟩ : BufTy).Contents (Elt F) → (⟨S262144x5x64, .f32⟩ : BufTy).Contents (Elt F) → (⟨S262144x5x64, .f32⟩ : BufTy).Contents (Elt F)),
    StableHlo.binary main_v138 main_v145 main_v146 (subf : (⟨S262144x5x64, .f32⟩ : BufTy).Contents (Elt F) → (⟨S262144x5x64, .f32⟩ : BufTy).Contents (Elt F) → (⟨S262144x5x64, .f32⟩ : BufTy).Contents (Elt F)),
    StableHlo.unary main_v0 main_v147 ((extractStridedSlice S262144x5x64x1 ![0, 0, 0, 0] · slices_S262144x5x64x2_S262144x5x64x1_0_0_0_0) : (⟨S262144x5x64x2, .f32⟩ : BufTy).Contents (Elt F) → (⟨S262144x5x64x1, .f32⟩ : BufTy).Contents (Elt F)),
    StableHlo.reshape main_v147 main_v148 rfl shapeCasts_S262144x5x64x1_S262144x5x64,
    StableHlo.unary main_v131 main_v149 ((extractStridedSlice S5x64x1 ![0, 0, 1] · slices_S5x64x2_S5x64x1_0_0_1) : (⟨S5x64x2, .f32⟩ : BufTy).Contents (Elt F) → (⟨S5x64x1, .f32⟩ : BufTy).Contents (Elt F)),
    StableHlo.reshape main_v149 main_v150 rfl shapeCasts_S5x64x1_S5x64,
    StableHlo.unary main_v150 main_v151 (broadcastInDim S1x5x64 ![1, 2] bcast_S5x64_S1x5x64_1_2 : (⟨S5x64, .f32⟩ : BufTy).Contents (Elt F) → (⟨S1x5x64, .f32⟩ : BufTy).Contents (Elt F)),
    StableHlo.unary main_v151 main_v152 (broadcastInDim S262144x5x64 ![0, 1, 2] bcast_S1x5x64_S262144x5x64_0_1_2 : (⟨S1x5x64, .f32⟩ : BufTy).Contents (Elt F) → (⟨S262144x5x64, .f32⟩ : BufTy).Contents (Elt F)),
    StableHlo.binary main_v148 main_v152 main_v153 (mulf : (⟨S262144x5x64, .f32⟩ : BufTy).Contents (Elt F) → (⟨S262144x5x64, .f32⟩ : BufTy).Contents (Elt F) → (⟨S262144x5x64, .f32⟩ : BufTy).Contents (Elt F)),
    StableHlo.unary main_v0 main_v154 ((extractStridedSlice S262144x5x64x1 ![0, 0, 0, 1] · slices_S262144x5x64x2_S262144x5x64x1_0_0_0_1) : (⟨S262144x5x64x2, .f32⟩ : BufTy).Contents (Elt F) → (⟨S262144x5x64x1, .f32⟩ : BufTy).Contents (Elt F)),
    StableHlo.reshape main_v154 main_v155 rfl shapeCasts_S262144x5x64x1_S262144x5x64,
    StableHlo.unary main_v131 main_v156 ((extractStridedSlice S5x64x1 ![0, 0, 0] · slices_S5x64x2_S5x64x1_0_0_0) : (⟨S5x64x2, .f32⟩ : BufTy).Contents (Elt F) → (⟨S5x64x1, .f32⟩ : BufTy).Contents (Elt F)),
    StableHlo.reshape main_v156 main_v157 rfl shapeCasts_S5x64x1_S5x64,
    StableHlo.unary main_v157 main_v158 (broadcastInDim S1x5x64 ![1, 2] bcast_S5x64_S1x5x64_1_2 : (⟨S5x64, .f32⟩ : BufTy).Contents (Elt F) → (⟨S1x5x64, .f32⟩ : BufTy).Contents (Elt F)),
    StableHlo.unary main_v158 main_v159 (broadcastInDim S262144x5x64 ![0, 1, 2] bcast_S1x5x64_S262144x5x64_0_1_2 : (⟨S1x5x64, .f32⟩ : BufTy).Contents (Elt F) → (⟨S262144x5x64, .f32⟩ : BufTy).Contents (Elt F)),
    StableHlo.binary main_v155 main_v159 main_v160 (mulf : (⟨S262144x5x64, .f32⟩ : BufTy).Contents (Elt F) → (⟨S262144x5x64, .f32⟩ : BufTy).Contents (Elt F) → (⟨S262144x5x64, .f32⟩ : BufTy).Contents (Elt F)),
    StableHlo.binary main_v153 main_v160 main_v161 (addf : (⟨S262144x5x64, .f32⟩ : BufTy).Contents (Elt F) → (⟨S262144x5x64, .f32⟩ : BufTy).Contents (Elt F) → (⟨S262144x5x64, .f32⟩ : BufTy).Contents (Elt F)),
    StableHlo.unary main_v146 main_v162 (broadcastInDim S262144x5x64x1 ![0, 1, 2] bcast_S262144x5x64_S262144x5x64x1_0_1_2 : (⟨S262144x5x64, .f32⟩ : BufTy).Contents (Elt F) → (⟨S262144x5x64x1, .f32⟩ : BufTy).Contents (Elt F)),
    StableHlo.unary main_v161 main_v163 (broadcastInDim S262144x5x64x1 ![0, 1, 2] bcast_S262144x5x64_S262144x5x64x1_0_1_2 : (⟨S262144x5x64, .f32⟩ : BufTy).Contents (Elt F) → (⟨S262144x5x64x1, .f32⟩ : BufTy).Contents (Elt F)),
    StableHlo.binary main_v162 main_v163 main_v164 ((fun a b => concatenate S262144x5x64x2 3 [⟨S262144x5x64x1, a⟩, ⟨S262144x5x64x1, b⟩] concatenates_S262144x5x64x1_S262144x5x64x1_S262144x5x64x2_d3) : (⟨S262144x5x64x1, .f32⟩ : BufTy).Contents (Elt F) → (⟨S262144x5x64x1, .f32⟩ : BufTy).Contents (Elt F) → (⟨S262144x5x64x2, .f32⟩ : BufTy).Contents (Elt F)),
    StableHlo.reshape main_v164 main_v165 rfl shapeCasts_S262144x5x64x2_S262144x5x128,
    StableHlo.nullary main_cst_3 (constant S_ .f32 0x00000000#32),
    StableHlo.binary main_v165 main_cst_3 main_v166 ((fun x v => Host.reduceAdd x v reducesTo_S262144x5x128_S262144x128_d1 h_S_) : (⟨S262144x5x128, .f32⟩ : BufTy).Contents (Elt F) → (⟨S_, .f32⟩ : BufTy).Contents (Elt F) → (⟨S262144x128, .f32⟩ : BufTy).Contents (Elt F)),
    StableHlo.nullary main_cst_4 (constant S_ .f32 0x40A00000#32),
    StableHlo.unary main_cst_4 main_v167 (broadcastInDim S262144x128 ![] bcast_S_S262144x128 : (⟨S_, .f32⟩ : BufTy).Contents (Elt F) → (⟨S262144x128, .f32⟩ : BufTy).Contents (Elt F)),
    StableHlo.binary main_v166 main_v167 main_v168 (Host.divf : (⟨S262144x128, .f32⟩ : BufTy).Contents (Elt F) → (⟨S262144x128, .f32⟩ : BufTy).Contents (Elt F) → (⟨S262144x128, .f32⟩ : BufTy).Contents (Elt F)) ]

set_option maxRecDepth 8192 in
set_option maxHeartbeats 4000000 in
/-- The reference program's operations are the eight stages in order. -/
theorem r_cut : (Cert.ReferenceIdeal.Rn.ops (F := F)) = rP0 ++ (rP1 ++ (rL1 ++ (rL2 ++ (rL3 ++ (rL4 ++ (rE ++ rPost)))))) := rfl

end R

end Cert.Bridge

end
-- ==== Proof.RotStart.lean ====
/-
  The first two stages of the rotation table, the same in the two programs. Both build the table from the rotation vectors
  `r_vec : [4, 64, 2]` by the same operations, their buffers numbered one apart. Stage one normalizes the vectors (each divided
  by the larger of its norm and a small constant), forms their conjugates, and stacks the two families as `[8, 64, 2]`; it
  reads nothing but `r_vec`, so from equal `r_vec` the two stacks are equal. Stage two is the unit rotation `(1, 0)` at every
  pair, built from constants alone. Each stage leaves what the later stages still read as it was.
-/
import proofs.«423924_j10677288698548_4_alg».proof.Proof.RotPieces
import Idealize.ShloMosaic.Lib.StableHlo.Run

noncomputable section

namespace Cert.Bridge

open Idealize.ShloMosaic Idealize.ShloMosaic.StableHlo Idealize.SL.Sem

set_option maxRecDepth 8192 in
set_option maxHeartbeats 4000000 in
/-- Stage one: from equal rotation vectors, equal stacks of the normalized vectors and their conjugates. -/
theorem sim_P0 (WK : Valuation KernelIdeal.τ KernelIdeal.sig (Elt Ideal))
    (WR : Valuation ReferenceIdeal.τ ReferenceIdeal.sig (Elt Ideal))
    (h : (WK (Proc.devRef .tc KernelIdeal.main_arg1) : (⟨3, ![4, 64, 2]⟩ : Shape).Idx → EReal)
      = WR (Proc.devRef .tc ReferenceIdeal.main_arg1)) :
    (after kP0 WK (Proc.devRef .tc KernelIdeal.main_v11) : (⟨3, ![8, 64, 2]⟩ : Shape).Idx → EReal)
      = after rP0 WR (Proc.devRef .tc ReferenceIdeal.main_v12) := by
  after_results
  rw [h]
  rfl

set_option maxRecDepth 8192 in
set_option maxHeartbeats 4000000 in
/-- Stage two: the unit rotation at every pair, from constants alone. -/
theorem sim_P1 (WK : Valuation KernelIdeal.τ KernelIdeal.sig (Elt Ideal))
    (WR : Valuation ReferenceIdeal.τ ReferenceIdeal.sig (Elt Ideal)) :
    (after kP1 WK (Proc.devRef .tc KernelIdeal.main_v16) : (⟨2, ![64, 2]⟩ : Shape).Idx → EReal)
      = after rP1 WR (Proc.devRef .tc ReferenceIdeal.main_v17) := by
  after_results

set_option maxRecDepth 8192 in
set_option maxHeartbeats 4000000 in
/-- Stage one does not write the rotation vectors (kernel program). -/
theorem kP0_keeps_arg1 (W : Valuation KernelIdeal.τ KernelIdeal.sig (Elt Ideal)) :
    after kP0 W (Proc.devRef .tc KernelIdeal.main_arg1) = W (Proc.devRef .tc KernelIdeal.main_arg1) := by
  after_results

set_option maxRecDepth 8192 in
set_option maxHeartbeats 4000000 in
/-- Stage one does not write the rotation vectors (reference program). -/
theorem rP0_keeps_arg1 (W : Valuation ReferenceIdeal.τ ReferenceIdeal.sig (Elt Ideal)) :
    after rP0 W (Proc.devRef .tc ReferenceIdeal.main_arg1) = W (Proc.devRef .tc ReferenceIdeal.main_arg1) := by
  after_results

set_option maxRecDepth 8192 in
/-- Stage two does not write the stack (kernel program). -/
theorem kP1_keeps_v11 (W : Valuation KernelIdeal.τ KernelIdeal.sig (Elt Ideal)) :
    after kP1 W (Proc.devRef .tc KernelIdeal.main_v11) = W (Proc.devRef .tc KernelIdeal.main_v11) := by
  after_results

set_option maxRecDepth 8192 in
/-- Stage two does not write the stack (reference program). -/
theorem rP1_keeps_v12 (W : Valuation ReferenceIdeal.τ ReferenceIdeal.sig (Elt Ideal)) :
    after rP1 W (Proc.devRef .tc ReferenceIdeal.main_v12) = W (Proc.devRef .tc ReferenceIdeal.main_v12) := by
  after_results

end Cert.Bridge

end
-- ==== Proof.RotStages.lean ====
/-
  The four levels of the running complex product, in both programs.

  Both host chains build the five rotations the same way: from the stack of eight rotation vectors [8, 64, 2] and the unit
  start (1, 0), four times over, the current 64 complex numbers are multiplied by one row of the stack (rows 7, 5, 2, 0 in
  turn). Each level is the same 27 operations in both programs: the row cut out of the stack, the two slots of the current
  numbers and of the row cut out as vectors, the four products, their difference (real parts) and sum (imaginary parts), and the
  two laid side by side again. Here one level is stated once as a function of the stack and the current numbers, each
  program's 27 operations are shown to compute it from whatever contents they start from, and so the two programs' levels
  agree whenever the two buffers they read agree. A level writes none of the buffers later stages still read (the stack, the
  start, the earlier levels' results): those are kept.
-/
import proofs.«423924_j10677288698548_4_alg».proof.Proof.RotPieces
import Idealize.ShloMosaic.Lib.StableHlo.Run

noncomputable section

namespace Cert.Bridge

open Idealize.ShloMosaic Idealize.ShloMosaic.TcCoe Idealize.SL.Sem Idealize.ShloMosaic.StableHlo

/-! ## One level, as a function -/

/-- The eight stacked rotation vectors [8, 64, 2]. -/
abbrev T8 : Shape := ⟨3, ![8, 64, 2]⟩
/-- One row of the stack, [1, 64, 2]. -/
abbrev T1 : Shape := ⟨3, ![1, 64, 2]⟩
/-- 64 complex numbers, [64, 2]. -/
abbrev T2 : Shape := ⟨2, ![64, 2]⟩
/-- One slot of each, as a column [64, 1]. -/
abbrev Tc : Shape := ⟨2, ![64, 1]⟩
/-- One slot of each, as a vector [64]. -/
abbrev Tv : Shape := ⟨1, ![64]⟩

/-- Slot o of every pair of a [64, 2] array, as a vector. -/
def slot (o : Nat) (x : T2.Idx → EReal) (h : T2.Slices ![0, o] Tc) : Tv.Idx → EReal :=
  shapeCast Tv (extractStridedSlice Tc ![0, o] x h) (by decide)

/-- Two columns side by side make a [64, 2] array. -/
theorem beside : Shape.Concatenates [Tc, Tc] T2 1 := by decide

/-- One level of the running complex product: cur · w, where w is row o of the stack; the real parts c₀w₀ − c₁w₁ and the
    imaginary parts c₀w₁ + c₁w₀ laid side by side. -/
def level (o : Nat) (hs : T8.Slices ![o, 0, 0] T1) (stack : T8.Idx → EReal) (cur : T2.Idx → EReal) : T2.Idx → EReal :=
  concatenate T2 1
    [⟨Tc, broadcastInDim Tc ![0] (by decide)
        (subf (F := Ideal) (φ := .f32)
          (mulf (F := Ideal) (φ := .f32) (slot 0 cur (by decide)) (slot 0 (shapeCast T2 (extractStridedSlice T1 ![o, 0, 0] stack hs) (by decide)) (by decide)))
          (mulf (F := Ideal) (φ := .f32) (slot 1 cur (by decide)) (slot 1 (shapeCast T2 (extractStridedSlice T1 ![o, 0, 0] stack hs) (by decide)) (by decide))))⟩,
     ⟨Tc, broadcastInDim Tc ![0] (by decide)
        (addf (F := Ideal) (φ := .f32)
          (mulf (F := Ideal) (φ := .f32) (slot 0 cur (by decide)) (slot 1 (shapeCast T2 (extractStridedSlice T1 ![o, 0, 0] stack hs) (by decide)) (by decide)))
          (mulf (F := Ideal) (φ := .f32) (slot 1 cur (by decide)) (slot 0 (shapeCast T2 (extractStridedSlice T1 ![o, 0, 0] stack hs) (by decide)) (by decide))))⟩]
    beside

/-! ## Each program's 27 operations compute the level

The fold over the 27 operations is unrolled; each operation's result at a buffer is its function's value if it writes the
buffer and what was there otherwise, which is decided by computation, as are the casts along the buffers' types. -/

set_option maxRecDepth 8192 in
set_option maxHeartbeats 1000000 in
/-- The kernel program's first level: row 7 of the stack. -/
theorem k_L1 (W : Valuation Cert.KernelIdeal.τ Cert.KernelIdeal.sig (Elt Ideal)) :
    (after kL1 W Cert.KernelIdeal.main_v43 : T2.Idx → EReal)
      = level 7 (by decide) (W Cert.KernelIdeal.main_v11) (W Cert.KernelIdeal.main_v16) := by
  simp only [after_cons, after_nil]
  rfl

set_option maxRecDepth 8192 in
set_option maxHeartbeats 1000000 in
/-- The kernel program's second level: row 5 of the stack. -/
theorem k_L2 (W : Valuation Cert.KernelIdeal.τ Cert.KernelIdeal.sig (Elt Ideal)) :
    (after kL2 W Cert.KernelIdeal.main_v70 : T2.Idx → EReal)
      = level 5 (by decide) (W Cert.KernelIdeal.main_v11) (W Cert.KernelIdeal.main_v43) := by
  simp only [after_cons, after_nil]
  rfl

set_option maxRecDepth 8192 in
set_option maxHeartbeats 1000000 in
/-- The kernel program's third level: row 2 of the stack. -/
theorem k_L3 (W : Valuation Cert.KernelIdeal.τ Cert.KernelIdeal.sig (Elt Ideal)) :
    (after kL3 W Cert.KernelIdeal.main_v97 : T2.Idx → EReal)
      = level 2 (by decide) (W Cert.KernelIdeal.main_v11) (W Cert.KernelIdeal.main_v70) := by
  simp only [after_cons, after_nil]
  rfl

set_option maxRecDepth 8192 in
set_option maxHeartbeats 1000000 in
/-- The kernel program's fourth level: row 0 of the stack. -/
theorem k_L4 (W : Valuation Cert.KernelIdeal.τ Cert.KernelIdeal.sig (Elt Ideal)) :
    (after kL4 W Cert.KernelIdeal.main_v124 : T2.Idx → EReal)
      = level 0 (by decide) (W Cert.KernelIdeal.main_v11) (W Cert.KernelIdeal.main_v97) := by
  simp only [after_cons, after_nil]
  rfl

set_option maxRecDepth 8192 in
set_option maxHeartbeats 1000000 in
/-- The reference program's first level: row 7 of the stack. -/
theorem r_L1 (W : Valuation Cert.ReferenceIdeal.τ Cert.ReferenceIdeal.sig (Elt Ideal)) :
    (after rL1 W Cert.ReferenceIdeal.main_v44 : T2.Idx → EReal)
      = level 7 (by decide) (W Cert.ReferenceIdeal.main_v12) (W Cert.ReferenceIdeal.main_v17) := by
  simp only [after_cons, after_nil]
  rfl

set_option maxRecDepth 8192 in
set_option maxHeartbeats 1000000 in
/-- The reference program's second level: row 5 of the stack. -/
theorem r_L2 (W : Valuation Cert.ReferenceIdeal.τ Cert.ReferenceIdeal.sig (Elt Ideal)) :
    (after rL2 W Cert.ReferenceIdeal.main_v71 : T2.Idx → EReal)
      = level 5 (by decide) (W Cert.ReferenceIdeal.main_v12) (W Cert.ReferenceIdeal.main_v44) := by
  simp only [after_cons, after_nil]
  rfl

set_option maxRecDepth 8192 in
set_option maxHeartbeats 1000000 in
/-- The reference program's third level: row 2 of the stack. -/
theorem r_L3 (W : Valuation Cert.ReferenceIdeal.τ Cert.ReferenceIdeal.sig (Elt Ideal)) :
    (after rL3 W Cert.ReferenceIdeal.main_v98 : T2.Idx → EReal)
      = level 2 (by decide) (W Cert.ReferenceIdeal.main_v12) (W Cert.ReferenceIdeal.main_v71) := by
  simp only [after_cons, after_nil]
  rfl

set_option maxRecDepth 8192 in
set_option maxHeartbeats 1000000 in
/-- The reference program's fourth level: row 0 of the stack. -/
theorem r_L4 (W : Valuation Cert.ReferenceIdeal.τ Cert.ReferenceIdeal.sig (Elt Ideal)) :
    (after rL4 W Cert.ReferenceIdeal.main_v125 : T2.Idx → EReal)
      = level 0 (by decide) (W Cert.ReferenceIdeal.main_v12) (W Cert.ReferenceIdeal.main_v98) := by
  simp only [after_cons, after_nil]
  rfl

/-! ## The two programs' levels agree -/

/-- The first level: if the stacks agree and the current numbers agree, so do the products. -/
theorem sim_L1 (WK : Valuation Cert.KernelIdeal.τ Cert.KernelIdeal.sig (Elt Ideal)) (WR : Valuation Cert.ReferenceIdeal.τ Cert.ReferenceIdeal.sig (Elt Ideal))
    (hstack : (WK Cert.KernelIdeal.main_v11 : T8.Idx → EReal) = WR Cert.ReferenceIdeal.main_v12)
    (hcur : (WK Cert.KernelIdeal.main_v16 : T2.Idx → EReal) = WR Cert.ReferenceIdeal.main_v17) :
    (after kL1 WK Cert.KernelIdeal.main_v43 : T2.Idx → EReal) = after rL1 WR Cert.ReferenceIdeal.main_v44 := by
  rw [k_L1, r_L1, hstack, hcur]

/-- The second level: if the stacks agree and the current numbers agree, so do the products. -/
theorem sim_L2 (WK : Valuation Cert.KernelIdeal.τ Cert.KernelIdeal.sig (Elt Ideal)) (WR : Valuation Cert.ReferenceIdeal.τ Cert.ReferenceIdeal.sig (Elt Ideal))
    (hstack : (WK Cert.KernelIdeal.main_v11 : T8.Idx → EReal) = WR Cert.ReferenceIdeal.main_v12)
    (hcur : (WK Cert.KernelIdeal.main_v43 : T2.Idx → EReal) = WR Cert.ReferenceIdeal.main_v44) :
    (after kL2 WK Cert.KernelIdeal.main_v70 : T2.Idx → EReal) = after rL2 WR Cert.ReferenceIdeal.main_v71 := by
  rw [k_L2, r_L2, hstack, hcur]

/-- The third level: if the stacks agree and the current numbers agree, so do the products. -/
theorem sim_L3 (WK : Valuation Cert.KernelIdeal.τ Cert.KernelIdeal.sig (Elt Ideal)) (WR : Valuation Cert.ReferenceIdeal.τ Cert.ReferenceIdeal.sig (Elt Ideal))
    (hstack : (WK Cert.KernelIdeal.main_v11 : T8.Idx → EReal) = WR Cert.ReferenceIdeal.main_v12)
    (hcur : (WK Cert.KernelIdeal.main_v70 : T2.Idx → EReal) = WR Cert.ReferenceIdeal.main_v71) :
    (after kL3 WK Cert.KernelIdeal.main_v97 : T2.Idx → EReal) = after rL3 WR Cert.ReferenceIdeal.main_v98 := by
  rw [k_L3, r_L3, hstack, hcur]

/-- The fourth level: if the stacks agree and the current numbers agree, so do the products. -/
theorem sim_L4 (WK : Valuation Cert.KernelIdeal.τ Cert.KernelIdeal.sig (Elt Ideal)) (WR : Valuation Cert.ReferenceIdeal.τ Cert.ReferenceIdeal.sig (Elt Ideal))
    (hstack : (WK Cert.KernelIdeal.main_v11 : T8.Idx → EReal) = WR Cert.ReferenceIdeal.main_v12)
    (hcur : (WK Cert.KernelIdeal.main_v97 : T2.Idx → EReal) = WR Cert.ReferenceIdeal.main_v98) :
    (after kL4 WK Cert.KernelIdeal.main_v124 : T2.Idx → EReal) = after rL4 WR Cert.ReferenceIdeal.main_v125 := by
  rw [k_L4, r_L4, hstack, hcur]

/-! ## What a stage keeps

Each operation writes its one result buffer; a buffer that is none of a stage's results is as it was after the stage. -/

/-- No operation of the list writes the reference: the references differ, by computation. -/
local macro "not_written" : tactic =>
  `(tactic| (simp only [List.Forall, nullary_writes, unary_writes, binary_writes, reshape_writes, nary_writes, Finset.mem_singleton]
             repeat' apply And.intro
             all_goals exact devRef_ne_of_ne (by decide)))

set_option maxRecDepth 8192 in
theorem kL1_keeps_v11 (W : Valuation Cert.KernelIdeal.τ Cert.KernelIdeal.sig (Elt Ideal)) :
    after kL1 W Cert.KernelIdeal.main_v11 = W Cert.KernelIdeal.main_v11 :=
  after_of_forall_not_mem kL1 W (List.forall_iff_forall_mem.mp (by not_written))

set_option maxRecDepth 8192 in
theorem kL1_keeps_v16 (W : Valuation Cert.KernelIdeal.τ Cert.KernelIdeal.sig (Elt Ideal)) :
    after kL1 W Cert.KernelIdeal.main_v16 = W Cert.KernelIdeal.main_v16 :=
  after_of_forall_not_mem kL1 W (List.forall_iff_forall_mem.mp (by not_written))

set_option maxRecDepth 8192 in
theorem kL2_keeps_v11 (W : Valuation Cert.KernelIdeal.τ Cert.KernelIdeal.sig (Elt Ideal)) :
    after kL2 W Cert.KernelIdeal.main_v11 = W Cert.KernelIdeal.main_v11 :=
  after_of_forall_not_mem kL2 W (List.forall_iff_forall_mem.mp (by not_written))

set_option maxRecDepth 8192 in
theorem kL2_keeps_v16 (W : Valuation Cert.KernelIdeal.τ Cert.KernelIdeal.sig (Elt Ideal)) :
    after kL2 W Cert.KernelIdeal.main_v16 = W Cert.KernelIdeal.main_v16 :=
  after_of_forall_not_mem kL2 W (List.forall_iff_forall_mem.mp (by not_written))

set_option maxRecDepth 8192 in
theorem kL2_keeps_v43 (W : Valuation Cert.KernelIdeal.τ Cert.KernelIdeal.sig (Elt Ideal)) :
    after kL2 W Cert.KernelIdeal.main_v43 = W Cert.KernelIdeal.main_v43 :=
  after_of_forall_not_mem kL2 W (List.forall_iff_forall_mem.mp (by not_written))

set_option maxRecDepth 8192 in
theorem kL3_keeps_v11 (W : Valuation Cert.KernelIdeal.τ Cert.KernelIdeal.sig (Elt Ideal)) :
    after kL3 W Cert.KernelIdeal.main_v11 = W Cert.KernelIdeal.main_v11 :=
  after_of_forall_not_mem kL3 W (List.forall_iff_forall_mem.mp (by not_written))

set_option maxRecDepth 8192 in
theorem kL3_keeps_v16 (W : Valuation Cert.KernelIdeal.τ Cert.KernelIdeal.sig (Elt Ideal)) :
    after kL3 W Cert.KernelIdeal.main_v16 = W Cert.KernelIdeal.main_v16 :=
  after_of_forall_not_mem kL3 W (List.forall_iff_forall_mem.mp (by not_written))

set_option maxRecDepth 8192 in
theorem kL3_keeps_v43 (W : Valuation Cert.KernelIdeal.τ Cert.KernelIdeal.sig (Elt Ideal)) :
    after kL3 W Cert.KernelIdeal.main_v43 = W Cert.KernelIdeal.main_v43 :=
  after_of_forall_not_mem kL3 W (List.forall_iff_forall_mem.mp (by not_written))

set_option maxRecDepth 8192 in
theorem kL3_keeps_v70 (W : Valuation Cert.KernelIdeal.τ Cert.KernelIdeal.sig (Elt Ideal)) :
    after kL3 W Cert.KernelIdeal.main_v70 = W Cert.KernelIdeal.main_v70 :=
  after_of_forall_not_mem kL3 W (List.forall_iff_forall_mem.mp (by not_written))

set_option maxRecDepth 8192 in
theorem kL4_keeps_v11 (W : Valuation Cert.KernelIdeal.τ Cert.KernelIdeal.sig (Elt Ideal)) :
    after kL4 W Cert.KernelIdeal.main_v11 = W Cert.KernelIdeal.main_v11 :=
  after_of_forall_not_mem kL4 W (List.forall_iff_forall_mem.mp (by not_written))

set_option maxRecDepth 8192 in
theorem kL4_keeps_v16 (W : Valuation Cert.KernelIdeal.τ Cert.KernelIdeal.sig (Elt Ideal)) :
    after kL4 W Cert.KernelIdeal.main_v16 = W Cert.KernelIdeal.main_v16 :=
  after_of_forall_not_mem kL4 W (List.forall_iff_forall_mem.mp (by not_written))

set_option maxRecDepth 8192 in
theorem kL4_keeps_v43 (W : Valuation Cert.KernelIdeal.τ Cert.KernelIdeal.sig (Elt Ideal)) :
    after kL4 W Cert.KernelIdeal.main_v43 = W Cert.KernelIdeal.main_v43 :=
  after_of_forall_not_mem kL4 W (List.forall_iff_forall_mem.mp (by not_written))

set_option maxRecDepth 8192 in
theorem kL4_keeps_v70 (W : Valuation Cert.KernelIdeal.τ Cert.KernelIdeal.sig (Elt Ideal)) :
    after kL4 W Cert.KernelIdeal.main_v70 = W Cert.KernelIdeal.main_v70 :=
  after_of_forall_not_mem kL4 W (List.forall_iff_forall_mem.mp (by not_written))

set_option maxRecDepth 8192 in
theorem kL4_keeps_v97 (W : Valuation Cert.KernelIdeal.τ Cert.KernelIdeal.sig (Elt Ideal)) :
    after kL4 W Cert.KernelIdeal.main_v97 = W Cert.KernelIdeal.main_v97 :=
  after_of_forall_not_mem kL4 W (List.forall_iff_forall_mem.mp (by not_written))

set_option maxRecDepth 8192 in
theorem kPost_keeps_v130 (W : Valuation Cert.KernelIdeal.τ Cert.KernelIdeal.sig (Elt Ideal)) :
    after kPost W Cert.KernelIdeal.main_v130 = W Cert.KernelIdeal.main_v130 :=
  after_of_forall_not_mem kPost W (List.forall_iff_forall_mem.mp (by not_written))

set_option maxRecDepth 8192 in
theorem rL1_keeps_v12 (W : Valuation Cert.ReferenceIdeal.τ Cert.ReferenceIdeal.sig (Elt Ideal)) :
    after rL1 W Cert.ReferenceIdeal.main_v12 = W Cert.ReferenceIdeal.main_v12 :=
  after_of_forall_not_mem rL1 W (List.forall_iff_forall_mem.mp (by not_written))

set_option maxRecDepth 8192 in
theorem rL1_keeps_v17 (W : Valuation Cert.ReferenceIdeal.τ Cert.ReferenceIdeal.sig (Elt Ideal)) :
    after rL1 W Cert.ReferenceIdeal.main_v17 = W Cert.ReferenceIdeal.main_v17 :=
  after_of_forall_not_mem rL1 W (List.forall_iff_forall_mem.mp (by not_written))

set_option maxRecDepth 8192 in
theorem rL2_keeps_v12 (W : Valuation Cert.ReferenceIdeal.τ Cert.ReferenceIdeal.sig (Elt Ideal)) :
    after rL2 W Cert.ReferenceIdeal.main_v12 = W Cert.ReferenceIdeal.main_v12 :=
  after_of_forall_not_mem rL2 W (List.forall_iff_forall_mem.mp (by not_written))

set_option maxRecDepth 8192 in
theorem rL2_keeps_v17 (W : Valuation Cert.ReferenceIdeal.τ Cert.ReferenceIdeal.sig (Elt Ideal)) :
    after rL2 W Cert.ReferenceIdeal.main_v17 = W Cert.ReferenceIdeal.main_v17 :=
  after_of_forall_not_mem rL2 W (List.forall_iff_forall_mem.mp (by not_written))

set_option maxRecDepth 8192 in
theorem rL2_keeps_v44 (W : Valuation Cert.ReferenceIdeal.τ Cert.ReferenceIdeal.sig (Elt Ideal)) :
    after rL2 W Cert.ReferenceIdeal.main_v44 = W Cert.ReferenceIdeal.main_v44 :=
  after_of_forall_not_mem rL2 W (List.forall_iff_forall_mem.mp (by not_written))

set_option maxRecDepth 8192 in
theorem rL3_keeps_v12 (W : Valuation Cert.ReferenceIdeal.τ Cert.ReferenceIdeal.sig (Elt Ideal)) :
    after rL3 W Cert.ReferenceIdeal.main_v12 = W Cert.ReferenceIdeal.main_v12 :=
  after_of_forall_not_mem rL3 W (List.forall_iff_forall_mem.mp (by not_written))

set_option maxRecDepth 8192 in
theorem rL3_keeps_v17 (W : Valuation Cert.ReferenceIdeal.τ Cert.ReferenceIdeal.sig (Elt Ideal)) :
    after rL3 W Cert.ReferenceIdeal.main_v17 = W Cert.ReferenceIdeal.main_v17 :=
  after_of_forall_not_mem rL3 W (List.forall_iff_forall_mem.mp (by not_written))

set_option maxRecDepth 8192 in
theorem rL3_keeps_v44 (W : Valuation Cert.ReferenceIdeal.τ Cert.ReferenceIdeal.sig (Elt Ideal)) :
    after rL3 W Cert.ReferenceIdeal.main_v44 = W Cert.ReferenceIdeal.main_v44 :=
  after_of_forall_not_mem rL3 W (List.forall_iff_forall_mem.mp (by not_written))

set_option maxRecDepth 8192 in
theorem rL3_keeps_v71 (W : Valuation Cert.ReferenceIdeal.τ Cert.ReferenceIdeal.sig (Elt Ideal)) :
    after rL3 W Cert.ReferenceIdeal.main_v71 = W Cert.ReferenceIdeal.main_v71 :=
  after_of_forall_not_mem rL3 W (List.forall_iff_forall_mem.mp (by not_written))

set_option maxRecDepth 8192 in
theorem rL4_keeps_v12 (W : Valuation Cert.ReferenceIdeal.τ Cert.ReferenceIdeal.sig (Elt Ideal)) :
    after rL4 W Cert.ReferenceIdeal.main_v12 = W Cert.ReferenceIdeal.main_v12 :=
  after_of_forall_not_mem rL4 W (List.forall_iff_forall_mem.mp (by not_written))

set_option maxRecDepth 8192 in
theorem rL4_keeps_v17 (W : Valuation Cert.ReferenceIdeal.τ Cert.ReferenceIdeal.sig (Elt Ideal)) :
    after rL4 W Cert.ReferenceIdeal.main_v17 = W Cert.ReferenceIdeal.main_v17 :=
  after_of_forall_not_mem rL4 W (List.forall_iff_forall_mem.mp (by not_written))

set_option maxRecDepth 8192 in
theorem rL4_keeps_v44 (W : Valuation Cert.ReferenceIdeal.τ Cert.ReferenceIdeal.sig (Elt Ideal)) :
    after rL4 W Cert.ReferenceIdeal.main_v44 = W Cert.ReferenceIdeal.main_v44 :=
  after_of_forall_not_mem rL4 W (List.forall_iff_forall_mem.mp (by not_written))

set_option maxRecDepth 8192 in
theorem rL4_keeps_v71 (W : Valuation Cert.ReferenceIdeal.τ Cert.ReferenceIdeal.sig (Elt Ideal)) :
    after rL4 W Cert.ReferenceIdeal.main_v71 = W Cert.ReferenceIdeal.main_v71 :=
  after_of_forall_not_mem rL4 W (List.forall_iff_forall_mem.mp (by not_written))

set_option maxRecDepth 8192 in
theorem rL4_keeps_v98 (W : Valuation Cert.ReferenceIdeal.τ Cert.ReferenceIdeal.sig (Elt Ideal)) :
    after rL4 W Cert.ReferenceIdeal.main_v98 = W Cert.ReferenceIdeal.main_v98 :=
  after_of_forall_not_mem rL4 W (List.forall_iff_forall_mem.mp (by not_written))

set_option maxRecDepth 8192 in
theorem rPost_keeps_v131 (W : Valuation Cert.ReferenceIdeal.τ Cert.ReferenceIdeal.sig (Elt Ideal)) :
    after rPost W Cert.ReferenceIdeal.main_v131 = W Cert.ReferenceIdeal.main_v131 :=
  after_of_forall_not_mem rPost W (List.forall_iff_forall_mem.mp (by not_written))

end Cert.Bridge

end
-- ==== Proof.RotEnd.lean ====
/-
  The last stage of the rotation table, the same in the two programs: the five `[64, 2]` tables of cumulative rotations (the
  four levels of the running complex product, deepest first, and the unit start) are each given a leading unit axis and
  stacked along it as `[5, 64, 2]`. The stage is a pure function of the five tables it reads, so from equal tables the two
  programs' stacks are equal.
-/
import proofs.«423924_j10677288698548_4_alg».proof.Proof.RotPieces
import Idealize.ShloMosaic.Lib.StableHlo.Run

noncomputable section

namespace Cert.Bridge

open Idealize.ShloMosaic Idealize.ShloMosaic.StableHlo Idealize.SL.Sem

/-- Five `[64, 2]` tables, each with a leading unit axis added, stacked along that axis. -/
def end_stack5 (hb : (⟨2, ![64, 2]⟩ : Shape).BroadcastsInDim ⟨3, ![1, 64, 2]⟩ (![1, 2] : Fin 2 → Fin 3))
    (hc : Shape.Concatenates [(⟨3, ![1, 64, 2]⟩ : Shape), ⟨3, ![1, 64, 2]⟩, ⟨3, ![1, 64, 2]⟩, ⟨3, ![1, 64, 2]⟩, ⟨3, ![1, 64, 2]⟩]
      ⟨3, ![5, 64, 2]⟩ 0)
    (c4 c3 c2 c1 c0 : (⟨2, ![64, 2]⟩ : Shape).Idx → EReal) : (⟨3, ![5, 64, 2]⟩ : Shape).Idx → EReal :=
  concatenate ⟨3, ![5, 64, 2]⟩ 0
    [⟨⟨3, ![1, 64, 2]⟩, broadcastInDim ⟨3, ![1, 64, 2]⟩ ![1, 2] hb c4⟩,
     ⟨⟨3, ![1, 64, 2]⟩, broadcastInDim ⟨3, ![1, 64, 2]⟩ ![1, 2] hb c3⟩,
     ⟨⟨3, ![1, 64, 2]⟩, broadcastInDim ⟨3, ![1, 64, 2]⟩ ![1, 2] hb c2⟩,
     ⟨⟨3, ![1, 64, 2]⟩, broadcastInDim ⟨3, ![1, 64, 2]⟩ ![1, 2] hb c1⟩,
     ⟨⟨3, ![1, 64, 2]⟩, broadcastInDim ⟨3, ![1, 64, 2]⟩ ![1, 2] hb c0⟩] hc

set_option maxRecDepth 8192 in
set_option maxHeartbeats 4000000 in
/-- The kernel program's last stage is the stack of the five tables it reads. -/
theorem k_E (W : Valuation KernelIdeal.τ KernelIdeal.sig (Elt Ideal)) :
    (after kE W (Proc.devRef .tc KernelIdeal.main_v130) : (⟨3, ![5, 64, 2]⟩ : Shape).Idx → EReal)
      = end_stack5 (by decide) (by decide) (W (Proc.devRef .tc KernelIdeal.main_v124)) (W (Proc.devRef .tc KernelIdeal.main_v97))
          (W (Proc.devRef .tc KernelIdeal.main_v70)) (W (Proc.devRef .tc KernelIdeal.main_v43))
          (W (Proc.devRef .tc KernelIdeal.main_v16)) := by
  simp only [after_cons, after_nil]
  rfl

set_option maxRecDepth 8192 in
set_option maxHeartbeats 4000000 in
/-- The reference program's last stage is the stack of the five tables it reads. -/
theorem r_E (W : Valuation ReferenceIdeal.τ ReferenceIdeal.sig (Elt Ideal)) :
    (after rE W (Proc.devRef .tc ReferenceIdeal.main_v131) : (⟨3, ![5, 64, 2]⟩ : Shape).Idx → EReal)
      = end_stack5 (by decide) (by decide) (W (Proc.devRef .tc ReferenceIdeal.main_v125)) (W (Proc.devRef .tc ReferenceIdeal.main_v98))
          (W (Proc.devRef .tc ReferenceIdeal.main_v71)) (W (Proc.devRef .tc ReferenceIdeal.main_v44))
          (W (Proc.devRef .tc ReferenceIdeal.main_v17)) := by
  simp only [after_cons, after_nil]
  rfl

/-- The last stage: from equal tables, equal stacks. -/
theorem sim_E (WK : Valuation KernelIdeal.τ KernelIdeal.sig (Elt Ideal))
    (WR : Valuation ReferenceIdeal.τ ReferenceIdeal.sig (Elt Ideal))
    (h124 : (WK (Proc.devRef .tc KernelIdeal.main_v124) : (⟨2, ![64, 2]⟩ : Shape).Idx → EReal)
      = WR (Proc.devRef .tc ReferenceIdeal.main_v125))
    (h97 : (WK (Proc.devRef .tc KernelIdeal.main_v97) : (⟨2, ![64, 2]⟩ : Shape).Idx → EReal)
      = WR (Proc.devRef .tc ReferenceIdeal.main_v98))
    (h70 : (WK (Proc.devRef .tc KernelIdeal.main_v70) : (⟨2, ![64, 2]⟩ : Shape).Idx → EReal)
      = WR (Proc.devRef .tc ReferenceIdeal.main_v71))
    (h43 : (WK (Proc.devRef .tc KernelIdeal.main_v43) : (⟨2, ![64, 2]⟩ : Shape).Idx → EReal)
      = WR (Proc.devRef .tc ReferenceIdeal.main_v44))
    (h16 : (WK (Proc.devRef .tc KernelIdeal.main_v16) : (⟨2, ![64, 2]⟩ : Shape).Idx → EReal)
      = WR (Proc.devRef .tc ReferenceIdeal.main_v17)) :
    (after kE WK (Proc.devRef .tc KernelIdeal.main_v130) : (⟨3, ![5, 64, 2]⟩ : Shape).Idx → EReal)
      = after rE WR (Proc.devRef .tc ReferenceIdeal.main_v131) := by
  rw [k_E, r_E, h124, h97, h70, h43, h16]

end Cert.Bridge

end
-- ==== Proof.RotBridge.lean ====
/-
  The two programs build the same rotation table.

  Both run the same chain of array operations on the rotation vectors `r_vec : [4, 64, 2]`: normalise each pair by its norm
  (clamped below), adjoin the conjugates and stack the two families, and multiply rows of the stack up one after the other
  as complex numbers from `(1, 0)`, keeping every partial product: the five partial products stacked are the table
  `[5, 64, 2]`.  The reference's chain is the kernel program's with every buffer number moved up by one (its first operation
  reshapes the other argument).  The claim: the table the reference holds after its operations and the table the kernel
  program holds when it enters its region are the same array of extended reals, whenever the two launches hold the same
  `r_vec`.

  Each program's operations are cut into the same eight stages: the stack, the unit start, the four levels of the running
  product, the table's assembly, and the rest.  Stage by stage the two programs' results agree whenever the buffers the stage
  reads agree, and a stage leaves the buffers later stages still read as they were; so the agreement on `r_vec` is carried to
  the stack, to the start, through the four levels (each reads the stack and the level before), to the table.  The rest
  writes the table in neither program.
-/
import proofs.«423924_j10677288698548_4_alg».proof.Proof.Spec
import proofs.«423924_j10677288698548_4_alg».proof.Proof.RotStart
import proofs.«423924_j10677288698548_4_alg».proof.Proof.RotStages
import proofs.«423924_j10677288698548_4_alg».proof.Proof.RotEnd

noncomputable section

namespace Cert.Bridge

open Idealize.ShloMosaic Idealize.ShloMosaic.TcCoe Idealize.SL.Sem Idealize.ShloMosaic.StableHlo

/-- An agreement between two buffers' contents is carried across a stage that writes neither. -/
theorem carried {α : Type} {a a' b b' : α} (ka : a' = a) (kb : b' = b) (h : a = b) : a' = b' :=
  ka.trans (h.trans kb.symm)

set_option maxRecDepth 8192 in
/-- The eight stages in order, from any two contents that agree on the rotation vectors: the tables agree. -/
theorem table_eq (VK : Valuation Cert.KernelIdeal.τ Cert.KernelIdeal.sig (Elt Ideal)) (VR : Valuation Cert.ReferenceIdeal.τ Cert.ReferenceIdeal.sig (Elt Ideal))
    (h : (VK Cert.KernelIdeal.main_arg1 : (⟨3, ![4, 64, 2]⟩ : Shape).Idx → EReal) = VR Cert.ReferenceIdeal.main_arg1) :
    (after (rP0 ++ (rP1 ++ (rL1 ++ (rL2 ++ (rL3 ++ (rL4 ++ (rE ++ rPost))))))) VR Cert.ReferenceIdeal.main_v131
        : (⟨3, ![5, 64, 2]⟩ : Shape).Idx → EReal)
      = after (kP0 ++ (kP1 ++ (kL1 ++ (kL2 ++ (kL3 ++ (kL4 ++ (kE ++ kPost))))))) VK Cert.KernelIdeal.main_v130 := by
  simp only [StableHlo.after_append]
  -- the stack
  have s0 : (after kP0 VK Cert.KernelIdeal.main_v11 : T8.Idx → EReal) = after rP0 VR Cert.ReferenceIdeal.main_v12 := sim_P0 VK VR h
  -- the unit start; the stack is kept
  have c1 : (after kP1 (after kP0 VK) Cert.KernelIdeal.main_v16 : T2.Idx → EReal) = after rP1 (after rP0 VR) Cert.ReferenceIdeal.main_v17 :=
    sim_P1 _ _
  have s1 : (after kP1 (after kP0 VK) Cert.KernelIdeal.main_v11 : T8.Idx → EReal) = after rP1 (after rP0 VR) Cert.ReferenceIdeal.main_v12 :=
    carried (kP1_keeps_v11 _) (rP1_keeps_v12 _) s0
  -- the first level
  have c2 : (after kL1 (after kP1 (after kP0 VK)) Cert.KernelIdeal.main_v43 : T2.Idx → EReal)
      = after rL1 (after rP1 (after rP0 VR)) Cert.ReferenceIdeal.main_v44 := sim_L1 _ _ s1 c1
  have s2 : (after kL1 (after kP1 (after kP0 VK)) Cert.KernelIdeal.main_v11 : T8.Idx → EReal)
      = after rL1 (after rP1 (after rP0 VR)) Cert.ReferenceIdeal.main_v12 := carried (kL1_keeps_v11 _) (rL1_keeps_v12 _) s1
  have c1' : (after kL1 (after kP1 (after kP0 VK)) Cert.KernelIdeal.main_v16 : T2.Idx → EReal)
      = after rL1 (after rP1 (after rP0 VR)) Cert.ReferenceIdeal.main_v17 := carried (kL1_keeps_v16 _) (rL1_keeps_v17 _) c1
  -- the second level
  have c3 : (after kL2 (after kL1 (after kP1 (after kP0 VK))) Cert.KernelIdeal.main_v70 : T2.Idx → EReal)
      = after rL2 (after rL1 (after rP1 (after rP0 VR))) Cert.ReferenceIdeal.main_v71 := sim_L2 _ _ s2 c2
  have s3 : (after kL2 (after kL1 (after kP1 (after kP0 VK))) Cert.KernelIdeal.main_v11 : T8.Idx → EReal)
      = after rL2 (after rL1 (after rP1 (after rP0 VR))) Cert.ReferenceIdeal.main_v12 := carried (kL2_keeps_v11 _) (rL2_keeps_v12 _) s2
  have c1'' : (after kL2 (after kL1 (after kP1 (after kP0 VK))) Cert.KernelIdeal.main_v16 : T2.Idx → EReal)
      = after rL2 (after rL1 (after rP1 (after rP0 VR))) Cert.ReferenceIdeal.main_v17 := carried (kL2_keeps_v16 _) (rL2_keeps_v17 _) c1'
  have c2' : (after kL2 (after kL1 (after kP1 (after kP0 VK))) Cert.KernelIdeal.main_v43 : T2.Idx → EReal)
      = after rL2 (after rL1 (after rP1 (after rP0 VR))) Cert.ReferenceIdeal.main_v44 := carried (kL2_keeps_v43 _) (rL2_keeps_v44 _) c2
  -- the third level
  have c4 : (after kL3 (after kL2 (after kL1 (after kP1 (after kP0 VK)))) Cert.KernelIdeal.main_v97 : T2.Idx → EReal)
      = after rL3 (after rL2 (after rL1 (after rP1 (after rP0 VR)))) Cert.ReferenceIdeal.main_v98 := sim_L3 _ _ s3 c3
  have s4 : (after kL3 (after kL2 (after kL1 (after kP1 (after kP0 VK)))) Cert.KernelIdeal.main_v11 : T8.Idx → EReal)
      = after rL3 (after rL2 (after rL1 (after rP1 (after rP0 VR)))) Cert.ReferenceIdeal.main_v12 := carried (kL3_keeps_v11 _) (rL3_keeps_v12 _) s3
  have d1 : (after kL3 (after kL2 (after kL1 (after kP1 (after kP0 VK)))) Cert.KernelIdeal.main_v16 : T2.Idx → EReal)
      = after rL3 (after rL2 (after rL1 (after rP1 (after rP0 VR)))) Cert.ReferenceIdeal.main_v17 := carried (kL3_keeps_v16 _) (rL3_keeps_v17 _) c1''
  have d2 : (after kL3 (after kL2 (after kL1 (after kP1 (after kP0 VK)))) Cert.KernelIdeal.main_v43 : T2.Idx → EReal)
      = after rL3 (after rL2 (after rL1 (after rP1 (after rP0 VR)))) Cert.ReferenceIdeal.main_v44 := carried (kL3_keeps_v43 _) (rL3_keeps_v44 _) c2'
  have d3 : (after kL3 (after kL2 (after kL1 (after kP1 (after kP0 VK)))) Cert.KernelIdeal.main_v70 : T2.Idx → EReal)
      = after rL3 (after rL2 (after rL1 (after rP1 (after rP0 VR)))) Cert.ReferenceIdeal.main_v71 := carried (kL3_keeps_v70 _) (rL3_keeps_v71 _) c3
  -- the fourth level
  have c5 : (after kL4 (after kL3 (after kL2 (after kL1 (after kP1 (after kP0 VK))))) Cert.KernelIdeal.main_v124 : T2.Idx → EReal)
      = after rL4 (after rL3 (after rL2 (after rL1 (after rP1 (after rP0 VR))))) Cert.ReferenceIdeal.main_v125 := sim_L4 _ _ s4 c4
  have e1 : (after kL4 (after kL3 (after kL2 (after kL1 (after kP1 (after kP0 VK))))) Cert.KernelIdeal.main_v16 : T2.Idx → EReal)
      = after rL4 (after rL3 (after rL2 (after rL1 (after rP1 (after rP0 VR))))) Cert.ReferenceIdeal.main_v17 := carried (kL4_keeps_v16 _) (rL4_keeps_v17 _) d1
  have e2 : (after kL4 (after kL3 (after kL2 (after kL1 (after kP1 (after kP0 VK))))) Cert.KernelIdeal.main_v43 : T2.Idx → EReal)
      = after rL4 (after rL3 (after rL2 (after rL1 (after rP1 (after rP0 VR))))) Cert.ReferenceIdeal.main_v44 := carried (kL4_keeps_v43 _) (rL4_keeps_v44 _) d2
  have e3 : (after kL4 (after kL3 (after kL2 (after kL1 (after kP1 (after kP0 VK))))) Cert.KernelIdeal.main_v70 : T2.Idx → EReal)
      = after rL4 (after rL3 (after rL2 (after rL1 (after rP1 (after rP0 VR))))) Cert.ReferenceIdeal.main_v71 := carried (kL4_keeps_v70 _) (rL4_keeps_v71 _) d3
  have e4 : (after kL4 (after kL3 (after kL2 (after kL1 (after kP1 (after kP0 VK))))) Cert.KernelIdeal.main_v97 : T2.Idx → EReal)
      = after rL4 (after rL3 (after rL2 (after rL1 (after rP1 (after rP0 VR))))) Cert.ReferenceIdeal.main_v98 := carried (kL4_keeps_v97 _) (rL4_keeps_v98 _) c4
  -- the table; the rest does not write it
  have t : (after kE (after kL4 (after kL3 (after kL2 (after kL1 (after kP1 (after kP0 VK)))))) Cert.KernelIdeal.main_v130
        : (⟨3, ![5, 64, 2]⟩ : Shape).Idx → EReal)
      = after rE (after rL4 (after rL3 (after rL2 (after rL1 (after rP1 (after rP0 VR)))))) Cert.ReferenceIdeal.main_v131 :=
    sim_E _ _ c5 e4 e3 e2 e1
  exact (carried (kPost_keeps_v130 _) (rPost_keeps_v131 _) t).symm

/-- The rotation table the reference holds after its operations is the one the kernel program holds at its region's entry,
    when the two launches hold the same rotation vectors. -/
theorem rot_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (StableHlo.after Cert.ReferenceIdeal.Rn.ops (StableHlo.launchContents m' c) (Proc.devRef .tc Cert.ReferenceIdeal.main_v131)
        : Cert.RotMean.SRot.Idx → EReal)
      = Cert.KernelIdeal.Fr.V m c Cert.KernelIdeal.main_v130 := by
  have hk : Cert.KernelIdeal.Fr.V m c Cert.KernelIdeal.main_v130
      = after (kP0 ++ (kP1 ++ (kL1 ++ (kL2 ++ (kL3 ++ (kL4 ++ (kE ++ kPost))))))) (fun b => m (c, b))
          (Proc.devRef .tc Cert.KernelIdeal.main_v130) :=
    congrArg (fun l => after l (fun b => m (c, b)) (Proc.devRef .tc Cert.KernelIdeal.main_v130)) (k_cut (F := Ideal))
  rw [hk, r_cut]
  exact table_eq (fun b => m (c, b)) (StableHlo.launchContents m' c) h.symm

end Cert.Bridge

end
-- ==== Proof.lean ====
/-
  The certificate of one Pallas kernel against its jnp reference, over the extended reals.

  The data `e : [262144, 5, 128]` is 64 complex numbers per (row, step): lanes `2k`, `2k+1` are the real and the imaginary part of
  pair `k`.  Both programs first build, by the same host operations on `r_vec : [4, 64, 2]`, the cumulative rotations
  `rot : [5, 64, 2]`.  The reference then multiplies every pair by its rotation (`a·c − b·d` on the even lane, `a·d + b·c` on the odd
  lane), sums the five steps from zero and divides by 5.  The kernel instead lays `rot` out as two lane-dense tables — a cosine table
  with `rot l k 0` on both lanes of pair `k`, a sine table with `−rot l k 1` on the even and `+rot l k 1` on the odd lane —, and per
  block of 512 rows accumulates, step by step from zero, each lane's own entry times the cosine table plus its mate's entry (the
  two lanes of a pair exchanged by two lane rotations and a parity select) times the sine table, and stores the sum times the
  constant named `inv_5`, read as the rational 1/5.

  The modules: `Spec` states the two arrangements and proves them equal entry by entry (commutativity and associativity of `+`,
  `x·(−y) = −(x·y)`, `a − b = a + −b`, `x / 5 = x · (1/5)`: no finiteness is needed, so the precondition is never opened);
  `KBase`, `KFrame` (and their word-level copies) run the kernel program: the host prefix, then the pipeline's 512 points, each
  leaving the output block at the store's value of the point's input blocks; `KPayload`, `KValue` read that value index by index and
  assemble the blocks into the table form of the arrays the region found; `KHost` reads the two tables off `rot`; `ROps`, `RBase` run
  the reference as a straight line of host operations, `RTail`, `RValue` read its result as the pair form; `RotPieces`, `RotStart`,
  `RotStages`, `RotEnd`, `RotBridge` show that the two programs' `rot` are one function of `r_vec`, stage by stage.
-/
import proofs.«423924_j10677288698548_4_alg».proof.Defs
import proofs.«423924_j10677288698548_4_alg».proof.Proof.Gen.Kernel
import proofs.«423924_j10677288698548_4_alg».proof.Proof.Gen.KernelIdeal
import proofs.«423924_j10677288698548_4_alg».proof.Proof.Gen.ReferenceIdeal
import proofs.«423924_j10677288698548_4_alg».proof.Proof.Gen.Pre_finite_inputs
import proofs.«423924_j10677288698548_4_alg».proof.Proof.Spec
import proofs.«423924_j10677288698548_4_alg».proof.Proof.KFrame
import proofs.«423924_j10677288698548_4_alg».proof.Proof.KFrameBits
import proofs.«423924_j10677288698548_4_alg».proof.Proof.KValue
import proofs.«423924_j10677288698548_4_alg».proof.Proof.KHost
import proofs.«423924_j10677288698548_4_alg».proof.Proof.RBase
import proofs.«423924_j10677288698548_4_alg».proof.Proof.RValue
import proofs.«423924_j10677288698548_4_alg».proof.Proof.RotBridge
import Idealize.ShloMosaic.Adequacy
import Idealize.ShloMosaic.Init

noncomputable section

/-! ## The five claims -/

namespace Cert.Proof

open Idealize.ShloMosaic Idealize.ShloMosaic.TcCoe Idealize.SL.Sem Idealize.ShloMosaic.ValueIdx

/-- The word-level kernel program runs to the end, faults nowhere and leaves its two arguments as they were. -/
theorem frame_k : Cert.frame_Kernel := fun m ρ _ => Cert.Kernel.Fr.frame m ρ

/-- The same for its idealization. -/
theorem frame_ki : Cert.frame_KernelIdeal := fun m ρ _ => Cert.KernelIdeal.Fr.frame m ρ

/-- The reference is a straight line of host operations none of which writes an argument. -/
theorem frame_r : Cert.frame_ReferenceIdeal := fun m ρ _ =>
  (θ_run Cert.ReferenceIdeal.defs _ _).mono
    (fun _ h c => ⟨(h c Cert.ReferenceIdeal.main_arg0).trans (Cert.ReferenceIdeal.Rn.arg0_kept _),
      (h c Cert.ReferenceIdeal.main_arg1).trans (Cert.ReferenceIdeal.Rn.arg1_kept _)⟩)
    (Cert.ReferenceIdeal.Rn.run (F := Ideal) m ρ)

/-- The one rewrite of the idealization: the kernel's literal 0x3E4CCCCD is named `inv_5` and read as the rational 1/5. -/
theorem preserves : Cert.preserves_Kernel_KernelIdeal :=
  IdealRules.named_const.statement Cert.KernelIdeal.κ "inv_5" .f32 0x3E4CCCCD#32 ((1 / 5 : ℝ) : EReal) rfl

/-- Both programs end with the same array: the kernel leaves the table form of (e, cosine table, signed sine table), the
    reference the pair form of (e, rot); the tables are rot's, rot is the same function of r_vec in both programs, and the two forms
    agree entry by entry on the extended reals. -/
theorem algebraic : Cert.algebraic_KernelIdeal_ReferenceIdeal := by
  intro m ρ m' ρ' _ hagree
  refine ⟨fun c => Cert.RotMean.tableOut (m ((c.tc : Thread Cert.KernelIdeal.nD Cert.KernelIdeal.τ).loc Cert.KernelIdeal.main_arg0))
      (Cert.KernelIdeal.Fr.V m c Cert.KernelIdeal.main_v136) (Cert.KernelIdeal.Fr.V m c Cert.KernelIdeal.main_v141), ?_, ?_⟩
  · refine (θ_run Cert.KernelIdeal.defs _ _).mono (fun r h c => ⟨?_, ?_, ?_⟩) (Cert.KernelIdeal.Fr.run_main (F := Ideal) m ρ)
    · refine ((h c).1 3).trans ((Cert.KernelIdeal.Val.final m c).trans ?_)
      rw [Cert.KernelIdeal.Fr.V_main_arg0]
    · exact ((h c).1 2).trans (((Cert.KernelIdeal.Fr.dats m 0 c).arrAt_in 2 rfl _).trans
        ((Cert.KernelIdeal.Fr.A_eq m c 2).trans (Cert.KernelIdeal.Fr.V_main_arg0 m c)))
    · exact ((h c).2 Cert.KernelIdeal.main_arg1 (Pipeline.mem_restRefs_of Cert.KernelIdeal.main_arg1 (by decide) (by decide))).trans
        (Cert.KernelIdeal.Fr.V_main_arg1 m c)
  · refine (θ_run Cert.ReferenceIdeal.defs _ _).mono
      (fun r h c => ⟨?_, (h c Cert.ReferenceIdeal.main_arg0).trans (Cert.ReferenceIdeal.Rn.arg0_kept _),
        (h c Cert.ReferenceIdeal.main_arg1).trans (Cert.ReferenceIdeal.Rn.arg1_kept _)⟩)
      (Cert.ReferenceIdeal.Rn.run (F := Ideal) m' ρ')
    refine (h c Cert.ReferenceIdeal.main_v168).trans ?_
    funext i
    obtain ⟨n, q, rfl⟩ : ∃ (n : Fin 262144) (q : Fin 128), i = ix2 n q := ⟨i 0, i 1, eq_ix2 i⟩
    rw [Cert.ReferenceIdeal.RefVal.out_eq]
    show _ = Cert.RotMean.tableOut _ _ _ (ix2 n q)
    rw [Cert.RotMean.tableOut_apply,
      Cert.RotMean.tableAt_eq_pairAt _ (Cert.KernelIdeal.Fr.V m c Cert.KernelIdeal.main_v130) _ _
        (Cert.KernelIdeal.Host.cos_table m c) (Cert.KernelIdeal.Host.sin_table m c)]
    rw [Cert.Bridge.rot_eq m m' c (hagree c).2]
    exact congrArg (fun e => Cert.RotMean.pairAt e _ n q) (hagree c).1

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
